-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S10000x512 : Shape := ⟨2, ![10000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_

variable [Facts]

def fn {F : FTy → Type} [FloatOps F] (main_arg0 : FVec F S4096x512 .f32) (main_arg1 : FVec F S10000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  main_v8
-- ==== Kernel.lean ====
abbrev S4096x512 : Shape := ⟨2, ![4096, 512]⟩
abbrev S10000x512 : Shape := ⟨2, ![10000, 512]⟩
abbrev S4096x1 : Shape := ⟨2, ![4096, 1]⟩
abbrev S2048x512 : Shape := ⟨2, ![2048, 512]⟩
abbrev S2048x1 : Shape := ⟨2, ![2048, 1]⟩
abbrev S2048 : Shape := ⟨1, ![2048]⟩
abbrev S10000x1 : Shape := ⟨2, ![10000, 1]⟩
abbrev S2560x512 : Shape := ⟨2, ![2560, 512]⟩
abbrev S2560x1 : Shape := ⟨2, ![2560, 1]⟩
abbrev S2560 : Shape := ⟨1, ![2560]⟩
abbrev S1x10000 : Shape := ⟨2, ![1, 10000]⟩
abbrev S4096x10000 : Shape := ⟨2, ![4096, 10000]⟩
abbrev S512x512 : Shape := ⟨2, ![512, 512]⟩
abbrev S512x1 : Shape := ⟨2, ![512, 1]⟩
abbrev S1x2560 : Shape := ⟨2, ![1, 2560]⟩
abbrev S512x2560 : Shape := ⟨2, ![512, 2560]⟩

abbrev nBuf : Space → Nat
  | .hbm => 8
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S10000x512, .f32⟩
  | .hbm, ⟨2, _⟩ => ⟨S4096x512, .bf16⟩
  | .hbm, ⟨3, _⟩ => ⟨S4096x1, .f32⟩
  | .hbm, ⟨4, _⟩ => ⟨S10000x512, .bf16⟩
  | .hbm, ⟨5, _⟩ => ⟨S10000x1, .f32⟩
  | .hbm, ⟨6, _⟩ => ⟨S1x10000, .f32⟩
  | .hbm, ⟨7, _⟩ => ⟨S4096x10000, .f32⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | .local _ .vmem, ⟨4, _⟩ => ⟨S2048x1, .f32⟩
  | .local _ .vmem, ⟨5, _⟩ => ⟨S2048x1, .f32⟩
  | .local _ .vmem, ⟨6, _⟩ => ⟨S2560x512, .f32⟩
  | .local _ .vmem, ⟨7, _⟩ => ⟨S2560x512, .f32⟩
  | .local _ .vmem, ⟨8, _⟩ => ⟨S2560x512, .bf16⟩
  | .local _ .vmem, ⟨9, _⟩ => ⟨S2560x512, .bf16⟩
  | .local _ .vmem, ⟨10, _⟩ => ⟨S2560x1, .f32⟩
  | .local _ .vmem, ⟨11, _⟩ => ⟨S2560x1, .f32⟩
  | .local _ .vmem, ⟨12, _⟩ => ⟨S512x512, .bf16⟩
  | .local _ .vmem, ⟨13, _⟩ => ⟨S512x512, .bf16⟩
  | .local _ .vmem, ⟨14, _⟩ => ⟨S512x1, .f32⟩
  | .local _ .vmem, ⟨15, _⟩ => ⟨S512x1, .f32⟩
  | .local _ .vmem, ⟨16, _⟩ => ⟨S2560x512, .bf16⟩
  | .local _ .vmem, ⟨17, _⟩ => ⟨S2560x512, .bf16⟩
  | .local _ .vmem, ⟨18, _⟩ => ⟨S1x2560, .f32⟩
  | .local _ .vmem, ⟨19, _⟩ => ⟨S1x2560, .f32⟩
  | .local _ .vmem, ⟨20, _⟩ => ⟨S512x2560, .f32⟩
  | .local _ .vmem, ⟨21, _⟩ => ⟨S512x2560, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2560x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2560x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2560x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2560x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x2560 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x2560 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  bitsLt_bf16_f32 : FTy.bits .bf16 < FTy.bits .f32
  packedbf16_S2048x512_S2048x512_0_0 : (Rect.unit (s := S2048x512) ![0, 0] S2048x512.size inb_S2048x512_S2048x512_0_0).PackedRows (EltTy.packing .bf16)
  inb_S2048x1_S2048x1_0_0 : ∀ a, (![0, 0] : Fin 2 → Nat) a + S2048x1.size a ≤ S2048x1.size a
  h_S2048x1 : 0 < S2048x1.numel
  inb_S2560x512_S2560x512_0_0 : ∀ a, (![0, 0] : Fin 2 → Nat) a + S2560x512.size a ≤ S2560x512.size a
  h_S2560x512 : 0 < S2560x512.numel
  reduces_S2560x512_S2560 : S2560x512.Reduces [1] S2560
  shapeCasts_S2560_S2560x1 : S2560.ShapeCasts S2560x1
  broadcasts_S2560x1_S2560x512 : S2560x1.Broadcasts S2560x512
  packedbf16_S2560x512_S2560x512_0_0 : (Rect.unit (s := S2560x512) ![0, 0] S2560x512.size inb_S2560x512_S2560x512_0_0).PackedRows (EltTy.packing .bf16)
  inb_S2560x1_S2560x1_0_0 : ∀ a, (![0, 0] : Fin 2 → Nat) a + S2560x1.size a ≤ S2560x1.size a
  h_S2560x1 : 0 < S2560x1.numel
  transposes_S10000x1_S1x10000_1_0 : S10000x1.Transposes [1, 0] S1x10000
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S2560x512_S2560x512 : S2560x512.ShapeCasts S2560x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S512x1_S512x2560 : S512x1.Broadcasts S512x2560
  broadcasts_S1x2560_S512x2560 : S1x2560.Broadcasts S512x2560
  inb_S512x2560_S512x2560_0_0 : ∀ a, (![0, 0] : Fin 2 → Nat) a + S512x2560.size a ≤ S512x2560.size a
  h_S512x2560 : 0 < S512x2560.numel
  dot_S512x512_S2560x512_S512x2560_1_1_0_0_n_n_wf : DotDims.WF S512x512 S2560x512 S512x2560 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .f32 = 32 ∨ (Rect.block (s := S4096x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x512.size a
  hwx0_1 : ∀ i : grid0.Coords, EltTy.bits .bf16 = 32 ∨ (Rect.block (s := S4096x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S2560x512.size a < S10000x512.size a
  hwx1_0 : ∀ i : grid1.Coords, EltTy.bits .f32 = 32 ∨ (Rect.unit (s := S10000x512) (fun a => cc1_transform_0 i a * S2560x512.size a) (fun a => (Pipeline.Clip.of (cc1_transform_0 i a) (S2560x512.size a) (S10000x512.size a)).extent (S2560x512.size a)) fun a => Pipeline.Clip.inb (Pipeline.Clip.ok_of (hstart1_0 i a))).WholeWords (EltTy.packing .f32)
  hwxs1_0 : ∀ i : grid1.Coords, EltTy.bits .f32 = 32 ∨ (Rect.unit (s := S2560x512) (fun _ => 0) (fun a => (Pipeline.Clip.of (cc1_transform_0 i a) (S2560x512.size a) (S10000x512.size a)).extent (S2560x512.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2560x512.size a < S10000x512.size a
  hwx1_1 : ∀ i : grid1.Coords, EltTy.bits .bf16 = 32 ∨ (Rect.unit (s := S10000x512) (fun a => cc1_transform_1 i a * S2560x512.size a) (fun a => (Pipeline.Clip.of (cc1_transform_1 i a) (S2560x512.size a) (S10000x512.size a)).extent (S2560x512.size a)) fun a => Pipeline.Clip.inb (Pipeline.Clip.ok_of (hstart1_1 i a))).WholeWords (EltTy.packing .bf16)
  hwxs1_1 : ∀ i : grid1.Coords, EltTy.bits .bf16 = 32 ∨ (Rect.unit (s := S2560x512) (fun _ => 0) (fun a => (Pipeline.Clip.of (cc1_transform_1 i a) (S2560x512.size a) (S10000x512.size a)).extent (S2560x512.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S2560x1.size a < S10000x1.size a
  hwx1_2 : ∀ i : grid1.Coords, EltTy.bits .f32 = 32 ∨ (Rect.unit (s := S10000x1) (fun a => cc1_transform_2 i a * S2560x1.size a) (fun a => (Pipeline.Clip.of (cc1_transform_2 i a) (S2560x1.size a) (S10000x1.size a)).extent (S2560x1.size a)) fun a => Pipeline.Clip.inb (Pipeline.Clip.ok_of (hstart1_2 i a))).WholeWords (EltTy.packing .f32)
  hwxs1_2 : ∀ i : grid1.Coords, EltTy.bits .f32 = 32 ∨ (Rect.unit (s := S2560x1) (fun _ => 0) (fun a => (Pipeline.Clip.of (cc1_transform_2 i a) (S2560x1.size a) (S10000x1.size a)).extent (S2560x1.size a)) fun a => (Nat.zero_add _).trans_le (Pipeline.Clip.extent_le (Pipeline.Clip.ok_of (hstart1_2 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x512.size a
  hwx2_0 : ∀ i : grid2.Coords, EltTy.bits .bf16 = 32 ∨ (Rect.block (s := S4096x512) S512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1.size a ≤ S4096x1.size a
  hwx2_1 : ∀ i : grid2.Coords, EltTy.bits .f32 = 32 ∨ (Rect.block (s := S4096x1) S512x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S2560x512.size a < S10000x512.size a
  hwx2_2 : ∀ i : grid2.Coords, EltTy.bits .bf16 = 32 ∨ (Rect.unit (s := S10000x512) (fun a => cc2_transform_2 i a * S2560x512.size a) (fun a => (Pipeline.Clip.of (cc2_transform_2 i a) (S2560x512.size a) (S10000x512.size a)).extent (S2560x512.size a)) fun a => Pipeline.Clip.inb (Pipeline.Clip.ok_of (hstart2_2 i a))).WholeWords (EltTy.packing .bf16)
  hwxs2_2 : ∀ i : grid2.Coords, EltTy.bits .bf16 = 32 ∨ (Rect.unit (s := S2560x512) (fun _ => 0) (fun a => (Pipeline.Clip.of (cc2_transform_2 i a) (S2560x512.size a) (S10000x512.size a)).extent (S2560x512.size a)) fun a => (Nat.zero_add _).trans_le (Pipeline.Clip.extent_le (Pipeline.Clip.ok_of (hstart2_2 i a)))).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x2560.size a < S1x10000.size a
  hwx2_3 : ∀ i : grid2.Coords, EltTy.bits .f32 = 32 ∨ (Rect.unit (s := S1x10000) (fun a => cc2_transform_3 i a * S1x2560.size a) (fun a => (Pipeline.Clip.of (cc2_transform_3 i a) (S1x2560.size a) (S1x10000.size a)).extent (S1x2560.size a)) fun a => Pipeline.Clip.inb (Pipeline.Clip.ok_of (hstart2_3 i a))).WholeWords (EltTy.packing .f32)
  hwxs2_3 : ∀ i : grid2.Coords, EltTy.bits .f32 = 32 ∨ (Rect.unit (s := S1x2560) (fun _ => 0) (fun a => (Pipeline.Clip.of (cc2_transform_3 i a) (S1x2560.size a) (S1x10000.size a)).extent (S1x2560.size a)) fun a => (Nat.zero_add _).trans_le (Pipeline.Clip.extent_le (Pipeline.Clip.ok_of (hstart2_3 i a)))).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hstart2_4 : ∀ (i : grid2.Coords) a, cc2_transform_4 i a * S512x2560.size a < S4096x10000.size a
  hwx2_4 : ∀ i : grid2.Coords, EltTy.bits .f32 = 32 ∨ (Rect.unit (s := S4096x10000) (fun a => cc2_transform_4 i a * S512x2560.size a) (fun a => (Pipeline.Clip.of (cc2_transform_4 i a) (S512x2560.size a) (S4096x10000.size a)).extent (S512x2560.size a)) fun a => Pipeline.Clip.inb (Pipeline.Clip.ok_of (hstart2_4 i a))).WholeWords (EltTy.packing .f32)
  hwxs2_4 : ∀ i : grid2.Coords, EltTy.bits .f32 = 32 ∨ (Rect.unit (s := S512x2560) (fun _ => 0) (fun a => (Pipeline.Clip.of (cc2_transform_4 i a) (S512x2560.size a) (S4096x10000.size a)).extent (S512x2560.size a)) fun a => (Nat.zero_add _).trans_le (Pipeline.Clip.extent_le (Pipeline.Clip.ok_of (hstart2_4 i a)))).WholeWords (EltTy.packing .f32)

variable [Facts₀]

def dot_S512x512_S2560x512_S512x2560_1_1_0_0_n_n : DotDims S512x512 S2560x512 S512x2560 where
  lhsContracting := [1]
  rhsContracting := [1]
  lhsNonContracting := [0]
  rhsNonContracting := [0]
  lhsBatch := []
  rhsBatch := []
  wf := dot_S512x512_S2560x512_S512x2560_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S2048x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_arg1) S2560x512.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v1_0) S2560x512.size cc1_transform_1 reads1_1 true false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v1_1) S2560x1.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_0) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S512x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpecClip (Memref.whole main_v1_0) S2560x512.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v2) S1x2560.size cc2_transform_3 reads2_3 false false 2 stage2_3 sem2_3
    hrank2 hreads2_3 hstart2_3 nbuf2_3 (Memref.isWhole_whole _) hwx2_3 hwxs2_3 hstage2_3

abbrev win2_4 : Pipeline.Window sig grid2 :=
  Pipeline.Window.ofSpecClip (Memref.whole main_v3) S512x2560.size cc2_transform_4 reads2_4 true false 2 stage2_4 sem2_4
    hrank2 hreads2_4 hstart2_4 nbuf2_4 (Memref.isWhole_whole _) hwx2_4 hwxs2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4096x512 : Shape := ⟨2, ![4096, 512]⟩
abbrev S10000x512 : Shape := ⟨2, ![10000, 512]⟩
abbrev S_ : Shape := ⟨0, ![]⟩
abbrev S4096 : Shape := ⟨1, ![4096]⟩
abbrev S4096x1 : Shape := ⟨2, ![4096, 1]⟩
abbrev S10000 : Shape := ⟨1, ![10000]⟩
abbrev S10000x1 : Shape := ⟨2, ![10000, 1]⟩
abbrev S4096x10000 : Shape := ⟨2, ![4096, 10000]⟩
abbrev S1x10000 : Shape := ⟨2, ![1, 10000]⟩

abbrev nBuf : Space → Nat
  | .hbm => 44
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S10000x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S10000x512, .f32⟩
  | .hbm, ⟨16, _⟩ => ⟨S_, .f32⟩
  | .hbm, ⟨17, _⟩ => ⟨S10000, .f32⟩
  | .hbm, ⟨18, _⟩ => ⟨S10000x1, .f32⟩
  | .hbm, ⟨19, _⟩ => ⟨S_, .f32⟩
  | .hbm, ⟨20, _⟩ => ⟨S10000x1, .f32⟩
  | .hbm, ⟨21, _⟩ => ⟨S10000x1, .f32⟩
  | .hbm, ⟨22, _⟩ => ⟨S10000x1, .f32⟩
  | .hbm, ⟨23, _⟩ => ⟨S10000x512, .f32⟩
  | .hbm, ⟨24, _⟩ => ⟨S10000x512, .f32⟩
  | .hbm, ⟨25, _⟩ => ⟨S_, .f32⟩
  | .hbm, ⟨26, _⟩ => ⟨S10000x512, .f32⟩
  | .hbm, ⟨27, _⟩ => ⟨S10000x512, .f32⟩
  | .hbm, ⟨28, _⟩ => ⟨S4096x512, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S10000x512, .f32⟩
  | .hbm, ⟨33, _⟩ => ⟨S_, .f32⟩
  | .hbm, ⟨34, _⟩ => ⟨S10000, .f32⟩
  | .hbm, ⟨35, _⟩ => ⟨S4096x10000, .f32⟩
  | .hbm, ⟨36, _⟩ => ⟨S1x10000, .f32⟩
  | .hbm, ⟨37, _⟩ => ⟨S4096x10000, .f32⟩
  | .hbm, ⟨38, _⟩ => ⟨S4096x10000, .f32⟩
  | .hbm, ⟨39, _⟩ => ⟨S4096x10000, .f32⟩
  | .hbm, ⟨40, _⟩ => ⟨S_, .f32⟩
  | .hbm, ⟨41, _⟩ => ⟨S4096x10000, .f32⟩
  | .hbm, ⟨42, _⟩ => ⟨S4096x10000, .f32⟩
  | .hbm, ⟨43, _⟩ => ⟨S4096x10000, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  reducesTo_S10000x512_S10000_d1 : S10000x512.ReducesTo [1] S10000
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x512_0_1 : S10000x1.BroadcastsInDim S10000x512 (![0, 1] : Fin 2 → Fin S10000x512.rank)
  bcast_S_S10000x512 : S_.BroadcastsInDim S10000x512 (![] : Fin 0 → Fin S10000x512.rank)
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  bcast_S_S4096x10000 : S_.BroadcastsInDim S4096x10000 (![] : Fin 0 → Fin S4096x10000.rank)
  dot_S4096x512_S10000x512_S4096x10000_1_1_0_0_n_n_wf : DotDims.WF S4096x512 S10000x512 S4096x10000 [1] [1] [0] [0] [] []

variable [Facts₀]

def dot_S4096x512_S10000x512_S4096x10000_1_1_0_0_n_n : DotDims S4096x512 S10000x512 S4096x10000 where
  lhsContracting := [1]
  rhsContracting := [1]
  lhsNonContracting := [0]
  rhsNonContracting := [0]
  lhsBatch := []
  rhsBatch := []
  wf := dot_S4096x512_S10000x512_S4096x10000_1_1_0_0_n_n_wf

class Facts : Prop extends Facts₀ where

variable [Facts]
-- ==== Proof.Spec.lean ====
/-
  The function both programs compute, on the extended reals.

  For a matrix `v` of rows of 512 entries, row `r` is scaled by `s(r) = 3 · rsqrt (max (Σ_k v[r,k]²) ε)`: the
  scaled row `n[r,d] = v[r,d] · s(r)` and its squared length `q(r) = Σ_d n[r,d]²`. The result at (b, c) is the
  squared distance of the scaled rows written out, `(q_x(b) + q_p(c)) − 2 · Σ_d n_x[b,d] · n_p[c,d]`.
  The literals 3, ε and 2 are kept as the binary words the programs carry; nothing here evaluates them.
  Multiplication on the extended reals is commutative and associative, so `v · (3 · r) = 3 · (v · r)` at every
  value, the infinities included: the two groupings of the scale the programs use are one function (`nrm_comm`).
-/
import Idealize.ShloMosaic.PureOps.Ideal
import Idealize.ShloMosaic.Lib.ValueIdx

noncomputable section

open scoped BigOperators

namespace Cert.Dist

open Idealize.ShloMosaic Idealize.ShloMosaic.ValueIdx

/-- The three literals, as the words both programs print. -/
abbrev three : EReal := Ideal.ofBits .f32 0x40400000#32
abbrev eps : EReal := Ideal.ofBits .f32 0x2B8CBCCC#32
abbrev two : EReal := Ideal.ofBits .f32 0x40000000#32

variable {R : Type}

/-- The sum of squares of row `r`. -/
def ssq (v : R → Fin 512 → EReal) (r : R) : EReal := ∑ k : Fin 512, v r k * v r k

/-- The reciprocal square root of the row's clamped sum of squares. -/
def rs (v : R → Fin 512 → EReal) (r : R) : EReal := Ideal.rsqrt (max (ssq v r) eps)

/-- The scaled row: each entry times `3 · rsqrt (max ssq ε)`. -/
def nrm (v : R → Fin 512 → EReal) (r : R) (d : Fin 512) : EReal := v r d * (three * rs v r)

/-- The same entry with the factor 3 outermost: multiplication commutes and associates on the extended reals. -/
theorem nrm_comm (v : R → Fin 512 → EReal) (r : R) (d : Fin 512) : three * (v r d * rs v r) = nrm v r d := by
  unfold nrm; exact mul_left_comm _ _ _

/-- The squared length of the scaled row. -/
def nsq (v : R → Fin 512 → EReal) (r : R) : EReal := ∑ d : Fin 512, nrm v r d * nrm v r d

/-- The inner product of two scaled rows. -/
def cross {R' : Type} (x : R → Fin 512 → EReal) (p : R' → Fin 512 → EReal) (b : R) (c : R') : EReal :=
  ∑ d : Fin 512, nrm x b d * nrm p c d

/-- The result at (b, c). -/
def dist {R' : Type} (x : R → Fin 512 → EReal) (p : R' → Fin 512 → EReal) (b : R) (c : R') : EReal :=
  (nsq x b + nsq p c) - two * cross x p b c

/-- An array of rows as a function of (row, entry). -/
abbrev rows {n : Nat} (a : (⟨2, ![n, 512]⟩ : Shape).Idx → EReal) : Fin n → Fin 512 → EReal := fun r d => a (ix2 r d)

/-- The whole result array as one function of the two argument arrays. -/
def G (x : (⟨2, ![4096, 512]⟩ : Shape).Idx → EReal) (p : (⟨2, ![10000, 512]⟩ : Shape).Idx → EReal) :
    (⟨2, ![4096, 10000]⟩ : Shape).Idx → EReal :=
  fun i => dist (rows x) (rows p) (i 0) (i 1)

end Cert.Dist

end
-- ==== Proof.RefSpec.lean ====
/-
  The reference program computes `G`.

  Read one operation at a time, the reference scales each row of an argument by the reciprocal square root of its
  clamped sum of squares and then by 3, with the 3 outermost: at (r, d) it is `3 · (v[r,d] · rsqrt (max (0 + Σ_k v[r,k]²) ε))`.
  The sum's initial value is the zero word, which is 0, and `0 + s = s`; multiplication on the extended reals commutes
  and associates, so this entry is the specification's scaled row `v[r,d] · (3 · rsqrt (max (Σ_k v[r,k]²) ε))`.
  The two squared lengths are the sums of the squares of these entries over the row, the contraction is the sum over
  `d` of the products of the two scaled rows, and the result at (b, c) is `(q_x(b) + q_p(c)) − 2 · Σ_d n_x[b,d] · n_p[c,d]`:
  the specification's value there. The literals 3, ε and 2 are the same words on both sides; none is evaluated.
-/
import proofs.«173794_j18451179503909_2_alg».proof.Proof.Gen.ReferenceIdeal.Read
import proofs.«173794_j18451179503909_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Where the layout operations read: the composed index maps at coordinates -/

/-- Row `r`'s clamped sum, broadcast along the row, is read at the column (r, 0) … -/
theorem idx6 (r : Fin 4096) (d : Fin 512) : idx_main_v6 (ix2 r d) = ix2 r (0 : Fin 1) :=
  funext fun a => by match a with | ⟨0, _⟩ => rfl | ⟨1, _⟩ => rfl
/-- … which is the row sums' entry `r` … -/
theorem idx2 (r : Fin 4096) : idx_main_v2 (ix2 r (0 : Fin 1)) = ix1 r :=
  funext fun a => by match a with | ⟨0, _⟩ => rfl
/-- … the sum over `k` of the entries (r, k). -/
theorem idx1 (r : Fin 4096) (k : Fin 512) : idx_main_v1 (ix1 r) k = ix2 r k :=
  funext fun a => by match a with | ⟨0, _⟩ => rfl | ⟨1, _⟩ => rfl

/-- The same three for the second argument's 10000 rows. -/
theorem idx16 (r : Fin 10000) (d : Fin 512) : idx_main_v16 (ix2 r d) = ix2 r (0 : Fin 1) :=
  funext fun a => by match a with | ⟨0, _⟩ => rfl | ⟨1, _⟩ => rfl
theorem idx12 (r : Fin 10000) : idx_main_v12 (ix2 r (0 : Fin 1)) = ix1 r :=
  funext fun a => by match a with | ⟨0, _⟩ => rfl
theorem idx11 (r : Fin 10000) (k : Fin 512) : idx_main_v11 (ix1 r) k = ix2 r k :=
  funext fun a => by match a with | ⟨0, _⟩ => rfl | ⟨1, _⟩ => rfl

/-- The squared lengths' sums run over the entries (r, k) of the scaled rows. -/
theorem idx21 (r : Fin 4096) (k : Fin 512) : idx_main_v21 (ix1 r) k = ix2 r k :=
  funext fun a => by match a with | ⟨0, _⟩ => rfl | ⟨1, _⟩ => rfl
theorem idx24 (r : Fin 10000) (k : Fin 512) : idx_main_v24 (ix1 r) k = ix2 r k :=
  funext fun a => by match a with | ⟨0, _⟩ => rfl | ⟨1, _⟩ => rfl

/-- The result at (b, c) reads the first squared length at row `b` … -/
theorem idx27 (b : Fin 4096) (c : Fin 10000) : idx_main_v22 (idx_main_v27 (ix2 b c)) = ix1 b :=
  funext fun a => by match a with | ⟨0, _⟩ => rfl
/-- … the second at row `c` … -/
theorem idx28 (b : Fin 4096) (c : Fin 10000) : idx_main_v26 (idx_main_v28 (ix2 b c)) = ix1 c :=
  funext fun a => by match a with | ⟨0, _⟩ => rfl
/-- … and the contraction pairs entry (b, k) of the first scaled array with entry (c, k) of the second. -/
theorem lidx25 (b : Fin 4096) (c : Fin 10000) (k : Fin 512) : lidx_main_v25 (ix2 b c) k = ix2 b k :=
  funext fun a => by match a with | ⟨0, _⟩ => rfl | ⟨1, _⟩ => rfl
theorem ridx25 (b : Fin 4096) (c : Fin 10000) (k : Fin 512) : ridx_main_v25 (ix2 b c) k = ix2 c k :=
  funext fun a => by match a with | ⟨0, _⟩ => rfl | ⟨1, _⟩ => rfl

/-! ## The scaled rows -/

/-- The reference's scaled first argument at (r, d) is the specification's scaled row: the factor 3 moves inside. -/
theorem v9_at (x0 : (⟨S4096x512, .f32⟩ : BufTy).Contents (Elt Ideal)) (r : Fin 4096) (d : Fin 512) :
    val_main_v9 (F := Ideal) x0 (ix2 r d) = Cert.Dist.nrm (Cert.Dist.rows x0) r d := by
  rw [val_main_v9_apply, val_main_v8_apply, val_main_cst_1_apply, val_main_v7_apply, val_main_v6_apply, idx6,
    val_main_v5_apply, val_main_v4_apply, val_main_v2_apply, idx2, val_main_v3_apply, val_main_cst_0_apply,
    val_main_v1_apply, val_main_cst_apply]
  simp only [idx1, val_main_v0_apply, Ideal.mulf_def, Ideal.maximumf_def, Ideal.hostUnary_rsqrt_def, Ideal.ofBits_def,
    Ideal.ofBits_zero_f32, zero_add]
  exact Cert.Dist.nrm_comm (Cert.Dist.rows x0) r d

/-- Likewise the scaled second argument at (r, d). -/
theorem v19_at (x1 : (⟨S10000x512, .f32⟩ : BufTy).Contents (Elt Ideal)) (r : Fin 10000) (d : Fin 512) :
    val_main_v19 (F := Ideal) x1 (ix2 r d) = Cert.Dist.nrm (Cert.Dist.rows x1) r d := by
  rw [val_main_v19_apply, val_main_v18_apply, val_main_cst_4_apply, val_main_v17_apply, val_main_v16_apply, idx16,
    val_main_v15_apply, val_main_v14_apply, val_main_v12_apply, idx12, val_main_v13_apply, val_main_cst_3_apply,
    val_main_v11_apply, val_main_cst_2_apply]
  simp only [idx11, val_main_v10_apply, Ideal.mulf_def, Ideal.maximumf_def, Ideal.hostUnary_rsqrt_def, Ideal.ofBits_def,
    Ideal.ofBits_zero_f32, zero_add]
  exact Cert.Dist.nrm_comm (Cert.Dist.rows x1) r d

/-! ## The squared lengths and the contraction -/

/-- The first squared length at row `r`: 0 plus the sum of the squares of the scaled row. -/
theorem v21_at (x0 : (⟨S4096x512, .f32⟩ : BufTy).Contents (Elt Ideal)) (r : Fin 4096) :
    val_main_v21 (F := Ideal) x0 (ix1 r) = Cert.Dist.nsq (Cert.Dist.rows x0) r := by
  rw [val_main_v21_apply, val_main_cst_5_apply, Ideal.ofBits_def, Ideal.ofBits_zero_f32, zero_add]
  refine Finset.sum_congr rfl fun k _ => ?_
  rw [idx21, val_main_v20_apply, v9_at, Ideal.mulf_def]

/-- The second squared length at row `r`. -/
theorem v24_at (x1 : (⟨S10000x512, .f32⟩ : BufTy).Contents (Elt Ideal)) (r : Fin 10000) :
    val_main_v24 (F := Ideal) x1 (ix1 r) = Cert.Dist.nsq (Cert.Dist.rows x1) r := by
  rw [val_main_v24_apply, val_main_cst_6_apply, Ideal.ofBits_def, Ideal.ofBits_zero_f32, zero_add]
  refine Finset.sum_congr rfl fun k _ => ?_
  rw [idx24, val_main_v23_apply, v19_at, Ideal.mulf_def]

/-- The contraction at (b, c): the inner product of the two scaled rows. -/
theorem v25_at (x0 : (⟨S4096x512, .f32⟩ : BufTy).Contents (Elt Ideal)) (x1 : (⟨S10000x512, .f32⟩ : BufTy).Contents (Elt Ideal))
    (b : Fin 4096) (c : Fin 10000) :
    val_main_v25 (F := Ideal) x0 x1 (ix2 b c) = Cert.Dist.cross (Cert.Dist.rows x0) (Cert.Dist.rows x1) b c := by
  rw [val_main_v25_apply]
  refine Finset.sum_congr rfl fun k _ => ?_
  rw [lidx25, ridx25, v9_at, v19_at]

/-! ## The result -/

/-- The reference's result is `G` of its two arguments. -/
theorem ref_eq_G (x0 : (⟨S4096x512, .f32⟩ : BufTy).Contents (Elt Ideal)) (x1 : (⟨S10000x512, .f32⟩ : BufTy).Contents (Elt Ideal)) :
    Cert.ReferenceIdeal.Read.val_main_v32 (F := Ideal) x0 x1 = Cert.Dist.G x0 x1 := by
  funext i
  obtain ⟨b, c, rfl⟩ : ∃ (b : Fin 4096) (c : Fin 10000), i = ix2 b c := ⟨i 0, i 1, eq_ix2 i⟩
  rw [val_main_v32_apply, val_main_v29_apply, val_main_v27_apply, val_main_v22_apply, idx27, v21_at,
    val_main_v28_apply, val_main_v26_apply, idx28, v24_at,
    val_main_v31_apply, val_main_v30_apply, val_main_cst_7_apply, v25_at,
    Ideal.subf_def, Ideal.addf_def, Ideal.mulf_def, Ideal.ofBits_def]
  rfl

end Cert.ReferenceIdeal.RefValue

end
-- ==== Proof.KI.Body0.lean ====
/-
  The row-scaling kernel's body on a 2048 × 512 block, as a Hoare triple at any float instance.

  The body loads its input staging buffer whole, computes, and stores each of its two output staging buffers whole;
  the loads of the output buffers it also makes are dead. So from the input's buffer at contents `x` and the
  outputs' at anything, the body runs to the end with the input's buffer unchanged and each output's buffer holding
  the body's arithmetic (the payload) of the input's contents: the scaled rows, and their squared lengths.
-/
import proofs.«173794_j18451179503909_2_alg».proof.Proof.Gen.KernelIdeal.Skeleton
import Idealize.ShloMosaic.Lib.Pipeline.FrameBody
import Idealize.ShloMosaic.Lib.Pipeline.Kit
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The row-scaling kernel on a 2048 × 512 block -/

/-- The whole 2048 × 512 buffer and the whole 2048 × 1 buffer, as the rectangles the body's accesses name. -/
abbrev r0a : Rect S2048x512 := Rect.unit (s := S2048x512) ![0, 0] S2048x512.size inb_S2048x512_S2048x512_0_0
abbrev r0b : Rect S2048x1 := Rect.unit (s := S2048x1) ![0, 0] S2048x1.size inb_S2048x1_S2048x1_0_0

/-- What the body leaves in the scaled-rows buffer and in the squared-lengths buffer, from the input block `x0`. -/
def out0_1 (x0 : Vec F S2048x512 .f32) : Vec F S2048x512 .bf16 :=
  View.canon [⟨r0a, k0_pay2 (View.ld x0 r0a)⟩]
def out0_2 (x0 : Vec F S2048x512 .f32) : Vec F S2048x1 .f32 :=
  View.canon [⟨r0b, k0_pay3 (View.ld x0 r0a)⟩]

/-- One whole-buffer store covers the buffer. -/
theorem cover0_1 (p0 : Vec F S2048x512 .bf16) (y : S2048x512.Idx) :
    ∃ pc ∈ ([⟨r0a, p0⟩] : List (View.Piece (Elt F) S2048x512 .bf16)), y ∈ pc.1.set :=
  View.cover_of_tiled [⟨r0a, p0⟩] S2048x512.size (by rfl) y
theorem cover0_2 (p0 : Vec F S2048x1 .f32) (y : S2048x1.Idx) :
    ∃ pc ∈ ([⟨r0b, p0⟩] : List (View.Piece (Elt F) S2048x1 .f32)), y ∈ pc.1.set :=
  View.cover_of_tiled [⟨r0b, p0⟩] S2048x1.size (by rfl) y

set_option maxHeartbeats 1000000 in
/-- The body on whole staging memrefs: the input's at contents `x0`, the two outputs' at anything. -/
theorem sound_kernel0 (c : Dev nD) (E : Set ℕ) (i : grid0.Coords)
    (arg1 : Memref sig .tc .vmem S2048x512 .f32) (harg1 : arg1.IsWhole)
    (arg2 : Memref sig .tc .vmem S2048x512 .bf16) (harg2 : arg2.IsWhole)
    (arg3 : Memref sig .tc .vmem S2048x1 .f32) (harg3 : arg3.IsWhole)
    (x0 : Vec F S2048x512 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

end Cert.KernelIdeal.Body

end
-- ==== Proof.KI.Dat0.lean ====
/-
  The first region: the row-scaling kernel over `x` (4096 rows in two blocks of 2048), at the contents `V` the
  region is entered with, at any float instance. The blocks tile the array, so after the body at point `t` the
  input's staging buffer holds block `t` of `x`, and the two outputs' buffers the body's arithmetic of that block.
-/
import proofs.«173794_j18451179503909_2_alg».proof.Proof.KI.Body0
import proofs.«173794_j18451179503909_2_alg».proof.Proof.Gen.KernelIdeal.Launch
import proofs.«173794_j18451179503909_2_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the region finds them; after the body at point `t` the input's buffer at its block,
    the outputs' at the scaled rows and the squared lengths of that block; nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => Body.out0_1 (iblk V c 0 t)
    | ⟨2, _⟩ => Body.out0_2 (iblk V c 0 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = Body.out0_1 (iblk V c 0 t) := by dsimp only [dat]
theorem after_2 (c : Dev nD) (t : Fin cfg0.N) : (dat V c).after 2 t = Body.out0_2 (iblk V c 0 t) := by dsimp only [dat]

/-- The input is fetched at every point, and its blocks are whole, so when the body runs at point `t` the input's
    staging buffer holds block `t` of the array, whatever it held before the fetch. -/
theorem before_0 (c : Dev nD) (t : Fin cfg0.N) (d : (cfg0.win 0).block.Idx → Elt F (cfg0.win 0).elt) :
    (dat V c).before 0 t d = iblk V c 0 t := by
  rw [(dat V c).before_fetched 0 t (fetch0_0 t) d]
  unfold Dat.fetched Dat.blockOf iblk
  rw [A_eq]
  rfl

/-- The body at point `t`, with whatever else the core holds (`R₁`, `R₂`) carried along untouched: from the input's
    buffer at block `t` and the two outputs' buffers at any contents, to the input's buffer as it was and the outputs'
    at the scaled rows and at the squared lengths of that block. -/
theorem run_at (c : Dev nD) (t : Fin cfg0.N) (R₁ R₂ : sProp 𝕄) :
    iprop(R₁ ∗ R₂
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d)))
      ⊢ wp frame (wpE (defs₀ (F := F)) Variants.none c none) Set.univ (bodyAt0 t) (fun _ =>
          iprop(R₁ ∗ R₂
            ∗ owns (c : Thread nD τ) (st0_0 t) fullShare ((dat V c).after 0 t)
            ∗ owns (c : Thread nD τ) (st0_1 t) fullShare ((dat V c).after 1 t)
            ∗ owns (c : Thread nD τ) (st0_2 t) fullShare ((dat V c).after 2 t))) := by
  simp only [before_0]
  rw [after_0, after_1, after_2]
  unfold bodyAt0
  iintro ⟨HR₁, HR₂, ⟨%d0, Hin⟩, ⟨%d1, Hrows⟩, ⟨%d2, Hlen⟩⟩
  iapply (Body.sound_kernel0 c Set.univ (grid0.coords t) _ _ _ _ _ _ (iblk V c 0 t) _)
  isplitl [Hin]
  · iexact Hin
  isplitl [Hrows]
  · iexists _; iexact Hrows
  isplitl [Hlen]
  · iexists _; iexact Hlen
  iintro ⟨Hin, Hrows, Hlen⟩
  isplitl [HR₁]
  · iexact HR₁
  isplitl [HR₂]
  · iexact HR₂
  isplitl [Hin]
  · iexact Hin
  isplitl [Hrows]
  · iexact Hrows
  iexact Hlen

/-- The body obligation at every point: the invariant and what the core owes do not change from point to point
    and the body does not read them; the three windows' buffers go as `run_at` says. -/
theorem body_obligation (c : Dev nD) : BodyObligation (dat (F := F) V c) (defs₀ (F := F)) Variants.none () Set.univ := fun t => by
  rw [bigSep_W0, bigSep_W0]
  exact run_at V c t ((dat V c).Φ t.castSucc) ((dat V c).owesAt () t.castSucc)

end Cert.KernelIdeal.Reg0

end
-- ==== Proof.KI.Body1.lean ====
/-
  The row-scaling kernel's body on a 2560 × 512 block, as a Hoare triple at any float instance.

  The body loads its input staging buffer whole, computes, and stores each of its two output staging buffers whole;
  the loads of the output buffers it also makes are dead. So from the input's buffer at contents `x` and the
  outputs' at anything, the body runs to the end with the input's buffer unchanged and each output's buffer holding
  the body's arithmetic (the payload) of the input's contents: the scaled rows, and their squared lengths.
-/
import proofs.«173794_j18451179503909_2_alg».proof.Proof.Gen.KernelIdeal.Skeleton
import Idealize.ShloMosaic.Lib.Pipeline.FrameBody
import Idealize.ShloMosaic.Lib.Pipeline.Kit
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The row-scaling kernel on a 2560 × 512 block -/

/-- The whole 2560 × 512 buffer and the whole 2560 × 1 buffer, as the rectangles the body's accesses name. -/
abbrev r1a : Rect S2560x512 := Rect.unit (s := S2560x512) ![0, 0] S2560x512.size inb_S2560x512_S2560x512_0_0
abbrev r1b : Rect S2560x1 := Rect.unit (s := S2560x1) ![0, 0] S2560x1.size inb_S2560x1_S2560x1_0_0

/-- What the body leaves in the scaled-rows buffer and in the squared-lengths buffer, from the input block `x0`. -/
def out1_1 (x0 : Vec F S2560x512 .f32) : Vec F S2560x512 .bf16 :=
  View.canon [⟨r1a, k1_pay2 (View.ld x0 r1a)⟩]
def out1_2 (x0 : Vec F S2560x512 .f32) : Vec F S2560x1 .f32 :=
  View.canon [⟨r1b, k1_pay3 (View.ld x0 r1a)⟩]

/-- One whole-buffer store covers the buffer. -/
theorem cover1_1 (p0 : Vec F S2560x512 .bf16) (y : S2560x512.Idx) :
    ∃ pc ∈ ([⟨r1a, p0⟩] : List (View.Piece (Elt F) S2560x512 .bf16)), y ∈ pc.1.set :=
  View.cover_of_tiled [⟨r1a, p0⟩] S2560x512.size (by rfl) y
theorem cover1_2 (p0 : Vec F S2560x1 .f32) (y : S2560x1.Idx) :
    ∃ pc ∈ ([⟨r1b, p0⟩] : List (View.Piece (Elt F) S2560x1 .f32)), y ∈ pc.1.set :=
  View.cover_of_tiled [⟨r1b, p0⟩] S2560x1.size (by rfl) y

set_option maxHeartbeats 1000000 in
/-- The body on whole staging memrefs: the input's at contents `x0`, the two outputs' at anything. -/
theorem sound_kernel1 (c : Dev nD) (E : Set ℕ) (i : grid1.Coords)
    (arg1 : Memref sig .tc .vmem S2560x512 .f32) (harg1 : arg1.IsWhole)
    (arg2 : Memref sig .tc .vmem S2560x512 .bf16) (harg2 : arg2.IsWhole)
    (arg3 : Memref sig .tc .vmem S2560x1 .f32) (harg3 : arg3.IsWhole)
    (x0 : Vec F S2560x512 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out1_1 x0)
            ∗ owns (c : Thread nD τ) arg3 fullShare (out1_2 x0)) -∗ K ⟨⟩))
      ⊢ wp frame (wpE (defs₀ (F := F)) Variants.none c none) E (cc1__normalize_kernel i arg1 harg1 arg2 harg2 arg3 harg3) K := by
  simp only [cc1__normalize_kernel_eq_skeleton]; unfold cc1__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

end Cert.KernelIdeal.Body

end
-- ==== Proof.PayIdeal.lean ====
/-
  The kernels' payloads read at an index, at the ideal values.

  The normalize kernel on a block `v` of rows of 512 entries computes `v · broadcast (3 · rsqrt (max (column (Σ_lanes v²)) ε))`:
  at (r, d) this is `v[r,d] · (3 · rsqrt (max (Σ_k v[r,k] · v[r,k]) ε))`, the scaled row `Dist.nrm`. Its second payload narrows
  that to bf16, which changes nothing at the ideal values; its third is `column (Σ_lanes n²)` of the scaled block `n`, the
  squared length `Dist.nsq` of the scaled row. The distance kernel computes
  `(broadcast xsq + broadcast psq) − 2 · (x ·ᵀ p)`, the product contracting axis 1 of both operands into a zero accumulator: at
  (r, c) it is `(xsq[r,0] + psq[0,c]) − 2 · Σ_d x[r,d] · p[c,d]`.

  Every pointwise operation reads through an index by definition. Four operations do not, and each gets one lemma at an
  index given by coordinates: the sum over the lanes of a row (the reduced index with the lane inserted is (r, k)), the
  cast of a column [n] to [n, 1] (row-major positions agree because the unit axis contributes 0), the broadcast of a column
  [n, 1] along the rows' entries (the unit axis reads coordinate 0), and the matrix product (its one-axis contraction index
  is its coordinate, and the operand indices at (r, c) and d are (r, d) and (c, d)). The literals 3, ε and 2 stay the binary
  words the programs carry.
-/
import proofs.«173794_j18451179503909_2_alg».proof.Proof.Gen.KernelIdeal.Skeleton
import proofs.«173794_j18451179503909_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.PayValue

open Cert.KernelIdeal Cert.KernelIdeal.Gen Idealize.ShloMosaic Idealize.ShloMosaic.ValueIdx

/-! ## The operations that are not pointwise, at an index given by coordinates -/

/-- The sum over the lanes of a block of rows, read at row `r`: the sum over `k` of the block at (r, k). -/
theorem laneSum_apply {n : Nat} (x : FVec Ideal ⟨2, ![n, 512]⟩ .f32) (h : (⟨2, ![n, 512]⟩ : Shape).Reduces [1] ⟨1, ![n]⟩)
    (hφ : FKind.Formats .f32) (hacc : (0x00000000#32 : BitVec 32) = 0x00000000#32) (r : Fin n) :
    multiReduction (F := Ideal) .add [1] ⟨1, ![n]⟩ x 0x00000000#32 h hφ hacc (ix1 r) = ∑ k : Fin 512, x (ix2 r k) := by
  refine (Ideal.multiReduction_add_single x 0x00000000#32 h hφ hacc (ix1 r)).trans ?_
  refine Finset.sum_congr rfl fun k _ => congrArg x (funext fun a => ?_)
  match a with
  | ⟨0, _⟩ => exact Fin.ext rfl
  | ⟨1, _⟩ => exact Fin.ext rfl

/-- A column `[n]` cast to `[n, 1]` reads, at `(r, z)`, the operand at `r`: the unit axis adds nothing to the row-major position. -/
theorem shapeCast_a_a1_apply {α : Type} {n : Nat} (x : (⟨1, ![n]⟩ : Shape).Idx → α)
    (h : (⟨1, ![n]⟩ : Shape).ShapeCasts ⟨2, ![n, 1]⟩) (r : Fin n) (z : Fin 1) :
    shapeCast ⟨2, ![n, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column `[a, 1]` broadcast to `[a, b]` reads, at `(p, c)`, the operand's one entry of row `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of a block reads, at an index, the reciprocal square root of the entry. -/
theorem rsqrt_apply {s : Shape} {φ : FTy} (x : FVec Ideal s φ) (i : s.Idx) : rsqrt x i = Ideal.rsqrt (x i) := rfl

/-! ## The normalize kernel on a 2048 × 512 block -/

/-- The first payload at (r, d): the entry times `3 · rsqrt (max (Σ_k v[r,k]²) ε)`. -/
theorem k0_pay1_apply (v0 : Vec Ideal S2048x512 .f32) (r : Fin 2048) (d : Fin 512) :
    k0_pay1 (F := Ideal) v0 (ix2 r d) = Cert.Dist.nrm (Cert.Dist.rows v0) r d := by
  unfold k0_pay1
  simp only [mulf_apply, broadcastTo_a1_ab_apply, rsqrt_apply, maximumf_apply, broadcast_apply, shapeCast_a_a1_apply]
  rw [laneSum_apply]
  rfl

/-- The second payload is the first narrowed to bf16: the same extended real. -/
theorem k0_pay2_apply (v0 : Vec Ideal S2048x512 .f32) (r : Fin 2048) (d : Fin 512) :
    k0_pay2 (F := Ideal) v0 (ix2 r d) = Cert.Dist.nrm (Cert.Dist.rows v0) r d :=
  (truncf_apply (k0_pay1 (F := Ideal) v0) bitsLt_bf16_f32 (ix2 r d)).trans (k0_pay1_apply v0 r d)

/-- The third payload at (r, z): the sum over the lanes of the squares of the scaled row. -/
theorem k0_pay3_apply (v0 : Vec Ideal S2048x512 .f32) (r : Fin 2048) (z : Fin 1) :
    k0_pay3 (F := Ideal) v0 (ix2 r z) = Cert.Dist.nsq (Cert.Dist.rows v0) r := by
  unfold k0_pay3
  simp only [shapeCast_a_a1_apply]
  rw [laneSum_apply]
  exact Finset.sum_congr rfl fun k _ => by rw [mulf_apply, k0_pay1_apply]

/-! ## The normalize kernel on a 2560 × 512 block -/

/-- The first payload at (r, d): the entry times `3 · rsqrt (max (Σ_k v[r,k]²) ε)`. -/
theorem k1_pay1_apply (v0 : Vec Ideal S2560x512 .f32) (r : Fin 2560) (d : Fin 512) :
    k1_pay1 (F := Ideal) v0 (ix2 r d) = Cert.Dist.nrm (Cert.Dist.rows v0) r d := by
  unfold k1_pay1
  simp only [mulf_apply, broadcastTo_a1_ab_apply, rsqrt_apply, maximumf_apply, broadcast_apply, shapeCast_a_a1_apply]
  rw [laneSum_apply]
  rfl

/-- The second payload is the first narrowed to bf16: the same extended real. -/
theorem k1_pay2_apply (v0 : Vec Ideal S2560x512 .f32) (r : Fin 2560) (d : Fin 512) :
    k1_pay2 (F := Ideal) v0 (ix2 r d) = Cert.Dist.nrm (Cert.Dist.rows v0) r d :=
  (truncf_apply (k1_pay1 (F := Ideal) v0) bitsLt_bf16_f32 (ix2 r d)).trans (k1_pay1_apply v0 r d)

/-- The third payload at (r, z): the sum over the lanes of the squares of the scaled row. -/
theorem k1_pay3_apply (v0 : Vec Ideal S2560x512 .f32) (r : Fin 2560) (z : Fin 1) :
    k1_pay3 (F := Ideal) v0 (ix2 r z) = Cert.Dist.nsq (Cert.Dist.rows v0) r := by
  unfold k1_pay3
  simp only [shapeCast_a_a1_apply]
  rw [laneSum_apply]
  exact Finset.sum_congr rfl fun k _ => by rw [mulf_apply, k1_pay1_apply]

/-! ## The distance kernel -/

/-- The product's left operand index at output `i` and contraction index `q`: row `i 0` … -/
theorem lhs_dot_0 (i : S512x2560.Idx) (q : dot_S512x512_S2560x512_S512x2560_1_1_0_0_n_n.contr.Idx) :
    (dot_S512x512_S2560x512_S512x2560_1_1_0_0_n_n.lhsIdx i q 0).val = (i 0).val := by
  unfold DotDims.lhsIdx
  rw [dif_neg (show ¬(0 : Fin S512x512.rank) ∈ dot_S512x512_S2560x512_S512x2560_1_1_0_0_n_n.lhsBatch by decide), dif_pos (show (0 : Fin S512x512.rank) ∈ dot_S512x512_S2560x512_S512x2560_1_1_0_0_n_n.lhsNonContracting by decide)]
  rfl
/-- … and entry `q`'s one coordinate. -/
theorem lhs_dot_1 (i : S512x2560.Idx) (q : dot_S512x512_S2560x512_S512x2560_1_1_0_0_n_n.contr.Idx) :
    (dot_S512x512_S2560x512_S512x2560_1_1_0_0_n_n.lhsIdx i q 1).val = (q ⟨0, by decide⟩).val :=
  dot_S512x512_S2560x512_S512x2560_1_1_0_0_n_n.lhsIdx_val_of_single rfl i q
/-- The right operand index: row `i 1` … -/
theorem rhs_dot_0 (i : S512x2560.Idx) (q : dot_S512x512_S2560x512_S512x2560_1_1_0_0_n_n.contr.Idx) :
    (dot_S512x512_S2560x512_S512x2560_1_1_0_0_n_n.rhsIdx i q 0).val = (i 1).val := by
  unfold DotDims.rhsIdx
  rw [dif_neg (show ¬(0 : Fin S2560x512.rank) ∈ dot_S512x512_S2560x512_S512x2560_1_1_0_0_n_n.rhsBatch by decide), dif_pos (show (0 : Fin S2560x512.rank) ∈ dot_S512x512_S2560x512_S512x2560_1_1_0_0_n_n.rhsNonContracting by decide)]
  rfl
/-- … and entry `q`'s one coordinate. -/
theorem rhs_dot_1 (i : S512x2560.Idx) (q : dot_S512x512_S2560x512_S512x2560_1_1_0_0_n_n.contr.Idx) :
    (dot_S512x512_S2560x512_S512x2560_1_1_0_0_n_n.rhsIdx i q 1).val = (q ⟨0, by decide⟩).val :=
  dot_S512x512_S2560x512_S512x2560_1_1_0_0_n_n.rhsIdx_val_of_single rfl i q

/-- The matrix product into a zero accumulator at (r, c): the sum over `d` of `x[r,d] · p[c,d]`. -/
theorem matmul_zero_apply (x : FVec Ideal S512x512 .bf16) (p : FVec Ideal S2560x512 .bf16) (r : Fin 512) (c : Fin 2560) :
    matmul dot_S512x512_S2560x512_S512x2560_1_1_0_0_n_n none x p (constant (F := Ideal) S512x2560 .f32 0x00000000#32) (ix2 r c)
      = ∑ d : Fin 512, x (ix2 r d) * p (ix2 c d) := by
  simp only [matmul]
  rw [Ideal.matmul_constant_zero_apply, ← Equiv.sum_comp (contrEquiv1 dot_S512x512_S2560x512_S512x2560_1_1_0_0_n_n 512 rfl rfl).symm]
  refine Finset.sum_congr rfl fun k _ => ?_
  have hk := contrEquiv1_symm_val dot_S512x512_S2560x512_S512x2560_1_1_0_0_n_n 512 rfl rfl k
  have el : dot_S512x512_S2560x512_S512x2560_1_1_0_0_n_n.lhsIdx (ix2 r c) ((contrEquiv1 dot_S512x512_S2560x512_S512x2560_1_1_0_0_n_n 512 rfl rfl).symm k) = ix2 r k := funext fun a => Fin.ext (by
    match a with
    | ⟨0, _⟩ => exact lhs_dot_0 _ _
    | ⟨1, _⟩ => exact (lhs_dot_1 _ _).trans hk)
  have er : dot_S512x512_S2560x512_S512x2560_1_1_0_0_n_n.rhsIdx (ix2 r c) ((contrEquiv1 dot_S512x512_S2560x512_S512x2560_1_1_0_0_n_n 512 rfl rfl).symm k) = ix2 c k := funext fun a => Fin.ext (by
    match a with
    | ⟨0, _⟩ => exact rhs_dot_0 _ _
    | ⟨1, _⟩ => exact (rhs_dot_1 _ _).trans hk)
  rw [el, er]

/-- The distance payload at (r, c): `(xsq[r,0] + psq[0,c]) − 2 · Σ_d x[r,d] · p[c,d]`. -/
theorem k2_pay1_apply (v0 : Vec Ideal S512x512 .bf16) (v2 : Vec Ideal S2560x512 .bf16) (v5 : Vec Ideal S512x1 .f32)
    (v7 : Vec Ideal S1x2560 .f32) (r : Fin 512) (c : Fin 2560) :
    k2_pay1 (F := Ideal) v0 v2 v5 v7 (ix2 r c)
      = (v5 (ix2 r (0 : Fin 1)) + v7 (ix2 (0 : Fin 1) c)) - Cert.Dist.two * ∑ d : Fin 512, v0 (ix2 r d) * v2 (ix2 c d) := by
  unfold k2_pay1
  simp only [subf_apply, addf_apply, mulf_apply, broadcast_apply, shapeCast_self, broadcastTo_a1_ab_apply,
    broadcastTo_1b_ab_apply]
  rw [matmul_zero_apply]
  rfl

end Cert.KernelIdeal.PayValue

end
-- ==== Proof.KI.Dat1.lean ====
/-
  The second region: the row-scaling kernel over `p` (10000 rows in four blocks of 2560; the last block overhangs
  the array by 240 rows), at the contents `V` the region is entered with, at the ideal values. A fetch of the last
  block fills only the buffer's first 2320 rows; the rows past the array's end hold values nothing names, and the
  write-backs move only the rows inside the array. Each row of the kernel's result depends on that row of its input
  alone, so on the rows inside the array what the body leaves is the scaled rows and squared lengths of the block
  filled out with zeros, whatever the rows past the end held.
-/
import proofs.«173794_j18451179503909_2_alg».proof.Proof.KI.Body1
import proofs.«173794_j18451179503909_2_alg».proof.Proof.Gen.KernelIdeal.Launch
import proofs.«173794_j18451179503909_2_alg».proof.Proof.Gen.KernelIdeal.Points
import proofs.«173794_j18451179503909_2_alg».proof.Proof.PayIdeal
import Idealize.ShloMosaic.PureOps.Ideal
import Idealize.ShloMosaic.Lib.Pipeline.FrameBody
import Idealize.ShloMosaic.Lib.Pipeline.Kit
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-- Window `w`'s block at point `t`, read off its array as the region finds it: its part inside the array. -/
def iblk (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The input block filled out to the whole 2560 × 512 staging buffer, zeros past the array's end. -/
def xin (c : Dev nD) (t : Fin cfg1.N) : Vec Ideal S2560x512 .f32 :=
  win1_0.fill (grid1.coords t) (fun _ => Scalar.ofBits (F := Ideal) .f32 0#32) (iblk V c 0 t)

/-- The proof data: after the body at point `t` the input's buffer at `xin`, the outputs' at the scaled rows and the
    squared lengths of `xin` (read only on the rows inside the array); nothing owed, full shares. -/
def dat (c : Dev nD) : Dat τ (Elt Ideal) Unit ℕ (UR sig nD τ) ℕ cfg1 c where
  A w := V c (Pipeline.arrRef spec1 w)
  after w t := match w with
    | ⟨0, _⟩ => xin V c t
    | ⟨1, _⟩ => Body.out1_1 (xin V c t)
    | ⟨2, _⟩ => Body.out1_2 (xin V c t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = xin V c t := by dsimp only [dat]
theorem after_1 (c : Dev nD) (t : Fin cfg1.N) : (dat V c).after 1 t = Body.out1_1 (xin V c t) := by dsimp only [dat]
theorem after_2 (c : Dev nD) (t : Fin cfg1.N) : (dat V c).after 2 t = Body.out1_2 (xin V c t) := by dsimp only [dat]

/-! ## Each row of the kernel's result depends on that row of its input alone -/

section Locality

open Idealize.ShloMosaic.ValueIdx

/-- Two contents of a block that agree on the part a transfer moves agree at every index of that part. -/
theorem eq_of_cut_eq {α : Type} {G : Pipeline.Grid} (w : Window sig G) (i : G.Coords) {X X' : w.block.Idx → α}
    (h : w.cut i X = w.cut i X') (y : w.block.Idx) (hy : ∀ a, (y a).val < w.xsize i a) : X y = X' y :=
  congrFun h (fun a => ⟨(y a).val, hy a⟩)

/-- The offsets of a whole-buffer access are zero on both axes. -/
theorem hz : (![0, 0] : Fin 2 → Nat) = fun _ => 0 := by
  funext a; match a with | ⟨0, _⟩ => rfl | ⟨1, _⟩ => rfl

/-- One whole-buffer store of the payload of the whole-buffer load: the buffers hold the payloads of the input. -/
theorem out1_1_eq (X : Vec Ideal S2560x512 .f32) : Body.out1_1 X = k1_pay2 (F := Ideal) X := by
  unfold Body.out1_1
  rw [View.canon_unit_zero hz, View.ld_unit_zero (S := S2560x512) hz]
theorem out1_2_eq (X : Vec Ideal S2560x512 .f32) : Body.out1_2 X = k1_pay3 (F := Ideal) X := by
  unfold Body.out1_2
  rw [View.canon_unit_zero hz, View.ld_unit_zero (S := S2560x512) hz]

/-- The scaled row r mentions the block through row r alone: the entry, and the sum of the row's squares. -/
theorem nrm_congr {X X' : Vec Ideal S2560x512 .f32} (r : Fin 2560) (h : ∀ k : Fin 512, X (ix2 r k) = X' (ix2 r k)) (d : Fin 512) :
    Cert.Dist.nrm (Cert.Dist.rows X) r d = Cert.Dist.nrm (Cert.Dist.rows X') r d := by
  unfold Cert.Dist.nrm Cert.Dist.rs Cert.Dist.ssq
  show X (ix2 r d) * _ = X' (ix2 r d) * _
  rw [h d, Finset.sum_congr rfl fun k _ => show X (ix2 r k) * X (ix2 r k) = X' (ix2 r k) * X' (ix2 r k) by rw [h k]]

/-- So does its squared length. -/
theorem nsq_congr {X X' : Vec Ideal S2560x512 .f32} (r : Fin 2560) (h : ∀ k : Fin 512, X (ix2 r k) = X' (ix2 r k)) :
    Cert.Dist.nsq (Cert.Dist.rows X) r = Cert.Dist.nsq (Cert.Dist.rows X') r := by
  unfold Cert.Dist.nsq
  exact Finset.sum_congr rfl fun d _ => by rw [nrm_congr r h d]

/-- The three windows are cut alike: on the rows only (every one of the 512 entries of a row, and the one squared
    length, is moved), and the same number of rows, at each of the four points. -/
theorem cuts : ∀ t : Fin grid1.N,
    win1_0.xsize (grid1.coords t) 1 = 512
      ∧ win1_1.xsize (grid1.coords t) 0 = win1_0.xsize (grid1.coords t) 0
      ∧ win1_2.xsize (grid1.coords t) 0 = win1_0.xsize (grid1.coords t) 0 := by
  decide +kernel

/-- The scaled rows inside the array are those of any input that agrees with this one on the rows inside the array. -/
theorem out1_1_local (t : Fin grid1.N) {X X' : Vec Ideal S2560x512 .f32}
    (h : win1_0.cut (grid1.coords t) X = win1_0.cut (grid1.coords t) X') :
    win1_1.cut (grid1.coords t) (Body.out1_1 X) = win1_1.cut (grid1.coords t) (Body.out1_1 X') := by
  funext j
  show Body.out1_1 X (win1_1.xinj (grid1.coords t) j) = Body.out1_1 X' (win1_1.xinj (grid1.coords t) j)
  obtain ⟨r, d, hrd, hr⟩ : ∃ (r : Fin 2560) (d : Fin 512), win1_1.xinj (grid1.coords t) j = ix2 r d ∧ r.val = (j 0).val :=
    ⟨_, _, eq_ix2 (n0 := 2560) (n1 := 512) (win1_1.xinj (grid1.coords t) j), rfl⟩
  rw [out1_1_eq, out1_1_eq, hrd, PayValue.k1_pay2_apply, PayValue.k1_pay2_apply]
  refine nrm_congr r (fun k => eq_of_cut_eq win1_0 _ h (ix2 r k) fun a => ?_) d
  match a with
  | ⟨0, _⟩ =>
    show r.val < win1_0.xsize (grid1.coords t) 0
    rw [hr, ← (cuts t).2.1]; exact (j 0).isLt
  | ⟨1, _⟩ =>
    show k.val < win1_0.xsize (grid1.coords t) 1
    rw [(cuts t).1]; exact k.isLt

/-- So are the squared lengths of the rows inside the array. -/
theorem out1_2_local (t : Fin grid1.N) {X X' : Vec Ideal S2560x512 .f32}
    (h : win1_0.cut (grid1.coords t) X = win1_0.cut (grid1.coords t) X') :
    win1_2.cut (grid1.coords t) (Body.out1_2 X) = win1_2.cut (grid1.coords t) (Body.out1_2 X') := by
  funext j
  show Body.out1_2 X (win1_2.xinj (grid1.coords t) j) = Body.out1_2 X' (win1_2.xinj (grid1.coords t) j)
  obtain ⟨r, z, hrz, hr⟩ : ∃ (r : Fin 2560) (z : Fin 1), win1_2.xinj (grid1.coords t) j = ix2 r z ∧ r.val = (j 0).val :=
    ⟨_, _, eq_ix2 (n0 := 2560) (n1 := 1) (win1_2.xinj (grid1.coords t) j), rfl⟩
  rw [out1_2_eq, out1_2_eq, hrz, PayValue.k1_pay3_apply, PayValue.k1_pay3_apply]
  refine nsq_congr r fun k => eq_of_cut_eq win1_0 _ h (ix2 r k) fun a => ?_
  match a with
  | ⟨0, _⟩ =>
    show r.val < win1_0.xsize (grid1.coords t) 0
    rw [hr, ← (cuts t).2.2]; exact (j 0).isLt
  | ⟨1, _⟩ =>
    show k.val < win1_0.xsize (grid1.coords t) 1
    rw [(cuts t).1]; exact k.isLt

end Locality

/-! ## The body at a point -/

/-- The input's buffer as the body finds it: just fetched, the block on the rows inside the array and what the buffer
    held (d) past the array's end. -/
theorem before_0 (c : Dev nD) (t : Fin cfg1.N) (d) :
    (dat V c).before 0 t d = win1_0.fill (grid1.coords t) d (iblk V c 0 t) := by
  unfold Dat.before; rw [if_pos (fetch1_0 t)]; rfl

/-- Such a buffer and the zero-filled block agree on the rows inside the array: both hold the block there. -/
theorem cut_before_0 (c : Dev nD) (t : Fin cfg1.N) (d) :
    win1_0.cut (grid1.coords t) (win1_0.fill (grid1.coords t) d (iblk V c 0 t)) = win1_0.cut (grid1.coords t) (xin V c t) :=
  (win1_0.cut_fill _ _ _).trans (win1_0.cut_fill _ _ _).symm

/-- The body at any point. The input's buffer arrives holding its block filled out with whatever lay past the array's
    end, the outputs' holding anything; the body leaves the input's buffer as it was and the outputs' holding the scaled
    rows and squared lengths of THAT buffer. On the rows inside the array these are the scaled rows and squared lengths
    of the zero-filled block, since each row's result reads that row alone; past the array's end nothing is stated. The
    invariant and what the core owes pass through unread. -/
theorem sound_body (c : Dev nD) (t : Fin cfg1.N) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d)))
      ⊢ wp frame (wpE (defs₀ (F := Ideal)) Variants.none c none) Set.univ (bodyAt1 t) (fun _ =>
          iprop((dat V c).Φ t.succ ∗ (dat V c).owesAt () t.succ
            ∗ (∃ d, owns (c : Thread nD τ) (st1_0 t) fullShare
                (win1_0.fill (grid1.coords t) d (win1_0.cut (grid1.coords t) ((dat V c).after 0 t))))
            ∗ (∃ d, owns (c : Thread nD τ) (st1_1 t) fullShare
                (win1_1.fill (grid1.coords t) d (win1_1.cut (grid1.coords t) ((dat V c).after 1 t))))
            ∗ (∃ d, owns (c : Thread nD τ) (st1_2 t) fullShare
                (win1_2.fill (grid1.coords t) d (win1_2.cut (grid1.coords t) ((dat V c).after 2 t)))))) := by
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  rw [before_0 V c t d0]
  iapply (Body.sound_kernel1 (F := Ideal) c Set.univ _ _ _ _ _ _ _ (win1_0.fill (grid1.coords t) d0 (iblk V c 0 t)) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]
  · iexists d0
    rw [← cut_before_0 V c t d0, win1_0.cut_fill]
    iexact H0
  isplitl [H1]
  · iexists Body.out1_1 (win1_0.fill (grid1.coords t) d0 (iblk V c 0 t))
    rw [win1_1.fill_congr_cut _ (out1_1_local t (cut_before_0 V c t d0))]
    iexact H1
  · iexists Body.out1_2 (win1_0.fill (grid1.coords t) d0 (iblk V c 0 t))
    rw [win1_2.fill_congr_cut _ (out1_2_local t (cut_before_0 V c t d0))]
    iexact H2

/-- The body obligation at every point, each buffer stated on the rows inside the array. -/
theorem body_obligation (c : Dev nD) : BodyObligationLoose (dat V c) (defs₀ (F := Ideal)) Variants.none () Set.univ := fun t => by
  rw [bigSep_W1, bigSep_W1]
  exact sound_body V c t

end Cert.KernelIdeal.Reg1

end
-- ==== Proof.KI.Body2.lean ====
/-
  The distance kernel's body on a 512 × 2560 block, as a Hoare triple at any float instance.

  The body loads its four input staging buffers whole (512 scaled rows of `x`, their squared lengths as a column,
  2560 scaled rows of `p`, their squared lengths as a row), computes, and stores the output staging buffer whole;
  the load of the output buffer it also makes is dead. So from the inputs' buffers at contents `x0 … x3` and the
  output's at anything, the body runs to the end with the inputs' buffers unchanged and the output's buffer holding
  the body's arithmetic (the payload) of the inputs' contents.
-/
import proofs.«173794_j18451179503909_2_alg».proof.Proof.Gen.KernelIdeal.Skeleton
import Idealize.ShloMosaic.Lib.Pipeline.FrameBody
import Idealize.ShloMosaic.Lib.Pipeline.Kit
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The distance kernel on a 512 × 2560 block -/

/-- The whole buffers the body's accesses name: the 512 scaled rows of `x`, their squared lengths, the 2560 scaled
    rows of `p`, their squared lengths as a row, and the 512 × 2560 result block. -/
abbrev r2x : Rect S512x512 := Rect.unit (s := S512x512) ![0, 0] S512x512.size inb_S512x512_S512x512_0_0
abbrev r2s : Rect S512x1 := Rect.unit (s := S512x1) ![0, 0] S512x1.size inb_S512x1_S512x1_0_0
abbrev r2p : Rect S2560x512 := Rect.unit (s := S2560x512) ![0, 0] S2560x512.size inb_S2560x512_S2560x512_0_0
abbrev r2q : Rect S1x2560 := Rect.unit (s := S1x2560) ![0, 0] S1x2560.size inb_S1x2560_S1x2560_0_0
abbrev r2o : Rect S512x2560 := Rect.unit (s := S512x2560) ![0, 0] S512x2560.size inb_S512x2560_S512x2560_0_0

/-- What the body leaves in the result buffer, from the four input blocks (in the windows' order). -/
def out2_4 (x0 : Vec F S512x512 .bf16) (x1 : Vec F S512x1 .f32) (x2 : Vec F S2560x512 .bf16) (x3 : Vec F S1x2560 .f32) :
    Vec F S512x2560 .f32 :=
  View.canon [⟨r2o, k2_pay1 (View.ld x0 r2x) (View.ld x2 r2p) (View.ld x1 r2s) (View.ld x3 r2q)⟩]

/-- One whole-buffer store covers the buffer. -/
theorem cover2_4 (p0 : Vec F S512x2560 .f32) (y : S512x2560.Idx) :
    ∃ pc ∈ ([⟨r2o, p0⟩] : List (View.Piece (Elt F) S512x2560 .f32)), y ∈ pc.1.set :=
  View.cover_of_tiled [⟨r2o, p0⟩] S512x2560.size (by rfl) y

set_option maxHeartbeats 1000000 in
/-- The body on whole staging memrefs: the four inputs' at contents `x0 … x3`, the output's at anything. -/
theorem sound_kernel2 (c : Dev nD) (E : Set ℕ) (i : grid2.Coords)
    (arg2 : Memref sig .tc .vmem S512x512 .bf16) (harg2 : arg2.IsWhole)
    (arg3 : Memref sig .tc .vmem S512x1 .f32) (harg3 : arg3.IsWhole)
    (arg4 : Memref sig .tc .vmem S2560x512 .bf16) (harg4 : arg4.IsWhole)
    (arg5 : Memref sig .tc .vmem S1x2560 .f32) (harg5 : arg5.IsWhole)
    (arg6 : Memref sig .tc .vmem S512x2560 .f32) (harg6 : arg6.IsWhole)
    (x0 : Vec F S512x512 .bf16) (x1 : Vec F S512x1 .f32) (x2 : Vec F S2560x512 .bf16) (x3 : Vec F S1x2560 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out2_4 x0 x1 x2 x3)) -∗ K ⟨⟩))
      ⊢ wp frame (wpE (defs₀ (F := F)) Variants.none c none) E
          (cc2__dist_kernel i arg2 harg2 arg3 harg3 arg4 harg4 arg5 harg5 arg6 harg6) K := by
  simp only [cc2__dist_kernel_eq_skeleton]; unfold cc2__dist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

end Cert.KernelIdeal.Body

end
-- ==== Proof.KI.Dat2.lean ====
/-
  The third region: the distance kernel over a grid of 4 column blocks (2560 columns each, the last overhanging the
  10000 columns by 240) by 8 row blocks (512 rows each), at the contents `V` the region is entered with, at the
  ideal values. The windows of `x`'s scaled rows and squared lengths tile their arrays; those of `p`'s scaled rows
  (2560 rows), of its squared lengths as a row (2560 columns) and of the result (512 × 2560) are cut at the array's
  end. Column `c` of the body's result depends on row `c` of `p`'s block and entry `c` of its squared lengths alone,
  so on the columns inside the array what the body leaves is its arithmetic of the blocks filled out with zeros.
-/
import proofs.«173794_j18451179503909_2_alg».proof.Proof.KI.Body2
import proofs.«173794_j18451179503909_2_alg».proof.Proof.Gen.KernelIdeal.Launch
import proofs.«173794_j18451179503909_2_alg».proof.Proof.Gen.KernelIdeal.Points
import Idealize.ShloMosaic.PureOps.Ideal
import Idealize.ShloMosaic.Lib.Pipeline.FrameBody
import Idealize.ShloMosaic.Lib.Pipeline.Kit
import Idealize.ShloMosaic.Lib.Tactic
import proofs.«173794_j18451179503909_2_alg».proof.Proof.PayIdeal

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-- Window `w`'s block at point `t`, read off its array as the region finds it: its part inside the array. -/
def iblk (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

/-- `p`'s block of scaled rows and of squared lengths, each filled out to the whole staging buffer with zeros. -/
def pin (c : Dev nD) (t : Fin cfg2.N) : Vec Ideal S2560x512 .bf16 :=
  win2_2.fill (grid2.coords t) (fun _ => Scalar.ofBits (F := Ideal) .bf16 0#16) (iblk V c 2 t)
def qin (c : Dev nD) (t : Fin cfg2.N) : Vec Ideal S1x2560 .f32 :=
  win2_3.fill (grid2.coords t) (fun _ => Scalar.ofBits (F := Ideal) .f32 0#32) (iblk V c 3 t)

/-- The proof data: after the body at point `t` the four inputs' buffers at their blocks (the two cut ones filled
    out), the output's at the body's arithmetic of them (read only on the columns inside the array). -/
def dat (c : Dev nD) : Dat τ (Elt Ideal) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => pin V c t
    | ⟨3, _⟩ => qin V c t
    | ⟨4, _⟩ => Body.out2_4 (iblk V c 0 t) (iblk V c 1 t) (pin V c t) (qin V c t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = pin V c t := by dsimp only [dat]
theorem after_3 (c : Dev nD) (t : Fin cfg2.N) : (dat V c).after 3 t = qin V c t := by dsimp only [dat]
theorem after_4 (c : Dev nD) (t : Fin cfg2.N) :
    (dat V c).after 4 t = Body.out2_4 (iblk V c 0 t) (iblk V c 1 t) (pin V c t) (qin V c t) := by dsimp only [dat]

/-! ## What the body finds in the inputs' buffers -/

/-- The rows of \`x\` and their squared lengths are fetched at every point and tile their arrays: the buffers hold
    the blocks. -/
theorem before_0 (c : Dev nD) (t : Fin cfg2.N) (d) : (dat V c).before 0 t d = iblk V c 0 t := by
  unfold Dat.before; rw [if_pos (fetch2_0 t)]; unfold Dat.fetched Dat.blockOf iblk; rw [A_eq]; rfl
theorem before_1 (c : Dev nD) (t : Fin cfg2.N) (d) : (dat V c).before 1 t d = iblk V c 1 t := by
  unfold Dat.before; rw [if_pos (fetch2_1 t)]; unfold Dat.fetched Dat.blockOf iblk; rw [A_eq]; rfl

/-- How \`p\`'s two windows are cut is a function of their block index: the cut on an axis is computed from the block
    index there. -/
theorem clip_2 (t t' : Fin cfg2.N) (h : (cfg2.win 2).index t = (cfg2.win 2).index t') :
    (cfg2.win 2).clip (cfg2.grid.coords t) = (cfg2.win 2).clip (cfg2.grid.coords t') :=
  funext fun a => congrArg (fun f : Fin 2 → Nat => Pipeline.Clip.of (f a) (S2560x512.size a) (S10000x512.size a)) h
theorem clip_3 (t t' : Fin cfg2.N) (h : (cfg2.win 3).index t = (cfg2.win 3).index t') :
    (cfg2.win 3).clip (cfg2.grid.coords t) = (cfg2.win 3).clip (cfg2.grid.coords t') :=
  funext fun a => congrArg (fun f : Fin 2 → Nat => Pipeline.Clip.of (f a) (S1x2560.size a) (S1x10000.size a)) h

/-- \`p\`'s scaled rows and squared lengths are fetched when the column block changes and left in place by the body:
    at every point their buffers hold the block on the part inside the array, and past it what they held. -/
theorem before_2 (c : Dev nD) (t : Fin cfg2.N) (d) :
    (dat V c).before 2 t d = win2_2.fill (grid2.coords t) d (iblk V c 2 t) :=
  ((dat V c).before_in_eq_fetched 2 rfl (fun _ => rfl) clip_2
    (fun t => by rw [after_2]; unfold pin Dat.blockOf; rw [A_eq]; exact win2_2.cut_fill _ _ _) t d).trans
    (by unfold Dat.fetched Dat.blockOf iblk; rw [A_eq])
theorem before_3 (c : Dev nD) (t : Fin cfg2.N) (d) :
    (dat V c).before 3 t d = win2_3.fill (grid2.coords t) d (iblk V c 3 t) :=
  ((dat V c).before_in_eq_fetched 3 rfl (fun _ => rfl) clip_3
    (fun t => by rw [after_3]; unfold qin Dat.blockOf; rw [A_eq]; exact win2_3.cut_fill _ _ _) t d).trans
    (by unfold Dat.fetched Dat.blockOf iblk; rw [A_eq])

/-! ## The body's result on the columns inside the array -/

/-- The body's result is the distance arithmetic of the four blocks: its loads read the buffers whole and its one
    store writes the buffer whole. -/
theorem out2_4_eq (x0 : Vec Ideal S512x512 .bf16) (x1 : Vec Ideal S512x1 .f32) (x2 : Vec Ideal S2560x512 .bf16)
    (x3 : Vec Ideal S1x2560 .f32) : Body.out2_4 x0 x1 x2 x3 = k2_pay1 (F := Ideal) x0 x2 x1 x3 := by
  have hz : (![0, 0] : Fin 2 → Nat) = fun _ => 0 := funext fun a => by fin_cases a <;> rfl
  unfold Body.out2_4
  rw [View.canon_unit_zero hz, View.ld_unit_zero hz, View.ld_unit_zero hz, View.ld_unit_zero hz, View.ld_unit_zero hz]

/-- Contents of a window's buffer that agree on the part its transfers move agree at every index of that part. -/
theorem cut_congr_at {G : Pipeline.Grid} (w : Window sig G) {α : Type} (i : G.Coords) {X X' : w.block.Idx → α}
    (h : w.cut i X = w.cut i X') (k : w.block.Idx) (hk : ∀ a, (k a).val < w.xsize i a) : X k = X' k :=
  congrFun h (fun a => ⟨(k a).val, hk a⟩)

/-- The cut sizes at a point: \`p\`'s rows keep their 512 entries and its squared lengths their one row; the rows of
    \`p\`'s block inside the array, the entries of its squared lengths inside it and the result's columns inside it are
    as many (all three are cut by the column block's index against the 10000 rows of \`p\`). -/
theorem xsizes : ∀ t : Fin grid2.N,
    win2_2.xsize (grid2.coords t) (1 : Fin 2) = 512 ∧ win2_3.xsize (grid2.coords t) (0 : Fin 2) = 1
      ∧ win2_2.xsize (grid2.coords t) (0 : Fin 2) = win2_4.xsize (grid2.coords t) (1 : Fin 2)
      ∧ win2_3.xsize (grid2.coords t) (1 : Fin 2) = win2_4.xsize (grid2.coords t) (1 : Fin 2) := by
  decide +kernel

open Idealize.ShloMosaic.ValueIdx in
/-- Column \`c\` of the body's result is computed from row \`c\` of \`p\`'s block and entry \`c\` of its squared lengths
    alone (and from \`x\`'s blocks): two contents of \`p\`'s buffers that agree on the part inside the array give results
    that agree on the columns inside the array. -/
theorem out_cut_congr (t : Fin grid2.N) (x0 : Vec Ideal S512x512 .bf16) (x1 : Vec Ideal S512x1 .f32)
    (x2 x2' : Vec Ideal S2560x512 .bf16) (x3 x3' : Vec Ideal S1x2560 .f32)
    (h2 : win2_2.cut (grid2.coords t) x2 = win2_2.cut (grid2.coords t) x2')
    (h3 : win2_3.cut (grid2.coords t) x3 = win2_3.cut (grid2.coords t) x3') :
    win2_4.cut (grid2.coords t) (Body.out2_4 x0 x1 x2 x3) = win2_4.cut (grid2.coords t) (Body.out2_4 x0 x1 x2' x3') := by
  funext j
  obtain ⟨e1, e2, e3, e4⟩ := xsizes t
  have hr : (j 0).val < 512 := Nat.lt_of_lt_of_le (j 0).isLt (win2_4.xsize_le (grid2.coords t) (0 : Fin 2))
  have hc : (j 1).val < 2560 := Nat.lt_of_lt_of_le (j 1).isLt (win2_4.xsize_le (grid2.coords t) (1 : Fin 2))
  have ej : win2_4.xinj (grid2.coords t) j = ix2 (⟨(j 0).val, hr⟩ : Fin 512) (⟨(j 1).val, hc⟩ : Fin 2560) :=
    funext fun a => by
      match a with
      | ⟨0, _⟩ => exact Fin.ext rfl
      | ⟨1, _⟩ => exact Fin.ext rfl
  -- row \`c\` of \`p\`'s block lies inside the array, and so does entry \`c\` of its squared lengths
  have a2 : ∀ d : Fin 512, x2 (ix2 (⟨(j 1).val, hc⟩ : Fin 2560) d) = x2' (ix2 (⟨(j 1).val, hc⟩ : Fin 2560) d) := fun d =>
    cut_congr_at win2_2 (grid2.coords t) h2 (ix2 (⟨(j 1).val, hc⟩ : Fin 2560) d) fun a => by
      match a with
      | ⟨0, _⟩ => show (j 1).val < win2_2.xsize (grid2.coords t) (0 : Fin 2); rw [e3]; exact (j 1).isLt
      | ⟨1, _⟩ => show d.val < win2_2.xsize (grid2.coords t) (1 : Fin 2); rw [e1]; exact d.isLt
  have a3 : x3 (ix2 (0 : Fin 1) (⟨(j 1).val, hc⟩ : Fin 2560)) = x3' (ix2 (0 : Fin 1) (⟨(j 1).val, hc⟩ : Fin 2560)) :=
    cut_congr_at win2_3 (grid2.coords t) h3 (ix2 (0 : Fin 1) (⟨(j 1).val, hc⟩ : Fin 2560)) fun a => by
      match a with
      | ⟨0, _⟩ => show 0 < win2_3.xsize (grid2.coords t) (0 : Fin 2); rw [e2]; exact Nat.one_pos
      | ⟨1, _⟩ => show (j 1).val < win2_3.xsize (grid2.coords t) (1 : Fin 2); rw [e4]; exact (j 1).isLt
  show Body.out2_4 x0 x1 x2 x3 (win2_4.xinj (grid2.coords t) j) = Body.out2_4 x0 x1 x2' x3' (win2_4.xinj (grid2.coords t) j)
  rw [out2_4_eq, out2_4_eq, ej, PayValue.k2_pay1_apply, PayValue.k2_pay1_apply, a3]
  simp only [a2]

/-! ## The body obligation -/

/-- What the body is called with at point \`t\`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

/-- and what it returns: \`x\`'s buffers at their blocks, and each cut window's buffer at its stated contents on the
    part inside the array and at anything past it. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ (∃ d, owns (c : Thread nD τ) (st2_2 t) fullShare
        (win2_2.fill (grid2.coords t) d (win2_2.cut (grid2.coords t) ((dat V c).after 2 t))))
    ∗ (∃ d, owns (c : Thread nD τ) (st2_3 t) fullShare
        (win2_3.fill (grid2.coords t) d (win2_3.cut (grid2.coords t) ((dat V c).after 3 t))))
    ∗ (∃ d, owns (c : Thread nD τ) (st2_4 t) fullShare
        (win2_4.fill (grid2.coords t) d (win2_4.cut (grid2.coords t) ((dat V c).after 4 t)))))

/-- The body at any point. \`x\`'s buffers hold their blocks and \`p\`'s hold theirs on the part inside the array, with
    whatever they held past it; the body leaves the four as it found them, which on the part inside the array is what
    is stated of them, and the result's buffer at its arithmetic of them, which on the columns inside the array is the
    arithmetic of the blocks filled out with zeros (\`out_cut_congr\`). -/
theorem sound_body (c : Dev nD) (t : Fin cfg2.N) :
    bodyPre V c t ⊢ wp frame (wpE (defs₀ (F := Ideal)) Variants.none c none) Set.univ (bodyAt2 t) (fun _ => bodyPost V c t) := by
  unfold bodyPre bodyPost bodyAt2
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (Body.sound_kernel2 (F := Ideal) c Set.univ _ _ _ _ _ _ _ _ _ _ _ (iblk V c 0 t) (iblk V c 1 t)
    (win2_2.fill (grid2.coords t) d2 (iblk V c 2 t)) (win2_3.fill (grid2.coords t) d3 (iblk V c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  have c2 : win2_2.cut (grid2.coords t) (pin V c t) = iblk V c 2 t := win2_2.cut_fill _ _ _
  have c3 : win2_3.cut (grid2.coords t) (qin V c t) = iblk V c 3 t := win2_3.cut_fill _ _ _
  isplitl [H2]
  · iexists d2; rw [c2]; iexact H2
  isplitl [H3]
  · iexists d3; rw [c3]; iexact H3
  iexists Body.out2_4 (iblk V c 0 t) (iblk V c 1 t) (win2_2.fill (grid2.coords t) d2 (iblk V c 2 t))
    (win2_3.fill (grid2.coords t) d3 (iblk V c 3 t))
  rw [win2_4.fill_congr_cut (grid2.coords t) (out_cut_congr t _ _ _ _ _ _
    ((win2_2.cut_fill _ _ _).trans c2.symm) ((win2_3.cut_fill _ _ _).trans c3.symm))]
  iexact H4

/-- The body obligation at every point, each cut window's buffer stated on its part inside the array. -/
theorem body_obligation (c : Dev nD) : BodyObligationLoose (dat V c) (defs₀ (F := Ideal)) Variants.none () Set.univ := fun t => by
  rw [bigSep_W2, bigSep_W2]
  exact sound_body V c t

end Cert.KernelIdeal.Reg2

end
-- ==== Proof.KI.Run.lean ====
/-
  The idealized program's run: @main's four segments from the launch to the return. The buffers' contents at each
  segment boundary are a fold from the launch memory: a region leaves its windows' arrays at what its write-backs
  fold to and every other buffer as it found it; the one host operation (the transpose of the second region's squared
  lengths) rewrites its result buffer alone. Each region's proof data is stated at the contents it is entered with, so
  the run threads the three regions and the transpose over the thread state "every unscoped buffer at the boundary's
  contents, the generator register at some state, nothing owed". Read at the end, every unscoped buffer holds the
  last boundary's contents; the arguments are never written, and each intermediate array is read back through the fold
  to the region (or the transpose) that made it.
-/
import proofs.«173794_j18451179503909_2_alg».proof.Proof.KI.Dat0
import proofs.«173794_j18451179503909_2_alg».proof.Proof.KI.Dat1
import proofs.«173794_j18451179503909_2_alg».proof.Proof.KI.Dat2
import proofs.«173794_j18451179503909_2_alg».proof.Proof.Gen.KernelIdeal.Launch
import proofs.«173794_j18451179503909_2_alg».proof.Proof.Gen.KernelIdeal.Points
import Idealize.ShloMosaic.PureOps.Ideal
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Kit
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The buffers' contents at each segment boundary -/

/-- Core `c`'s buffers at launch. -/
abbrev W0 : Dev nD → Valuation τ sig (Elt Ideal) := fun c b => m (c, b)
/-- The same read at the TensorCore's references (what the first region's proof data take). -/
abbrev V0 : (c : Dev nD) → (b : Ref sig .tc) → Buf (Elt Ideal) ((c : Thread nD τ).loc b) := fun c b => W0 m c b

/-- After the first region: its arrays at what the pipeline leaves (the input as entered, each output's write-backs
    folded), every other buffer as entered. -/
def W1 (c : Dev nD) : Valuation τ sig (Elt Ideal) :=
  Pipeline.withArrays spec0 c (W0 m c) fun w => (Reg0.dat (F := Ideal) (V0 m) c).arrAt w cfg0.N
theorem W1_arr (c : Dev nD) (w : Fin cfg0.W) :
    W1 m c (Proc.devRef .tc (Pipeline.arrRef spec0 w)) = (Reg0.dat (F := Ideal) (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (what the second region's proof data take). -/
abbrev V1 : (c : Dev nD) → (b : Ref sig .tc) → Buf (Elt Ideal) ((c : Thread nD τ).loc b) := fun c b => W1 m c b
theorem hF0 (c : Dev nD) (w : Fin cfg0.W) :
    (Reg0.dat (F := Ideal) (V0 m) c).arrAt w cfg0.N = V1 m c (Pipeline.arrRef spec0 w) := (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region. -/
def W2 (c : Dev nD) : Valuation τ sig (Elt Ideal) :=
  Pipeline.withArrays spec1 c (W1 m c) fun w => (Reg1.dat (V1 m) c).arrAt w cfg1.N
theorem W2_arr (c : Dev nD) (w : Fin cfg1.W) :
    W2 m c (Proc.devRef .tc (Pipeline.arrRef spec1 w)) = (Reg1.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references (the second region's exit contents). -/
abbrev V2 : (c : Dev nD) → (b : Ref sig .tc) → Buf (Elt Ideal) ((c : Thread nD τ).loc b) := fun c b => W2 m c b
theorem hF1 (c : Dev nD) (w : Fin cfg1.W) :
    (Reg1.dat (V1 m) c).arrAt w cfg1.N = V2 m c (Pipeline.arrRef spec1 w) := (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the transpose (the third region's entry). -/
abbrev W3 : Dev nD → Valuation τ sig (Elt Ideal) := fun c => StableHlo.after hostOps2 (W2 m c)
/-- The same read at the TensorCore's references (what the third region's proof data take). -/
abbrev V3 : (c : Dev nD) → (b : Ref sig .tc) → Buf (Elt Ideal) ((c : Thread nD τ).loc b) := fun c b => W3 m c b

/-- After the third region: the contents @main returns with. -/
def W4 (c : Dev nD) : Valuation τ sig (Elt Ideal) :=
  Pipeline.withArrays spec2 c (W3 m c) fun w => (Reg2.dat (V3 m) c).arrAt w cfg2.N
theorem W4_arr (c : Dev nD) (w : Fin cfg2.W) :
    W4 m c (Proc.devRef .tc (Pipeline.arrRef spec2 w)) = (Reg2.dat (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references (the third region's exit contents). -/
abbrev V4 : (c : Dev nD) → (b : Ref sig .tc) → Buf (Elt Ideal) ((c : Thread nD τ).loc b) := fun c b => W4 m c b
theorem hF2 (c : Dev nD) (w : Fin cfg2.W) :
    (Reg2.dat (V3 m) c).arrAt w cfg2.N = V4 m c (Pipeline.arrRef spec2 w) := (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## What the transpose writes -/

/-- The transpose allocates no buffer. -/
theorem hostOps2_fresh : (hostOps2 : List (HloOp τ sig (Elt Ideal))).Forall fun op => op.fresh = ∅ := by
  simp only [List.Forall]; repeat' constructor
/-- It writes its result buffer alone. -/
theorem hostOps2_writes : (hostOps2 : List (HloOp τ sig (Elt Ideal))).Forall fun op =>
    op.writes ⊆ (([main_v2] : List (Ref sig .tc)).map (Proc.devRef (τ := τ) .tc)).toFinset := by
  simp only [List.Forall]
  exact (by simp only [StableHlo.unary_writes, Finset.singleton_subset_iff, List.mem_toFinset]; exact List.mem_map_of_mem (by decide))
/-- Every buffer but the transpose's result passes the transpose unchanged. -/
theorem W3_of_ne (c : Dev nD) (r : Ref sig .tc) (h : r ∉ ([main_v2] : List (Ref sig .tc))) :
    W3 m c (Proc.devRef .tc r) = W2 m c (Proc.devRef .tc r) :=
  StableHlo.after_of_writes_sub hostOps2 _ hostOps2_writes h

/-! ## The arrays read back through the fold -/

theorem V0_main_arg0 (c : Dev nD) : V0 m c main_arg0 = m ((c : Thread nD τ).loc main_arg0) := rfl

theorem V1_main_arg1 (c : Dev nD) : V1 m c main_arg1 = m ((c : Thread nD τ).loc main_arg1) :=
  calc V1 m c main_arg1
    _ = W0 m c (Proc.devRef .tc main_arg1) := W1_of_ne m c main_arg1 (by decide)
    _ = m ((c : Thread nD τ).loc main_arg1) := rfl

/-- The first region's first output reaches the third region as the first region left it. -/
theorem V3_main_v0_0 (c : Dev nD) : V3 m c main_v0_0 = (Reg0.dat (F := Ideal) (V0 m) c).arrAt 1 cfg0.N :=
  calc V3 m c main_v0_0
    _ = W2 m c (Proc.devRef .tc main_v0_0) := W3_of_ne m c main_v0_0 (by decide)
    _ = W1 m c (Proc.devRef .tc main_v0_0) := W2_of_ne m c main_v0_0 (by decide)
    _ = (Reg0.dat (F := Ideal) (V0 m) c).arrAt 1 cfg0.N := W1_arr m c 1
theorem V3_main_v0_1 (c : Dev nD) : V3 m c main_v0_1 = (Reg0.dat (F := Ideal) (V0 m) c).arrAt 2 cfg0.N :=
  calc V3 m c main_v0_1
    _ = W2 m c (Proc.devRef .tc main_v0_1) := W3_of_ne m c main_v0_1 (by decide)
    _ = W1 m c (Proc.devRef .tc main_v0_1) := W2_of_ne m c main_v0_1 (by decide)
    _ = (Reg0.dat (F := Ideal) (V0 m) c).arrAt 2 cfg0.N := W1_arr m c 2
/-- The second region's first output reaches the third region as the second region left it. -/
theorem V3_main_v1_0 (c : Dev nD) : V3 m c main_v1_0 = (Reg1.dat (V1 m) c).arrAt 1 cfg1.N :=
  calc V3 m c main_v1_0
    _ = W2 m c (Proc.devRef .tc main_v1_0) := W3_of_ne m c main_v1_0 (by decide)
    _ = (Reg1.dat (V1 m) c).arrAt 1 cfg1.N := W2_arr m c 1
/-- The transpose's result: the second region's second output, transposed. -/
theorem V3_main_v2 (c : Dev nD) : V3 m c main_v2
    = transpose S1x10000 [1, 0] ((Reg1.dat (V1 m) c).arrAt 2 cfg1.N) transposes_S10000x1_S1x10000_1_0 := by
  show StableHlo.after hostOps2 (W2 m c) (Proc.devRef .tc main_v2) = _
  after_results
  exact congrArg (fun x => transpose S1x10000 [1, 0] x transposes_S10000x1_S1x10000_1_0) (W2_arr m c 2)

/-- The first argument ends as launched: the first region only reads it, nothing else names it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) :=
        (W1_arr m c 0).trans (((Reg0.dat (F := Ideal) (V0 m) c).arrAt_in 0 rfl _).trans (Reg0.A_eq (V0 m) c 0))
    _ = m ((c : Thread nD τ).loc main_arg0) := rfl
/-- The second argument ends as launched: the second region only reads it, nothing else names it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) :=
        (W2_arr m c 0).trans (((Reg1.dat (V1 m) c).arrAt_in 0 rfl _).trans (Reg1.A_eq (V1 m) c 0))
    _ = W0 m c (Proc.devRef .tc main_arg1) := W1_of_ne m c main_arg1 (by decide)
    _ = m ((c : Thread nD τ).loc main_arg1) := rfl
/-- The result array ends at what the third region's write-backs fold to. -/
theorem W4_main_v3 (c : Dev nD) : W4 m c (Proc.devRef .tc main_v3) = (Reg2.dat (V3 m) c).arrAt 4 cfg2.N :=
  W4_arr m c 4

/-! ## The proof data family and the thread state -/

/-- The prefetched tables' admissible contents: no pipeline has a table. -/
abbrev adm : (p : Fin 3) → (pcfgs (F := Ideal) p).Adm := fun p => (cfgs p).toPCfg_adm
/-- Every pipeline's proof data, each at its region's entry contents. -/
def pdats : (p : Fin 3) → (c : Dev nD) → Dat τ (Elt Ideal) Unit ℕ (UR sig nD τ) ℕ (Pipeline.pin (pcfgs (F := Ideal)) adm p) c
  | ⟨0, _⟩ => fun c => Reg0.dat (F := Ideal) (V0 m) c
  | ⟨1, _⟩ => fun c => Reg1.dat (V1 m) c
  | ⟨2, _⟩ => fun c => Reg2.dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what the core owes: every unscoped buffer at the last boundary's contents, the
    generator register at some state. -/
abbrev Tₙ (c : Dev nD) : sProp 𝕄 := iprop(StableHlo.held (c : Thread nD τ) (Pipeline.ucRefs τ sig) (W4 m c) ∗ ∃ r, prngReg c r)

/-! ## The regions as segments

Each region is entered from every unscoped buffer at its entry contents: its arrays are split out of them and put
back at the exit contents; the generator register goes into the region's invariant and comes back; nothing is owed;
the kernels have no semaphore of their own. -/

set_option backward.isDefEq.respectTransparency.types false in
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := Reg1.body_obligation (V1 m) c
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := Ideal)) adm (pdats m) () defs₀ 𝒱₀ L lv 2 where
  win := launch2.win.to₀
  block_pos := launch2.block_pos
  stage_whole := launch2.stage_whole
  K := PEmpty
  osem k := k.elim
  ho := Pipeline.OwnSemFacts.none _
  hbody c := Reg2.body_obligation (V3 m) c
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := Ideal)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := Ideal)) adm (pdats m) () defs₀ 𝒱₀ L lv) :=
  [ .region (reg0 m),
    .region (reg1 m),
    .host (hseg hostOps2 hostOps2_sub hostOps2_fresh (W2 m)),
    .region (reg2 m) ]
/-- @main is the run of the segments. -/
theorem main_run (c : Dev nD) : main (F := Ideal) c = Pipeline.Seg.run (segs m) := (main_chain c).trans (by chain_rfl)

set_option backward.isDefEq.respectTransparency.types false in
/-- The run: from any memory with zero counters, every weakly fair execution of @main on the TensorCores terminates,
    nothing faulting, and every final state holds every unscoped buffer at the last boundary's contents. -/
theorem run_all : θ_run defs (onTc (τ := τ) (main (F := Ideal))) ⟨m, fun _ => 0, ρ⟩ (fun r => ∀ c : Dev nD,
      ∀ b ∈ Pipeline.ucRefs τ sig, r.2.mem ((c : Thread nD τ).1, b) = W4 m c b) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c b hb => h c b hb)

end Cert.KernelIdeal.Run

end
-- ==== Proof.KI.Val0.lean ====
/-
  The first region's two result arrays, whole, at the ideal values.

  The region runs the row-scaling kernel over `x` (4096 rows) in two blocks of 2048 rows that tile the array. At point
  `t` the body leaves, in the scaled-rows buffer, the scaled rows of block `t` of `x`, and in the squared-lengths
  buffer their squared lengths; the write-back moves each buffer whole into block `t` of its array. A row of a block is
  a row of `x`: element (r, d) of block `t` sits at (2048 · t + r, d). So what point `t` writes back is block `t`
  of one function of `x`, the scaled rows (resp. the squared lengths) of every row of `x`; every index of either
  array lies in the block of the point `row / 2048`; hence each array ends holding that function.
-/
import proofs.«173794_j18451179503909_2_alg».proof.Proof.KI.Dat0
import proofs.«173794_j18451179503909_2_alg».proof.Proof.PayIdeal
import proofs.«173794_j18451179503909_2_alg».proof.Proof.Spec
import Idealize.ShloMosaic.Lib.Pipeline.Value
import Idealize.ShloMosaic.Lib.ValueIdx

set_option maxRecDepth 16384

noncomputable section

namespace Cert.KernelIdeal.Reg0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The scaled row and its squared length depend on that row alone -/

/-- Two arrays that agree on a row have the same scaled row there. -/
theorem nrm_of_row_eq {R R' : Type} (v : R → Fin 512 → EReal) (v' : R' → Fin 512 → EReal) (r : R) (r' : R')
    (h : ∀ k, v r k = v' r' k) (d d' : Fin 512) (hd : d = d') : Cert.Dist.nrm v r d = Cert.Dist.nrm v' r' d' := by
  subst hd
  unfold Cert.Dist.nrm Cert.Dist.rs Cert.Dist.ssq
  simp only [h]

/-- … and the same squared length of it. -/
theorem nsq_of_row_eq {R R' : Type} (v : R → Fin 512 → EReal) (v' : R' → Fin 512 → EReal) (r : R) (r' : R')
    (h : ∀ k, v r k = v' r' k) : Cert.Dist.nsq v r = Cert.Dist.nsq v' r' := by
  unfold Cert.Dist.nsq
  exact Finset.sum_congr rfl fun d _ => by rw [nrm_of_row_eq v v' r r' h d d rfl]

/-! ## The payloads at any index of their buffers -/

/-- The scaled-rows payload at an index `y` of the 2048 × 512 buffer. -/
theorem pay2_at (x0 : Vec Ideal S2048x512 .f32) (y : S2048x512.Idx) :
    k0_pay2 (F := Ideal) x0 y = Cert.Dist.nrm (Cert.Dist.rows x0) (y 0) (y 1) :=
  (congrArg (k0_pay2 (F := Ideal) x0) (eq_ix2 y)).trans (PayValue.k0_pay2_apply x0 (y 0) (y 1))

/-- The squared-lengths payload at an index `y` of the 2048 × 1 buffer. -/
theorem pay3_at (x0 : Vec Ideal S2048x512 .f32) (y : S2048x1.Idx) :
    k0_pay3 (F := Ideal) x0 y = Cert.Dist.nsq (Cert.Dist.rows x0) (y 0) :=
  (congrArg (k0_pay3 (F := Ideal) x0) (eq_ix2 y)).trans (PayValue.k0_pay3_apply x0 (y 0) (y 1))

/-! ## The index maps, and a block's place in its array -/

theorem hz00 : (![0, 0] : Fin 2 → Nat) = fun _ => 0 := funext fun a => by fin_cases a <;> rfl

/-- The printed index maps, decided over the grid: at point `t` every window is at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `r` of the input block at point `t` is row `2048 · t + r` of `x`. -/
theorem iblk_row (c : Dev nD) (t : Fin cfg0.N) (r : Fin 2048) (r' : Fin 4096) (hr : r'.val = t.val * 2048 + r.val) (k : Fin 512) :
    Cert.Dist.rows (iblk (F := Ideal) V c 0 t) r k = Cert.Dist.rows (V c main_arg0) r' k := by
  obtain ⟨e0, e1, -, -, -, -⟩ := idx_facts t
  show V c main_arg0 (((cfg0.win 0).blk t).view.emb (ix2 r k)) = V c main_arg0 (ix2 r' k)
  refine congrArg (V c main_arg0) (funext fun a => Fin.ext ?_)
  match a with
  | ⟨0, _⟩ => show win0_0.index t (0 : Fin 2) * 2048 + 1 * r.val = r'.val; omega
  | ⟨1, _⟩ => show win0_0.index t (1 : Fin 2) * 512 + 1 * k.val = k.val; omega

/-! ## The scaled-rows array -/

/-- What point `t` writes back is block `t` of the scaled rows of `x`. -/
theorem flushed1_eq (c : Dev nD) (t : Fin cfg0.N) :
    (dat (F := Ideal) V c).flushed 1 t = ((cfg0.win 1).blk t).view.read (Elt Ideal)
      (fun i => Cert.Dist.nrm (Cert.Dist.rows (V c main_arg0)) (i 0) (i 1)) := by
  show (cfg0.win 1).cut (grid0.coords t) ((dat (F := Ideal) V c).after 1 t) = _
  rw [after_1]
  unfold Body.out0_1
  rw [View.canon_unit_zero hz00]
  simp only [View.ld_unit_zero (S := S2048x512) hz00]
  obtain ⟨-, -, e2, e3, -, -⟩ := idx_facts t
  funext j
  have hj0 : (j 0).val < 2048 := (j 0).isLt
  have hj1 : (j 1).val < 512 := (j 1).isLt
  refine (pay2_at (iblk (F := Ideal) V c 0 t) ((cfg0.win 1).xinj (grid0.coords t) j)).trans ?_
  show Cert.Dist.nrm (Cert.Dist.rows (iblk (F := Ideal) V c 0 t)) (⟨(j 0).val, hj0⟩ : Fin 2048) (⟨(j 1).val, hj1⟩ : Fin 512)
    = Cert.Dist.nrm (Cert.Dist.rows (V c main_arg0)) ((((cfg0.win 1).blk t).view.emb j) 0) ((((cfg0.win 1).blk t).view.emb j) 1)
  refine nrm_of_row_eq _ _ _ _ (fun k => iblk_row V c t _ _ ?_ k) _ _ (Fin.ext ?_)
  · show win0_1.index t (0 : Fin 2) * 2048 + 1 * (j 0).val = t.val * 2048 + (j 0).val; omega
  · show (j 1).val = win0_1.index t (1 : Fin 2) * 512 + 1 * (j 1).val; omega

/-- An index of the array is in point `t`'s block iff each coordinate is in the block's range on its axis. -/
theorem mem_blk1 (t : Fin cfg0.N) (i : S4096x512.Idx) :
    i ∈ ((cfg0.win 1).blk t).view.set ↔ ∀ a : Fin 2, win0_1.index t a * S2048x512.size a ≤ (i a).val
      ∧ (i a).val < win0_1.index t a * S2048x512.size a + S2048x512.size a := by
  show i ∈ ((View.whole main_v0_0).slice (win0_1.rect t)).set ↔ _
  rw [View.set_slice_whole, Rect.mem_set_unit]
  exact Iff.rfl

/-- Every index of the array is in the block of the point `row / 2048`. -/
theorem cover1 (i : S4096x512.Idx) :
    ∃ t : Fin cfg0.N, (cfg0.win 1).flush t = true ∧ i ∈ ((cfg0.win 1).blk t).view.set := by
  have hi0 : (i 0).val < 4096 := (i 0).isLt
  have hi1 : (i 1).val < 512 := (i 1).isLt
  obtain ⟨t, ht⟩ : ∃ t : Fin cfg0.N, t.val = (i 0).val / 2048 := ⟨⟨(i 0).val / 2048, by show _ < 2; omega⟩, rfl⟩
  obtain ⟨-, -, e2, e3, -, -⟩ := idx_facts t
  refine ⟨t, flush0_1 t, ?_⟩
  rw [mem_blk1]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 512 ≤ (i 1).val ∧ (i 1).val < win0_1.index t (1 : Fin 2) * 512 + 512; omega

/-- THE SCALED-ROWS ARRAY after the region: the scaled rows of `x`. -/
theorem arr_1 (c : Dev nD) :
    (dat (F := Ideal) V c).arrAt 1 cfg0.N = fun i => Cert.Dist.nrm (Cert.Dist.rows (V c main_arg0)) (i 0) (i 1) :=
  (dat (F := Ideal) V c).arrAt_eq_of_cover 1 _ (fun t _ => flushed1_eq V c t) cover1

/-! ## The squared-lengths array -/

/-- What point `t` writes back is block `t` of the squared lengths of the scaled rows of `x`. -/
theorem flushed2_eq (c : Dev nD) (t : Fin cfg0.N) :
    (dat (F := Ideal) V c).flushed 2 t = ((cfg0.win 2).blk t).view.read (Elt Ideal)
      (fun i => Cert.Dist.nsq (Cert.Dist.rows (V c main_arg0)) (i 0)) := by
  show (cfg0.win 2).cut (grid0.coords t) ((dat (F := Ideal) V c).after 2 t) = _
  rw [after_2]
  unfold Body.out0_2
  rw [View.canon_unit_zero hz00]
  simp only [View.ld_unit_zero (S := S2048x512) hz00]
  obtain ⟨-, -, -, -, e4, e5⟩ := idx_facts t
  funext j
  have hj0 : (j 0).val < 2048 := (j 0).isLt
  refine (pay3_at (iblk (F := Ideal) V c 0 t) ((cfg0.win 2).xinj (grid0.coords t) j)).trans ?_
  show Cert.Dist.nsq (Cert.Dist.rows (iblk (F := Ideal) V c 0 t)) (⟨(j 0).val, hj0⟩ : Fin 2048)
    = Cert.Dist.nsq (Cert.Dist.rows (V c main_arg0)) ((((cfg0.win 2).blk t).view.emb j) 0)
  refine nsq_of_row_eq _ _ _ _ (fun k => iblk_row V c t _ _ ?_ k)
  show win0_2.index t (0 : Fin 2) * 2048 + 1 * (j 0).val = t.val * 2048 + (j 0).val; omega

/-- An index of the array is in point `t`'s block iff each coordinate is in the block's range on its axis. -/
theorem mem_blk2 (t : Fin cfg0.N) (i : S4096x1.Idx) :
    i ∈ ((cfg0.win 2).blk t).view.set ↔ ∀ a : Fin 2, win0_2.index t a * S2048x1.size a ≤ (i a).val
      ∧ (i a).val < win0_2.index t a * S2048x1.size a + S2048x1.size a := by
  show i ∈ ((View.whole main_v0_1).slice (win0_2.rect t)).set ↔ _
  rw [View.set_slice_whole, Rect.mem_set_unit]
  exact Iff.rfl

/-- Every index of the array is in the block of the point `row / 2048`. -/
theorem cover2 (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, ht⟩ : ∃ t : Fin cfg0.N, t.val = (i 0).val / 2048 := ⟨⟨(i 0).val / 2048, by show _ < 2; omega⟩, rfl⟩
  obtain ⟨-, -, -, -, e4, e5⟩ := idx_facts t
  refine ⟨t, flush0_2 t, ?_⟩
  rw [mem_blk2]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1 ≤ (i 1).val ∧ (i 1).val < win0_2.index t (1 : Fin 2) * 1 + 1; omega

/-- THE SQUARED-LENGTHS ARRAY after the region: the squared lengths of the scaled rows of `x`. -/
theorem arr_2 (c : Dev nD) :
    (dat (F := Ideal) V c).arrAt 2 cfg0.N = fun i => Cert.Dist.nsq (Cert.Dist.rows (V c main_arg0)) (i 0) :=
  (dat (F := Ideal) V c).arrAt_eq_of_cover 2 _ (fun t _ => flushed2_eq V c t) cover2

end Cert.KernelIdeal.Reg0

end
-- ==== Proof.KI.Val1.lean ====
/-
  The second region's two result arrays, whole, at the ideal values.

  The region runs the row-scaling kernel over `p` (10000 rows) in four blocks of 2560 rows; the last block overhangs the
  array by 240 rows. At point `t` the fetch fills the first `min 2560 (10000 − 2560 · t)` rows of the input's buffer
  with block `t` of `p`, the body leaves in the two output buffers the scaled rows and squared lengths of the whole
  buffer, and the write-back moves only the rows inside the array. Each row of the kernel's result depends on that row
  of its input alone, and a row that is moved is a row the fetch filled: element (r, d) of the moved part sits at
  (2560 · t + r, d) of the array. So what point `t` writes back is block `t`, cut at the array's end, of one function
  of `p`, the scaled rows (resp. the squared lengths) of every row of `p`; every index of either array lies in the cut
  block of the point `row / 2560`; hence each array ends holding that function.
-/
import proofs.«173794_j18451179503909_2_alg».proof.Proof.KI.Dat1
import proofs.«173794_j18451179503909_2_alg».proof.Proof.PayIdeal
import proofs.«173794_j18451179503909_2_alg».proof.Proof.Spec
import Idealize.ShloMosaic.Lib.Pipeline.Value
import Idealize.ShloMosaic.Lib.ValueIdx

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The scaled row and its squared length depend on that row alone -/

/-- Two arrays that agree on a row have the same scaled row there. -/
theorem nrm_of_row_eq {R R' : Type} (v : R → Fin 512 → EReal) (v' : R' → Fin 512 → EReal) (r : R) (r' : R')
    (h : ∀ k, v r k = v' r' k) (d d' : Fin 512) (hd : d = d') : Cert.Dist.nrm v r d = Cert.Dist.nrm v' r' d' := by
  subst hd
  unfold Cert.Dist.nrm Cert.Dist.rs Cert.Dist.ssq
  simp only [h]

/-- … and the same squared length of it. -/
theorem nsq_of_row_eq {R R' : Type} (v : R → Fin 512 → EReal) (v' : R' → Fin 512 → EReal) (r : R) (r' : R')
    (h : ∀ k, v r k = v' r' k) : Cert.Dist.nsq v r = Cert.Dist.nsq v' r' := by
  unfold Cert.Dist.nsq
  exact Finset.sum_congr rfl fun d _ => by rw [nrm_of_row_eq v v' r r' h d d rfl]

/-! ## The payloads at any index of their buffers -/

/-- The scaled-rows payload at an index `y` of the 2560 × 512 buffer. -/
theorem pay2_at (x0 : Vec Ideal S2560x512 .f32) (y : S2560x512.Idx) :
    k1_pay2 (F := Ideal) x0 y = Cert.Dist.nrm (Cert.Dist.rows x0) (y 0) (y 1) :=
  (congrArg (k1_pay2 (F := Ideal) x0) (eq_ix2 y)).trans (PayValue.k1_pay2_apply x0 (y 0) (y 1))

/-- The squared-lengths payload at an index `y` of the 2560 × 1 buffer. -/
theorem pay3_at (x0 : Vec Ideal S2560x512 .f32) (y : S2560x1.Idx) :
    k1_pay3 (F := Ideal) x0 y = Cert.Dist.nsq (Cert.Dist.rows x0) (y 0) :=
  (congrArg (k1_pay3 (F := Ideal) x0) (eq_ix2 y)).trans (PayValue.k1_pay3_apply x0 (y 0) (y 1))

/-! ## The index maps and the cuts, and a block's place in its array -/

theorem hz00 : (![0, 0] : Fin 2 → Nat) = fun _ => 0 := funext fun a => by fin_cases a <;> rfl

/-- The printed index maps and cuts, decided over the grid: at point `t` every window is at block row `t`, block column
    0, and its transfer moves the block's first `min 2560 (10000 − 2560 · t)` rows, whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_0.xsize (grid1.coords t) (0 : Fin 2) = min 2560 (10000 - t.val * 2560) ∧ win1_0.xsize (grid1.coords t) (1 : Fin 2) = 512
    ∧ win1_1.xsize (grid1.coords t) (0 : Fin 2) = min 2560 (10000 - t.val * 2560) ∧ win1_1.xsize (grid1.coords t) (1 : Fin 2) = 512
    ∧ win1_2.xsize (grid1.coords t) (0 : Fin 2) = min 2560 (10000 - t.val * 2560) ∧ win1_2.xsize (grid1.coords t) (1 : Fin 2) = 1 :=
  (by decide +kernel : ∀ t : Fin grid1.N, _)

/-- A row `r` of the input's buffer that the fetch at point `t` fills is row `2560 · t + r` of `p`. -/
theorem xin_row (c : Dev nD) (t : Fin cfg1.N) (r : Fin 2560) (hr : r.val < min 2560 (10000 - t.val * 2560)) (r' : Fin 10000)
    (hr' : r'.val = t.val * 2560 + r.val) (k : Fin 512) :
    Cert.Dist.rows (xin V c t) r k = Cert.Dist.rows (V c main_arg1) r' k := by
  obtain ⟨e0, e1, -, -, -, -, x0, x1, -, -, -, -⟩ := idx_facts t
  have h0 : r.val < win1_0.xsize (grid1.coords t) (0 : Fin 2) := by rw [x0]; exact hr
  have h1 : k.val < win1_0.xsize (grid1.coords t) (1 : Fin 2) := by rw [x1]; exact k.isLt
  let j' : (win1_0.xblock (grid1.coords t)).Idx := fun a => match a with | ⟨0, _⟩ => ⟨r.val, h0⟩ | ⟨1, _⟩ => ⟨k.val, h1⟩
  have e : (ix2 r k : S2560x512.Idx) = win1_0.xinj (grid1.coords t) j' :=
    funext fun a => by match a with | ⟨0, _⟩ => rfl | ⟨1, _⟩ => rfl
  show win1_0.fill (grid1.coords t) _ (iblk V c 0 t) (ix2 r k) = _
  rw [e, Window.fill_xinj]
  show V c main_arg1 (((cfg1.win 0).blk t).view.emb j') = V c main_arg1 (ix2 r' k)
  refine congrArg (V c main_arg1) (funext fun a => Fin.ext ?_)
  match a with
  | ⟨0, _⟩ => show win1_0.index t (0 : Fin 2) * 2560 + 1 * r.val = r'.val; omega
  | ⟨1, _⟩ => show win1_0.index t (1 : Fin 2) * 512 + 1 * k.val = k.val; omega

/-! ## The scaled-rows array -/

/-- What point `t` writes back is block `t`, cut at the array's end, of the scaled rows of `p`. -/
theorem flushed1_eq (c : Dev nD) (t : Fin cfg1.N) :
    (dat V c).flushed 1 t = ((cfg1.win 1).blk t).view.read (Elt Ideal)
      (fun i => Cert.Dist.nrm (Cert.Dist.rows (V c main_arg1)) (i 0) (i 1)) := by
  show (cfg1.win 1).cut (grid1.coords t) ((dat V c).after 1 t) = _
  rw [after_1]
  unfold Body.out1_1
  rw [View.canon_unit_zero hz00]
  simp only [View.ld_unit_zero (S := S2560x512) hz00]
  obtain ⟨-, -, e2, e3, -, -, -, -, x2, x3, -, -⟩ := idx_facts t
  funext j
  have hj0 : (j 0).val < win1_1.xsize (grid1.coords t) (0 : Fin 2) := (j 0).isLt
  have hj1 : (j 1).val < win1_1.xsize (grid1.coords t) (1 : Fin 2) := (j 1).isLt
  rw [x2] at hj0; rw [x3] at hj1
  have hj0' : (j 0).val < 2560 := by omega
  refine (pay2_at (xin V c t) ((cfg1.win 1).xinj (grid1.coords t) j)).trans ?_
  show Cert.Dist.nrm (Cert.Dist.rows (xin V c t)) (⟨(j 0).val, hj0'⟩ : Fin 2560) (⟨(j 1).val, hj1⟩ : Fin 512)
    = Cert.Dist.nrm (Cert.Dist.rows (V c main_arg1)) ((((cfg1.win 1).blk t).view.emb j) 0) ((((cfg1.win 1).blk t).view.emb j) 1)
  refine nrm_of_row_eq _ _ _ _ (fun k => xin_row V c t _ hj0 _ ?_ k) _ _ (Fin.ext ?_)
  · show win1_1.index t (0 : Fin 2) * 2560 + 1 * (j 0).val = t.val * 2560 + (j 0).val; omega
  · show (j 1).val = win1_1.index t (1 : Fin 2) * 512 + 1 * (j 1).val; omega

/-- An index of the array is in point `t`'s cut block iff each coordinate is in the block's range inside the array. -/
theorem mem_blk1 (t : Fin cfg1.N) (i : S10000x512.Idx) :
    i ∈ ((cfg1.win 1).blk t).view.set ↔ ∀ a : Fin 2, win1_1.index t a * S2560x512.size a ≤ (i a).val
      ∧ (i a).val < win1_1.index t a * S2560x512.size a + win1_1.xsize (grid1.coords t) a := by
  show i ∈ ((View.whole main_v1_0).slice (win1_1.rect t)).set ↔ _
  rw [View.set_slice_whole, Rect.mem_set_unit]
  exact Iff.rfl

/-- Every index of the array is in the cut block of the point `row / 2560`. -/
theorem cover1 (i : S10000x512.Idx) :
    ∃ t : Fin cfg1.N, (cfg1.win 1).flush t = true ∧ i ∈ ((cfg1.win 1).blk t).view.set := by
  have hi0 : (i 0).val < 10000 := (i 0).isLt
  have hi1 : (i 1).val < 512 := (i 1).isLt
  obtain ⟨t, ht⟩ : ∃ t : Fin cfg1.N, t.val = (i 0).val / 2560 := ⟨⟨(i 0).val / 2560, by show _ < 4; omega⟩, rfl⟩
  obtain ⟨-, -, e2, e3, -, -, -, -, x2, x3, -, -⟩ := idx_facts t
  refine ⟨t, flush1_1 t, ?_⟩
  rw [mem_blk1]
  intro a
  match a with
  | ⟨0, _⟩ =>
    show win1_1.index t (0 : Fin 2) * 2560 ≤ (i 0).val ∧ (i 0).val < win1_1.index t (0 : Fin 2) * 2560 + win1_1.xsize (grid1.coords t) (0 : Fin 2)
    omega
  | ⟨1, _⟩ =>
    show win1_1.index t (1 : Fin 2) * 512 ≤ (i 1).val ∧ (i 1).val < win1_1.index t (1 : Fin 2) * 512 + win1_1.xsize (grid1.coords t) (1 : Fin 2)
    omega

/-- THE SCALED-ROWS ARRAY after the region: the scaled rows of `p`. -/
theorem arr_1 (c : Dev nD) :
    (dat V c).arrAt 1 cfg1.N = fun i => Cert.Dist.nrm (Cert.Dist.rows (V c main_arg1)) (i 0) (i 1) :=
  (dat V c).arrAt_eq_of_cover 1 _ (fun t _ => flushed1_eq V c t) cover1

/-! ## The squared-lengths array -/

/-- What point `t` writes back is block `t`, cut at the array's end, of the squared lengths of the scaled rows of `p`. -/
theorem flushed2_eq (c : Dev nD) (t : Fin cfg1.N) :
    (dat V c).flushed 2 t = ((cfg1.win 2).blk t).view.read (Elt Ideal)
      (fun i => Cert.Dist.nsq (Cert.Dist.rows (V c main_arg1)) (i 0)) := by
  show (cfg1.win 2).cut (grid1.coords t) ((dat V c).after 2 t) = _
  rw [after_2]
  unfold Body.out1_2
  rw [View.canon_unit_zero hz00]
  simp only [View.ld_unit_zero (S := S2560x512) hz00]
  obtain ⟨-, -, -, -, e4, e5, -, -, -, -, x4, x5⟩ := idx_facts t
  funext j
  have hj0 : (j 0).val < win1_2.xsize (grid1.coords t) (0 : Fin 2) := (j 0).isLt
  rw [x4] at hj0
  have hj0' : (j 0).val < 2560 := by omega
  refine (pay3_at (xin V c t) ((cfg1.win 2).xinj (grid1.coords t) j)).trans ?_
  show Cert.Dist.nsq (Cert.Dist.rows (xin V c t)) (⟨(j 0).val, hj0'⟩ : Fin 2560)
    = Cert.Dist.nsq (Cert.Dist.rows (V c main_arg1)) ((((cfg1.win 2).blk t).view.emb j) 0)
  refine nsq_of_row_eq _ _ _ _ (fun k => xin_row V c t _ hj0 _ ?_ k)
  show win1_2.index t (0 : Fin 2) * 2560 + 1 * (j 0).val = t.val * 2560 + (j 0).val; omega

/-- An index of the array is in point `t`'s cut block iff each coordinate is in the block's range inside the array. -/
theorem mem_blk2 (t : Fin cfg1.N) (i : S10000x1.Idx) :
    i ∈ ((cfg1.win 2).blk t).view.set ↔ ∀ a : Fin 2, win1_2.index t a * S2560x1.size a ≤ (i a).val
      ∧ (i a).val < win1_2.index t a * S2560x1.size a + win1_2.xsize (grid1.coords t) a := by
  show i ∈ ((View.whole main_v1_1).slice (win1_2.rect t)).set ↔ _
  rw [View.set_slice_whole, Rect.mem_set_unit]
  exact Iff.rfl

/-- Every index of the array is in the cut block of the point `row / 2560`. -/
theorem cover2 (i : S10000x1.Idx) :
    ∃ t : Fin cfg1.N, (cfg1.win 2).flush t = true ∧ i ∈ ((cfg1.win 2).blk t).view.set := by
  have hi0 : (i 0).val < 10000 := (i 0).isLt
  have hi1 : (i 1).val < 1 := (i 1).isLt
  obtain ⟨t, ht⟩ : ∃ t : Fin cfg1.N, t.val = (i 0).val / 2560 := ⟨⟨(i 0).val / 2560, by show _ < 4; omega⟩, rfl⟩
  obtain ⟨-, -, -, -, e4, e5, -, -, -, -, x4, x5⟩ := idx_facts t
  refine ⟨t, flush1_2 t, ?_⟩
  rw [mem_blk2]
  intro a
  match a with
  | ⟨0, _⟩ =>
    show win1_2.index t (0 : Fin 2) * 2560 ≤ (i 0).val ∧ (i 0).val < win1_2.index t (0 : Fin 2) * 2560 + win1_2.xsize (grid1.coords t) (0 : Fin 2)
    omega
  | ⟨1, _⟩ =>
    show win1_2.index t (1 : Fin 2) * 1 ≤ (i 1).val ∧ (i 1).val < win1_2.index t (1 : Fin 2) * 1 + win1_2.xsize (grid1.coords t) (1 : Fin 2)
    omega

/-- THE SQUARED-LENGTHS ARRAY after the region: the squared lengths of the scaled rows of `p`. -/
theorem arr_2 (c : Dev nD) :
    (dat V c).arrAt 2 cfg1.N = fun i => Cert.Dist.nsq (Cert.Dist.rows (V c main_arg1)) (i 0) :=
  (dat V c).arrAt_eq_of_cover 2 _ (fun t _ => flushed2_eq V c t) cover2

end Cert.KernelIdeal.Reg1

end
-- ==== Proof.KI.Val2.lean ====
/-
  The third region's result array, whole.

  The distance kernel runs over 4 column blocks (2560 columns each, the last holding the 2320 columns left of
  10000) by 8 row blocks (512 rows each). At the point whose block holds entry (b, c), the body leaves in the
  result's staging buffer, at the entry's place (r, k) inside the block, the value
  `(xsq[r,0] + psq[0,k]) − 2 · Σ_d x[r,d] · p[k,d]` of the four input blocks. Row `r` of `x`'s block is row `b` of
  its array and column `k` of `p`'s blocks, being inside the array, is row / column `c` of theirs (a block cut at
  the array's end is filled out with zeros only past the end). So every point writes back its block of one function
  of the four arrays, and since the blocks' parts inside the array cover it, the array ends holding that function.
-/
import proofs.«173794_j18451179503909_2_alg».proof.Proof.KI.Dat2
import proofs.«173794_j18451179503909_2_alg».proof.Proof.PayIdeal
import proofs.«173794_j18451179503909_2_alg».proof.Proof.Spec
import Idealize.ShloMosaic.Lib.Pipeline.Value
import Idealize.ShloMosaic.Lib.ValueIdx

set_option maxRecDepth 16384

noncomputable section

open scoped BigOperators

namespace Cert.KernelIdeal.Reg2

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

namespace Arr4

/-- The four arrays the region reads, as the region finds them: `x`'s scaled rows and their squared lengths (a
    column), `p`'s scaled rows and their squared lengths (a row). -/
abbrev xrow (c : Dev nD) : S4096x512.Idx → EReal := V c main_v0_0
abbrev xlen (c : Dev nD) : S4096x1.Idx → EReal := V c main_v0_1
abbrev prow (c : Dev nD) : S10000x512.Idx → EReal := V c main_v1_0
abbrev plen (c : Dev nD) : S1x10000.Idx → EReal := V c main_v2

end Arr4

open Arr4

/-- The function of the four arrays the result array ends holding: at (b, c) the two squared lengths' sum less
    twice the inner product of row `b` of `x`'s scaled rows and row `c` of `p`'s. -/
def res4 (c : Dev nD) : S4096x10000.Idx → EReal := fun i =>
  (xlen V c (ix2 (i 0) (0 : Fin 1)) + plen V c (ix2 (0 : Fin 1) (i 1)))
    - Cert.Dist.two * ∑ d : Fin 512, xrow V c (ix2 (i 0) d) * prow V c (ix2 (i 1) d)

theorem res4_apply (c : Dev nD) (i : S4096x10000.Idx) :
    res4 V c i = (xlen V c (ix2 (i 0) (0 : Fin 1)) + plen V c (ix2 (0 : Fin 1) (i 1)))
      - Cert.Dist.two * ∑ d : Fin 512, xrow V c (ix2 (i 0) d) * prow V c (ix2 (i 1) d) := rfl

namespace Arr4

theorem hz : (![0, 0] : Fin 2 → Nat) = fun _ => 0 := funext fun a => by fin_cases a <;> rfl

/-- One whole-buffer store of the payload of the four whole-buffer loads leaves the payload of the contents. -/
theorem out2_4_eq (x0 : Vec Ideal S512x512 .bf16) (x1 : Vec Ideal S512x1 .f32) (x2 : Vec Ideal S2560x512 .bf16)
    (x3 : Vec Ideal S1x2560 .f32) : Body.out2_4 x0 x1 x2 x3 = k2_pay1 x0 x2 x1 x3 := by
  unfold Body.out2_4
  rw [View.canon_unit_zero hz, View.ld_unit_zero hz, View.ld_unit_zero hz, View.ld_unit_zero hz, View.ld_unit_zero hz]

/-- The printed index maps, decided over the 32 points: the result's block is (t mod 8, t div 8); `x`'s two windows
    move with its rows, `p`'s two with its columns. -/
theorem idx_facts : ∀ t : Fin cfg2.N,
    win2_4.index t (0 : Fin 2) = t.val % 8 ∧ win2_4.index t (1 : Fin 2) = t.val / 8
    ∧ win2_0.index t (0 : Fin 2) = t.val % 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = t.val / 8 :=
  (by decide +kernel : ∀ t : Fin grid2.N, _)

/-- The cuts, decided over the 32 points: the last column block holds 2320 columns, every other 2560; `p`'s two
    windows are cut as the result's columns are; nothing else is cut. -/
theorem cut_facts : ∀ t : Fin cfg2.N,
    win2_4.xsize (grid2.coords t) (0 : Fin 2) = 512
    ∧ ((t.val / 8 = 3 ∧ win2_4.xsize (grid2.coords t) (1 : Fin 2) = 2320) ∨ (t.val / 8 < 3 ∧ win2_4.xsize (grid2.coords t) (1 : Fin 2) = 2560))
    ∧ win2_2.xsize (grid2.coords t) (0 : Fin 2) = win2_4.xsize (grid2.coords t) (1 : Fin 2)
    ∧ win2_2.xsize (grid2.coords t) (1 : Fin 2) = 512
    ∧ win2_3.xsize (grid2.coords t) (0 : Fin 2) = 1
    ∧ win2_3.xsize (grid2.coords t) (1 : Fin 2) = win2_4.xsize (grid2.coords t) (1 : Fin 2) :=
  (by decide +kernel : ∀ t : Fin grid2.N, _)

/-- An entry of a block inside the part a cut transfer moves is the entry of what filled that part. -/
theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

/-- What point `t` writes back is its block of `res4`. -/
theorem flushed_4 (c : Dev nD) (t : Fin cfg2.N) :
    (dat V c).flushed 4 t = ((cfg2.win 4).blk t).view.read (Elt Ideal) (res4 V c) := by
  show (cfg2.win 4).cut (grid2.coords t) ((dat V c).after 4 t) = _
  rw [after_4, out2_4_eq]
  obtain ⟨e40, e41, e00, e01, e10, e11, e20, e21, e30, e31⟩ := idx_facts t
  obtain ⟨c40, c41, c20, c21, c30, c31⟩ := cut_facts t
  have ht : t.val < 32 := Gen.N_2 ▸ t.isLt
  funext j
  have hj0 : (j 0).val < win2_4.xsize (grid2.coords t) (0 : Fin 2) := (j 0).isLt
  have hj1 : (j 1).val < win2_4.xsize (grid2.coords t) (1 : Fin 2) := (j 1).isLt
  -- the entry's place (r, k) in the block and (b, cc) in the array
  let r : Fin 512 := ⟨(j 0).val, by omega⟩
  let k : Fin 2560 := ⟨(j 1).val, by omega⟩
  let b : Fin 4096 := ⟨t.val % 8 * 512 + (j 0).val, by omega⟩
  let cc : Fin 10000 := ⟨t.val / 8 * 2560 + (j 1).val, by omega⟩
  have hx : (cfg2.win 4).xinj (grid2.coords t) j = ix2 r k := funext fun a => by
    match a with
    | ⟨0, _⟩ => exact Fin.ext rfl
    | ⟨1, _⟩ => exact Fin.ext rfl
  have hI : ((cfg2.win 4).blk t).view.emb j = ix2 b cc := funext fun a => Fin.ext (by
    match a with
    | ⟨0, _⟩ => show win2_4.index t (0 : Fin 2) * 512 + 1 * (j 0).val = t.val % 8 * 512 + (j 0).val; omega
    | ⟨1, _⟩ => show win2_4.index t (1 : Fin 2) * 2560 + 1 * (j 1).val = t.val / 8 * 2560 + (j 1).val; omega)
  show k2_pay1 (F := Ideal) (iblk V c 0 t) (pin V c t) (iblk V c 1 t) (qin V c t) ((cfg2.win 4).xinj (grid2.coords t) j)
    = res4 V c (((cfg2.win 4).blk t).view.emb j)
  rw [hx, hI, PayValue.k2_pay1_apply]
  -- the squared lengths of `x`'s rows: an uncut block, the row moves with the result's rows
  have h1 : iblk V c 1 t (ix2 r (0 : Fin 1)) = xlen V c (ix2 b (0 : Fin 1)) := by
    show V c main_v0_1 (((cfg2.win 1).blk t).view.emb (ix2 r (0 : Fin 1))) = _
    refine congrArg _ (funext fun a => Fin.ext ?_)
    match a with
    | ⟨0, _⟩ => show win2_1.index t (0 : Fin 2) * 512 + 1 * (j 0).val = t.val % 8 * 512 + (j 0).val; omega
    | ⟨1, _⟩ => show win2_1.index t (1 : Fin 2) * 1 + 1 * 0 = 0; omega
  -- `x`'s scaled rows likewise
  have h0 : ∀ d : Fin 512, iblk V c 0 t (ix2 r d) = xrow V c (ix2 b d) := fun d => by
    show V c main_v0_0 (((cfg2.win 0).blk t).view.emb (ix2 r d)) = _
    refine congrArg _ (funext fun a => Fin.ext ?_)
    match a with
    | ⟨0, _⟩ => show win2_0.index t (0 : Fin 2) * 512 + 1 * (j 0).val = t.val % 8 * 512 + (j 0).val; omega
    | ⟨1, _⟩ => show win2_0.index t (1 : Fin 2) * 512 + 1 * d.val = d.val; omega
  -- `p`'s scaled rows: row `k` of the block is inside the array, so it is a row the fetch filled
  have h2 : ∀ d : Fin 512, pin V c t (ix2 k d) = prow V c (ix2 cc d) := fun d => by
    have hin : ∀ a, ((ix2 k d : win2_2.block.Idx) a).val < win2_2.xsize (grid2.coords t) a := fun a => by
      match a with
      | ⟨0, _⟩ => show (j 1).val < win2_2.xsize (grid2.coords t) (0 : Fin 2); omega
      | ⟨1, _⟩ => show d.val < win2_2.xsize (grid2.coords t) (1 : Fin 2); have := d.isLt; omega
    unfold pin
    rw [fill_apply_of_lt win2_2 _ _ _ _ hin]
    show V c main_v1_0 (((cfg2.win 2).blk t).view.emb _) = _
    refine congrArg _ (funext fun a => Fin.ext ?_)
    match a with
    | ⟨0, _⟩ => show win2_2.index t (0 : Fin 2) * 2560 + 1 * (j 1).val = t.val / 8 * 2560 + (j 1).val; omega
    | ⟨1, _⟩ => show win2_2.index t (1 : Fin 2) * 512 + 1 * d.val = d.val; omega
  -- `p`'s squared lengths: column `k` likewise
  have h3 : qin V c t (ix2 (0 : Fin 1) k) = plen V c (ix2 (0 : Fin 1) cc) := by
    have hin : ∀ a, ((ix2 (0 : Fin 1) k : win2_3.block.Idx) a).val < win2_3.xsize (grid2.coords t) a := fun a => by
      match a with
      | ⟨0, _⟩ => show 0 < win2_3.xsize (grid2.coords t) (0 : Fin 2); omega
      | ⟨1, _⟩ => show (j 1).val < win2_3.xsize (grid2.coords t) (1 : Fin 2); omega
    unfold qin
    rw [fill_apply_of_lt win2_3 _ _ _ _ hin]
    show V c main_v2 (((cfg2.win 3).blk t).view.emb _) = _
    refine congrArg _ (funext fun a => Fin.ext ?_)
    match a with
    | ⟨0, _⟩ => show win2_3.index t (0 : Fin 2) * 1 + 1 * 0 = 0; omega
    | ⟨1, _⟩ => show win2_3.index t (1 : Fin 2) * 2560 + 1 * (j 1).val = t.val / 8 * 2560 + (j 1).val; omega
  rw [h1, h3, Finset.sum_congr rfl fun d _ => by rw [h0 d, h2 d]]
  rfl

/-- An index of the array is under point `t`'s block iff each coordinate is in the block's range inside the array. -/
theorem mem_blk (t : Fin cfg2.N) (i : S4096x10000.Idx) :
    i ∈ ((cfg2.win 4).blk t).view.set ↔ ∀ a : Fin 2, win2_4.index t a * S512x2560.size a ≤ (i a).val
      ∧ (i a).val < win2_4.index t a * S512x2560.size a + win2_4.xsize (grid2.coords t) a := by
  show i ∈ ((View.whole main_v3).slice (win2_4.rect t)).set ↔ _
  rw [View.set_slice_whole, Rect.mem_set_unit]
  exact Iff.rfl

/-- Entry (b, c) is under the block of the point 8 · (c div 2560) + b div 512: the row blocks hold 512 rows each, the
    column blocks 2560 columns each but the last, which holds the 2320 columns from 7680 on. -/
theorem cover_4 (i : S4096x10000.Idx) :
    ∃ t : Fin cfg2.N, (cfg2.win 4).flush t = true ∧ i ∈ ((cfg2.win 4).blk t).view.set := by
  have hi0 : (i 0).val < 4096 := (i 0).isLt
  have hi1 : (i 1).val < 10000 := (i 1).isLt
  have hN : (i 1).val / 2560 * 8 + (i 0).val / 512 < cfg2.N := by
    show _ < grid2.N; rw [Gen.N_2]; omega
  generalize hT : (⟨(i 1).val / 2560 * 8 + (i 0).val / 512, hN⟩ : Fin cfg2.N) = T
  have hTv : T.val = (i 1).val / 2560 * 8 + (i 0).val / 512 := by rw [← hT]
  obtain ⟨e40, e41, -⟩ := idx_facts T
  obtain ⟨c40, c41, -⟩ := cut_facts T
  refine ⟨T, flush2_4 T, ?_⟩
  rw [mem_blk]
  intro a
  match a with
  | ⟨0, _⟩ =>
    show win2_4.index T (0 : Fin 2) * 512 ≤ (i 0).val
      ∧ (i 0).val < win2_4.index T (0 : Fin 2) * 512 + win2_4.xsize (grid2.coords T) (0 : Fin 2)
    omega
  | ⟨1, _⟩ =>
    show win2_4.index T (1 : Fin 2) * 2560 ≤ (i 1).val
      ∧ (i 1).val < win2_4.index T (1 : Fin 2) * 2560 + win2_4.xsize (grid2.coords T) (1 : Fin 2)
    omega

end Arr4

/-- The result array after the region: `res4` of the four arrays the region reads. -/
theorem arr_4 (c : Dev nD) : (dat V c).arrAt 4 cfg2.N = res4 V c :=
  (dat V c).arrAt_eq_of_cover 4 (res4 V c) (fun t _ => Arr4.flushed_4 V c t) Arr4.cover_4

end Cert.KernelIdeal.Reg2

end
-- ==== Proof.KI.Final.lean ====
/-
  The idealized program's result is the specification.

  The result array ends at what the third region's write-backs fold to: at (b, c) the sum of entry \`b\` of \`x\`'s
  squared lengths and entry \`c\` of \`p\`'s, less twice the inner product of row \`b\` of \`x\`'s scaled rows and row \`c\`
  of \`p\`'s, all read from the arrays the third region is entered with. Those are what the first two regions left:
  \`x\`'s scaled rows and their squared lengths are the first region's two results from the first argument, \`p\`'s scaled
  rows the second region's first result from the second argument, and \`p\`'s squared lengths as a row the transpose of
  the second region's second result, whose entry (0, c) is that column's entry (c, 0). Each of the four is the
  specification's function of the argument's rows, so the result at (b, c) is the specification's squared distance of
  the scaled rows \`b\` of \`x\` and \`c\` of \`p\`.
-/
import proofs.«173794_j18451179503909_2_alg».proof.Proof.KI.Run
import proofs.«173794_j18451179503909_2_alg».proof.Proof.KI.Val0
import proofs.«173794_j18451179503909_2_alg».proof.Proof.KI.Val1
import proofs.«173794_j18451179503909_2_alg».proof.Proof.KI.Val2
import proofs.«173794_j18451179503909_2_alg».proof.Proof.Spec
import Idealize.ShloMosaic.Lib.Pipeline.Value
import Idealize.ShloMosaic.Lib.ValueIdx

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The result array ends holding the specification's function of the two arguments. -/
theorem final_v3 (m : (ℓ : Loc nD τ sig) → Buf (Elt Ideal) ℓ) (c : Dev nD) :
    W4 m c (Proc.devRef .tc main_v3) = Cert.Dist.G (m ((c : Thread nD τ).loc main_arg0)) (m ((c : Thread nD τ).loc main_arg1)) := by
  refine funext fun (i : S4096x10000.Idx) => ?_
  refine (congrFun ((W4_main_v3 m c).trans (Reg2.arr_4 (V3 m) c)) i).trans ?_
  rw [Reg2.res4_apply]
  -- the four arrays the third region reads, each as the specification's function of an argument's rows:
  -- \`x\`'s scaled rows and \`p\`'s,
  have ex : ∀ d : Fin 512, Reg2.Arr4.xrow (V3 m) c (ix2 (i 0) d)
      = Cert.Dist.nrm (Cert.Dist.rows (m ((c : Thread nD τ).loc main_arg0))) (i 0) d := fun d => by
    unfold Reg2.Arr4.xrow
    rw [V3_main_v0_0, Reg0.arr_1 (V0 m) c, V0_main_arg0]; rfl
  have ep : ∀ d : Fin 512, Reg2.Arr4.prow (V3 m) c (ix2 (i 1) d)
      = Cert.Dist.nrm (Cert.Dist.rows (m ((c : Thread nD τ).loc main_arg1))) (i 1) d := fun d => by
    unfold Reg2.Arr4.prow
    rw [V3_main_v1_0, Reg1.arr_1 (V1 m) c, V1_main_arg1]; rfl
  -- the squared length of \`x\`'s scaled row \`b\`,
  have eq : Reg2.Arr4.xlen (V3 m) c (ix2 (i 0) (0 : Fin 1))
      = Cert.Dist.nsq (Cert.Dist.rows (m ((c : Thread nD τ).loc main_arg0))) (i 0) := by
    unfold Reg2.Arr4.xlen
    rw [V3_main_v0_1, Reg0.arr_2 (V0 m) c, V0_main_arg0]; rfl
  -- and of \`p\`'s scaled row \`c\`: entry (0, c) of the transposed column is the column's entry (c, 0)
  have er : Reg2.Arr4.plen (V3 m) c (ix2 (0 : Fin 1) (i 1))
      = Cert.Dist.nsq (Cert.Dist.rows (m ((c : Thread nD τ).loc main_arg1))) (i 1) := by
    unfold Reg2.Arr4.plen
    rw [V3_main_v2]
    refine (transpose_apply (t := S1x10000) [1, 0] _ transposes_S10000x1_S1x10000_1_0 (ix2 (0 : Fin 1) (i 1))
      (ix2 (i 1) (0 : Fin 1)) fun b => ?_).trans ?_
    · match b with
      | ⟨0, _⟩ => rfl
      | ⟨1, _⟩ => rfl
    · rw [Reg1.arr_2 (V1 m) c, V1_main_arg1]; rfl
  rw [eq, er]
  simp only [ex, ep]
  rfl

end Cert.KernelIdeal.Run

end
-- ==== Proof.KB.Body0.lean ====
/-
  The row-scaling kernel's body on a 2048 × 512 block, as a Hoare triple at any float instance.

  The body loads its input staging buffer whole, computes, and stores each of its two output staging buffers whole;
  the loads of the output buffers it also makes are dead. So from the input's buffer at contents `x` and the
  outputs' at anything, the body runs to the end with the input's buffer unchanged and each output's buffer holding
  the body's arithmetic (the payload) of the input's contents: the scaled rows, and their squared lengths.
-/
import proofs.«173794_j18451179503909_2_alg».proof.Proof.Gen.Kernel.Skeleton
import Idealize.ShloMosaic.Lib.Pipeline.FrameBody
import Idealize.ShloMosaic.Lib.Pipeline.Kit
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The row-scaling kernel on a 2048 × 512 block -/

/-- The whole 2048 × 512 buffer and the whole 2048 × 1 buffer, as the rectangles the body's accesses name. -/
abbrev r0a : Rect S2048x512 := Rect.unit (s := S2048x512) ![0, 0] S2048x512.size inb_S2048x512_S2048x512_0_0
abbrev r0b : Rect S2048x1 := Rect.unit (s := S2048x1) ![0, 0] S2048x1.size inb_S2048x1_S2048x1_0_0

/-- What the body leaves in the scaled-rows buffer and in the squared-lengths buffer, from the input block `x0`. -/
def out0_1 (x0 : Vec F S2048x512 .f32) : Vec F S2048x512 .bf16 :=
  View.canon [⟨r0a, k0_pay2 (View.ld x0 r0a)⟩]
def out0_2 (x0 : Vec F S2048x512 .f32) : Vec F S2048x1 .f32 :=
  View.canon [⟨r0b, k0_pay3 (View.ld x0 r0a)⟩]

/-- One whole-buffer store covers the buffer. -/
theorem cover0_1 (p0 : Vec F S2048x512 .bf16) (y : S2048x512.Idx) :
    ∃ pc ∈ ([⟨r0a, p0⟩] : List (View.Piece (Elt F) S2048x512 .bf16)), y ∈ pc.1.set :=
  View.cover_of_tiled [⟨r0a, p0⟩] S2048x512.size (by rfl) y
theorem cover0_2 (p0 : Vec F S2048x1 .f32) (y : S2048x1.Idx) :
    ∃ pc ∈ ([⟨r0b, p0⟩] : List (View.Piece (Elt F) S2048x1 .f32)), y ∈ pc.1.set :=
  View.cover_of_tiled [⟨r0b, p0⟩] S2048x1.size (by rfl) y

set_option maxHeartbeats 1000000 in
/-- The body on whole staging memrefs: the input's at contents `x0`, the two outputs' at anything. -/
theorem sound_kernel0 (c : Dev nD) (E : Set ℕ) (i : grid0.Coords)
    (arg1 : Memref sig .tc .vmem S2048x512 .f32) (harg1 : arg1.IsWhole)
    (arg2 : Memref sig .tc .vmem S2048x512 .bf16) (harg2 : arg2.IsWhole)
    (arg3 : Memref sig .tc .vmem S2048x1 .f32) (harg3 : arg3.IsWhole)
    (x0 : Vec F S2048x512 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

end Cert.Kernel.Body

end
-- ==== Proof.KB.Dat0.lean ====
/-
  The first region: the row-scaling kernel over `x` (4096 rows in two blocks of 2048), at the contents `V` the
  region is entered with, at any float instance. The blocks tile the array, so after the body at point `t` the
  input's staging buffer holds block `t` of `x`, and the two outputs' buffers the body's arithmetic of that block.
-/
import proofs.«173794_j18451179503909_2_alg».proof.Proof.KB.Body0
import proofs.«173794_j18451179503909_2_alg».proof.Proof.Gen.Kernel.Launch
import proofs.«173794_j18451179503909_2_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the region finds them; after the body at point `t` the input's buffer at its block,
    the outputs' at the scaled rows and the squared lengths of that block; nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => Body.out0_1 (iblk V c 0 t)
    | ⟨2, _⟩ => Body.out0_2 (iblk V c 0 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = Body.out0_1 (iblk V c 0 t) := by dsimp only [dat]
theorem after_2 (c : Dev nD) (t : Fin cfg0.N) : (dat V c).after 2 t = Body.out0_2 (iblk V c 0 t) := by dsimp only [dat]

/-- The input is fetched at every point, and its blocks are whole, so when the body runs at point `t` the input's
    staging buffer holds block `t` of the array, whatever it held before the fetch. -/
theorem before_0 (c : Dev nD) (t : Fin cfg0.N) (d : (cfg0.win 0).block.Idx → Elt F (cfg0.win 0).elt) :
    (dat V c).before 0 t d = iblk V c 0 t := by
  rw [(dat V c).before_fetched 0 t (fetch0_0 t) d]
  unfold Dat.fetched Dat.blockOf iblk
  rw [A_eq]
  rfl

/-- The body at point `t`, with whatever else the core holds (`R₁`, `R₂`) carried along untouched: from the input's
    buffer at block `t` and the two outputs' buffers at any contents, to the input's buffer as it was and the outputs'
    at the scaled rows and at the squared lengths of that block. -/
theorem run_at (c : Dev nD) (t : Fin cfg0.N) (R₁ R₂ : sProp 𝕄) :
    iprop(R₁ ∗ R₂
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d)))
      ⊢ wp frame (wpE (defs₀ (F := F)) Variants.none c none) Set.univ (bodyAt0 t) (fun _ =>
          iprop(R₁ ∗ R₂
            ∗ owns (c : Thread nD τ) (st0_0 t) fullShare ((dat V c).after 0 t)
            ∗ owns (c : Thread nD τ) (st0_1 t) fullShare ((dat V c).after 1 t)
            ∗ owns (c : Thread nD τ) (st0_2 t) fullShare ((dat V c).after 2 t))) := by
  simp only [before_0]
  rw [after_0, after_1, after_2]
  unfold bodyAt0
  iintro ⟨HR₁, HR₂, ⟨%d0, Hin⟩, ⟨%d1, Hrows⟩, ⟨%d2, Hlen⟩⟩
  iapply (Body.sound_kernel0 c Set.univ (grid0.coords t) _ _ _ _ _ _ (iblk V c 0 t) _)
  isplitl [Hin]
  · iexact Hin
  isplitl [Hrows]
  · iexists _; iexact Hrows
  isplitl [Hlen]
  · iexists _; iexact Hlen
  iintro ⟨Hin, Hrows, Hlen⟩
  isplitl [HR₁]
  · iexact HR₁
  isplitl [HR₂]
  · iexact HR₂
  isplitl [Hin]
  · iexact Hin
  isplitl [Hrows]
  · iexact Hrows
  iexact Hlen

/-- The body obligation at every point: the invariant and what the core owes do not change from point to point
    and the body does not read them; the three windows' buffers go as `run_at` says. -/
theorem body_obligation (c : Dev nD) : BodyObligation (dat (F := F) V c) (defs₀ (F := F)) Variants.none () Set.univ := fun t => by
  rw [bigSep_W0, bigSep_W0]
  exact run_at V c t ((dat V c).Φ t.castSucc) ((dat V c).owesAt () t.castSucc)

end Cert.Kernel.Reg0

end
-- ==== Proof.KB.State.lean ====
/-
  The word-level program's frame: the state a core is in between two segments of @main.

  At the word level a lane sum is a function of its whole source vector about which nothing else is known, so what
  the second region leaves on the rows inside its array may depend on the unnamed rows a cut fetch leaves past the
  array's end: the contents the later segments start from cannot be named before the run. The frame needs none of
  them. Between two segments a core holds every unscoped buffer at SOME valuation that keeps the two arguments
  (and the first region's two results) at what they held when the first region ended; each later segment is entered
  from any such valuation and left at another.
-/
import proofs.«173794_j18451179503909_2_alg».proof.Proof.KB.Dat0
import proofs.«173794_j18451179503909_2_alg».proof.Proof.Gen.Kernel.Launch
import proofs.«173794_j18451179503909_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Kit
import Idealize.ShloMosaic.Lib.Tactic

set_option maxRecDepth 16384

noncomputable section

namespace Cert.Kernel.WordFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- No pipeline has a prefetched table. -/
abbrev adm : (p : Fin 3) → (pcfgs (F := F) p).Adm := fun p => (cfgs p).toPCfg_adm

/-- Core `c`'s buffers at launch, and read at the TensorCore's references. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the first region: its arrays at what its write-backs leave, every other buffer as launched. -/
def W1 (c : Dev nD) : Valuation τ sig (Elt F) :=
  Pipeline.withArrays spec0 c (W0 m c) fun w => (Reg0.dat (F := F) (V0 m) c).arrAt w cfg0.N

/-- The references whose contents every later segment keeps: the two arguments and the first region's two results. -/
abbrev kept : List (Ref sig .tc) := [main_arg0, main_arg1, main_v0_0, main_v0_1]

/-- A valuation that holds, at each kept reference, what the first region left there. -/
def Keeps (c : Dev nD) (V : Valuation τ sig (Elt F)) : Prop :=
  ∀ b ∈ (kept : List (Ref sig .tc)), V (Proc.devRef .tc b) = W1 m c (Proc.devRef .tc b)

/-- What rides beside the buffers: the generator register at some state, and nothing owed. -/
abbrev R (c : Dev nD) : sProp 𝕄 := iprop((∃ r, prngReg c r) ∗ ∃ W, owes (c : Thread nD τ) (0 : CellTallies nD τ sig Unit) W)

/-- The state between two segments: every unscoped buffer at some valuation that keeps the kept references. -/
def T (c : Dev nD) : sProp 𝕄 :=
  iprop(∃ V : Valuation τ sig (Elt F), ⌜Keeps m c V⌝ ∗ StableHlo.held (c : Thread nD τ) (Pipeline.ucRefs τ sig) V ∗ R c)

end Cert.Kernel.WordFrame

end
-- ==== Proof.KB.Body1.lean ====
/-
  The row-scaling kernel's body on a 2560 × 512 block, as a Hoare triple at any float instance.

  The body loads its input staging buffer whole, computes, and stores each of its two output staging buffers whole;
  the loads of the output buffers it also makes are dead. So from the input's buffer at contents `x` and the
  outputs' at anything, the body runs to the end with the input's buffer unchanged and each output's buffer holding
  the body's arithmetic (the payload) of the input's contents: the scaled rows, and their squared lengths.
-/
import proofs.«173794_j18451179503909_2_alg».proof.Proof.Gen.Kernel.Skeleton
import Idealize.ShloMosaic.Lib.Pipeline.FrameBody
import Idealize.ShloMosaic.Lib.Pipeline.Kit
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The row-scaling kernel on a 2560 × 512 block -/

/-- The whole 2560 × 512 buffer and the whole 2560 × 1 buffer, as the rectangles the body's accesses name. -/
abbrev r1a : Rect S2560x512 := Rect.unit (s := S2560x512) ![0, 0] S2560x512.size inb_S2560x512_S2560x512_0_0
abbrev r1b : Rect S2560x1 := Rect.unit (s := S2560x1) ![0, 0] S2560x1.size inb_S2560x1_S2560x1_0_0

/-- What the body leaves in the scaled-rows buffer and in the squared-lengths buffer, from the input block `x0`. -/
def out1_1 (x0 : Vec F S2560x512 .f32) : Vec F S2560x512 .bf16 :=
  View.canon [⟨r1a, k1_pay2 (View.ld x0 r1a)⟩]
def out1_2 (x0 : Vec F S2560x512 .f32) : Vec F S2560x1 .f32 :=
  View.canon [⟨r1b, k1_pay3 (View.ld x0 r1a)⟩]

/-- One whole-buffer store covers the buffer. -/
theorem cover1_1 (p0 : Vec F S2560x512 .bf16) (y : S2560x512.Idx) :
    ∃ pc ∈ ([⟨r1a, p0⟩] : List (View.Piece (Elt F) S2560x512 .bf16)), y ∈ pc.1.set :=
  View.cover_of_tiled [⟨r1a, p0⟩] S2560x512.size (by rfl) y
theorem cover1_2 (p0 : Vec F S2560x1 .f32) (y : S2560x1.Idx) :
    ∃ pc ∈ ([⟨r1b, p0⟩] : List (View.Piece (Elt F) S2560x1 .f32)), y ∈ pc.1.set :=
  View.cover_of_tiled [⟨r1b, p0⟩] S2560x1.size (by rfl) y

set_option maxHeartbeats 1000000 in
/-- The body on whole staging memrefs: the input's at contents `x0`, the two outputs' at anything. -/
theorem sound_kernel1 (c : Dev nD) (E : Set ℕ) (i : grid1.Coords)
    (arg1 : Memref sig .tc .vmem S2560x512 .f32) (harg1 : arg1.IsWhole)
    (arg2 : Memref sig .tc .vmem S2560x512 .bf16) (harg2 : arg2.IsWhole)
    (arg3 : Memref sig .tc .vmem S2560x1 .f32) (harg3 : arg3.IsWhole)
    (x0 : Vec F S2560x512 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out1_1 x0)
            ∗ owns (c : Thread nD τ) arg3 fullShare (out1_2 x0)) -∗ K ⟨⟩))
      ⊢ wp frame (wpE (defs₀ (F := F)) Variants.none c none) E (cc1__normalize_kernel i arg1 harg1 arg2 harg2 arg3 harg3) K := by
  simp only [cc1__normalize_kernel_eq_skeleton]; unfold cc1__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

end Cert.Kernel.Body

end
-- ==== Proof.KB.Step1.lean ====
/-
  The word-level program's frame: one step per later segment of @main, each from the state between segments to
  that state again, under any continuation. A region is entered at whatever valuation the state holds: its proof
  data are chosen then, with every window forgotten (the body is handed each staging buffer at contents nothing
  names and leaves it so), so its arrays end at contents nothing names either, the input arrays as they were.
-/
import proofs.«173794_j18451179503909_2_alg».proof.Proof.KB.State
import proofs.«173794_j18451179503909_2_alg».proof.Proof.KB.Body1
import proofs.«173794_j18451179503909_2_alg».proof.Proof.Gen.Kernel.Launch
import proofs.«173794_j18451179503909_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Kit
import Idealize.ShloMosaic.Lib.Tactic

set_option maxRecDepth 16384

noncomputable section

namespace Cert.Kernel.WordFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

local notation "𝔻" => Pipeline.defs (pcfgs (F := F)) (defs₀ (F := F))
local notation "𝕍" => Variants.lift 𝒱₀

/-! ## The host operation -/

/-- The transpose allocates no buffer, -/
theorem transpose_fresh : (hostOps2 : List (HloOp τ sig (Elt F))).Forall fun op => op.fresh = ∅ := by
  simp only [List.Forall]; repeat' constructor
/-- and it writes its result and nothing else. -/
theorem transpose_writes : (hostOps2 : List (HloOp τ sig (Elt F))).Forall fun op =>
    op.writes ⊆ (([main_v2] : List (Ref sig .tc)).map (Proc.devRef (τ := τ) .tc)).toFinset := by
  simp only [List.Forall, StableHlo.unary_writes, Finset.singleton_subset_iff, List.mem_toFinset]
  exact List.mem_map_of_mem (by decide)

/-- So a valuation that keeps the kept references still keeps them after the transpose. -/
theorem keeps_transpose (c : Dev nD) (V : Valuation τ sig (Elt F)) (h : Keeps m c V) :
    Keeps m c (StableHlo.after hostOps2 V) := fun b hb =>
  (StableHlo.after_of_writes_sub hostOps2 V transpose_writes
    ((by decide : ∀ b ∈ (kept : List (Ref sig .tc)), b ∉ ([main_v2] : List (Ref sig .tc))) b hb)).trans (h b hb)

/-! ## The second region, entered at any valuation -/

section AtValuation

variable (V : Valuation τ sig (Elt F))

/-- The valuation read at the TensorCore's references on core `c`. -/
abbrev atTc (c : Dev nD) : (b : Ref sig .tc) → Buf (Elt F) ((c : Thread nD τ).loc b) := fun b => V (Proc.devRef .tc b)

/-- Proof data of a pipeline entered at `V` that name nothing the body leaves: the arrays as `V` has them, the
    region's plain invariant, full shares, nothing owed. -/
def blank (cfg : Cfg sig Λ₀) (c : Dev nD) : Dat τ (Elt F) Unit ℕ (UR sig nD τ) ℕ cfg c where
  A w := atTc V c (Pipeline.arrRef cfg.spec w)
  after w t := Dat.unnamed w t
  Φ _ := Pipeline.ΦA cfg.spec c
  q _ := fullShare
  owed _ := 0

/-- Every pipeline's data, each with every window forgotten. -/
def rdats (p : Fin 3) (c : Dev nD) : RDat τ (Elt F) Unit ℕ (UR sig nD τ) ℕ (Pipeline.pin (pcfgs (F := F)) adm p) c :=
  (blank V (Pipeline.pin (pcfgs (F := F)) adm p) c).toRForget fun _ => true

/-- The body at any point on staging buffers at contents nothing names: it runs, and leaves them so; whatever else
    the core holds (`R₁`, `R₂`) is carried along. -/
theorem run_any (c : Dev nD) (t : Fin cfg1.N) (R₁ R₂ : sProp 𝕄) :
    iprop(R₁ ∗ R₂
        ∗ (∃ X, owns (c : Thread nD τ) (st1_0 t) fullShare X)
        ∗ (∃ X, owns (c : Thread nD τ) (st1_1 t) fullShare X)
        ∗ (∃ X, owns (c : Thread nD τ) (st1_2 t) fullShare X))
      ⊢ wp frame (wpE (defs₀ (F := F)) Variants.none c none) Set.univ (bodyAt1 t) (fun _ =>
          iprop(R₁ ∗ R₂
            ∗ (∃ X, owns (c : Thread nD τ) (st1_0 t) fullShare X)
            ∗ (∃ X, owns (c : Thread nD τ) (st1_1 t) fullShare X)
            ∗ (∃ X, owns (c : Thread nD τ) (st1_2 t) fullShare X))) := by
  unfold bodyAt1
  iintro ⟨HR₁, HR₂, ⟨%x, Hin⟩, Hrows, Hlen⟩
  iapply (Body.sound_kernel1 c Set.univ (grid1.coords t) _ _ _ _ _ _ x _)
  isplitl [Hin]
  · iexact Hin
  isplitl [Hrows]
  · iexact Hrows
  isplitl [Hlen]
  · iexact Hlen
  iintro ⟨Hin, Hrows, Hlen⟩
  isplitl [HR₁]
  · iexact HR₁
  isplitl [HR₂]
  · iexact HR₂
  isplitl [Hin]
  · iexists _; iexact Hin
  isplitl [Hrows]
  · iexists _; iexact Hrows
  iexists _; iexact Hlen

/-- The body obligation with every window forgotten. -/
theorem body_any (c : Dev nD) :
    BodyObligation (blank V cfg1 c) (defs₀ (F := F)) Variants.none () Set.univ (fun _ => true) := fun t => by
  simp only [bigSep_W1]
  exact run_any c t _ _

end AtValuation

/-- The arrays after the write-backs below `n`, opened: contents each array may then hold, and the arrays at them. -/
theorem arraysAt_open {cfg : Cfg sig Λ₀} {c : Dev nD} (rd : RDat τ (Elt F) Unit ℕ (UR sig nD τ) ℕ cfg c) (n : Nat) :
    (rd.arraysAt n : sProp 𝕄) ⊢ iprop(∃ Fs, ⌜∀ w, rd.ArrAt w n (Fs w)⌝ ∗ rd.arrays Fs) := by
  classical
  unfold RDat.arraysAt RDat.arrays
  iintro Ha
  ihave Ha' := (BI.bigSep_exists_pi Finset.univ (fun w G => iprop(⌜rd.ArrAt w n G⌝
      ∗ (cfg.win w).arr.view.loc (c : Thread nD τ) ↦[(cfg.win w).arr.view.set]{rd.share w} G))) $$ Ha
  icases Ha' with ⟨%Fs, Ha⟩
  ihave Ha2 := (BI.bigSep_pure_sep Finset.univ (fun w => rd.ArrAt w n (Fs w))
      (fun w => (cfg.win w).arr.view.loc (c : Thread nD τ) ↦[(cfg.win w).arr.view.set]{rd.share w} Fs w)) $$ Ha
  icases Ha2 with ⟨%hFs, Ha⟩
  iexists Fs
  isplitr
  · ipureintro; exact fun w => hFs w (Finset.mem_univ w)
  · iexact Ha

section Region

variable (V : Valuation τ sig (Elt F))

/-- The valuation a region leaves: its arrays at `Fs`, every other buffer as `V` has it. -/
abbrev leftBy (c : Dev nD) (Fs : (w : Fin cfg1.W) → Buf (Elt F) ((cfg1.win w).arr.view.loc (c : Thread nD τ))) :
    Valuation τ sig (Elt F) := Pipeline.withArrays spec1 c V Fs

/-- Contents the region's arrays may hold after every write-back leave the kept references as `V` has them: three
    of them are no array of this region, and the fourth is its input's array, which no write-back touches. -/
theorem kept_leftBy (c : Dev nD) (Fs : (w : Fin cfg1.W) → Buf (Elt F) ((cfg1.win w).arr.view.loc (c : Thread nD τ)))
    (hFs : ∀ w, (rdats V 1 c).ArrAt w cfg1.N (Fs w)) :
    ∀ b ∈ (kept : List (Ref sig .tc)), leftBy V c Fs (Proc.devRef .tc b) = V (Proc.devRef .tc b) := by
  intro b hb
  simp only [kept, List.mem_cons, List.mem_singleton, List.not_mem_nil, or_false] at hb
  rcases hb with rfl | rfl | rfl | rfl
  · exact Pipeline.withArrays_of_ne spec1 c V Fs main_arg0 (by decide)
  · have h0 := hFs 0
    rw [(rdats V 1 c).ArrAt_in 0 rfl] at h0
    exact (Pipeline.withArrays_arr spec1 launch1.win.arr_inj c V Fs 0).trans h0
  · exact Pipeline.withArrays_of_ne spec1 c V Fs main_v0_0 (by decide)
  · exact Pipeline.withArrays_of_ne spec1 c V Fs main_v0_1 (by decide)

set_option backward.isDefEq.respectTransparency.types false in
/-- The second region as a segment entered at `V`: its arrays split out of the unscoped buffers and put back at
    whatever the write-backs left; the generator register into the plain invariant and out; nothing owed; no
    semaphore of the kernel's own. It is left at some valuation that has the kept references as `V` has them. -/
def reg1 : Pipeline.RDat.RegionSeg (pcfgs (F := F)) adm (rdats V) () defs₀ 𝒱₀ L lv 1 where
  win := launch1.win.to₀
  block_pos := launch1.block_pos
  stage_whole := launch1.stage_whole
  K := PEmpty
  osem k := k.elim
  ho := Pipeline.OwnSemFacts.none _
  hbody c := (body_any V c).toRForget
  hwaits := Pipeline.RDat.hwaits_of_owed_zero _ _ _ _ L lv 1 fun _ _ => rfl
  pre c := iprop(StableHlo.held (c : Thread nD τ) (Pipeline.ucRefs τ sig) V ∗ R c)
  post c := iprop(∃ V' : Valuation τ sig (Elt F),
      ⌜∀ b ∈ (kept : List (Ref sig .tc)), V' (Proc.devRef .tc b) = V (Proc.devRef .tc b)⌝
        ∗ StableHlo.held (c : Thread nD τ) (Pipeline.ucRefs τ sig) V' ∗ R c)
  X c := iprop(∃ r, prngReg c r)
  Y c := iprop(∃ r, prngReg c r)
  Z c := Pipeline.unscopedRest (Ix := Unit) (Name := ℕ) (U := UR sig nD τ) (Lvl := ℕ) spec1 c (atTc V c)
  hentry c := by
    rw [Pipeline.ownSems0_none]
    have hsplit := Pipeline.RDat.arrays_of_unscopedBufs (p := 1) (pcfgs (F := F)) adm (rdats V) launch1.win launch1.arr_whole c
      ((rdats V 1 c).share_full fun _ => rfl) (atTc V c) fun _ => rfl
    rw [Pipeline.unscopedBufs_held] at hsplit
    iintro ⟨⟨Hub, Hp, HO⟩, -, -⟩
    ihave H := hsplit $$ Hub
    icases H with ⟨Ha, Hrest⟩
    imodintro
    isplitl [Ha]
    · iexact Ha
    isplitr
    · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr
      · ipureintro; exact fun _ _ => Or.inl trivial
      iexact HO
    isplitl [Hp]
    · iexact Hp
    iexact Hrest
  hin c := by
    rw [show (rdats V 1 c).Φ 0 = Pipeline.ΦA spec1 c from rfl]; unfold Pipeline.ΦA
    iintro ⟨Hp, -, Hr⟩
    isplitl [Hr]
    · iexact Hr
    iexact Hp
  hout c := by
    rw [Pipeline.ownSems0_none, show (rdats V 1 c).Φ (Fin.last _) = Pipeline.ΦA spec1 c from rfl]; unfold Pipeline.ΦA
    iintro ⟨Hr, Hp⟩
    isplitl [Hp]
    · iexact Hp
    isplitr
    · iempintro
    iexact Hr
  hexit c := by
    iintro ⟨Ha, HO, HY, Hrest⟩
    ihave Ha' := (arraysAt_open (rdats V 1 c) cfg1.N) $$ Ha
    icases Ha' with ⟨%Fs, %hFs, Ha⟩
    have hjoin := Pipeline.unscopedBufs_of_arrays (p := 1) (pcfgs (F := F)) adm (Ix := Unit) (Name := ℕ) (U := UR sig nD τ) (Lvl := ℕ)
      launch1.win launch1.arr_whole c (fun p c => blank V (Pipeline.pin (pcfgs (F := F)) adm p) c)
      ((blank V cfg1 c).share_full fun _ => rfl)
      (atTc V c) (atTc (leftBy V c Fs) c) Fs
      (fun w => (Pipeline.withArrays_arr spec1 launch1.win.arr_inj c V Fs w).symm)
      (fun b hb => Pipeline.withArrays_of_ne spec1 c V Fs b fun w e => hb (Finset.mem_image.mpr ⟨w, Finset.mem_univ _, e⟩))
    rw [Pipeline.unscopedBufs_held,
      show (blank V (Pipeline.pin (pcfgs (F := F)) adm 1) c).arrays Fs = (rdats V 1 c).arrays Fs from rfl] at hjoin
    imodintro
    iexists (leftBy V c Fs)
    isplitr
    · ipureintro; exact kept_leftBy V c Fs hFs
    isplitl [Ha Hrest]
    · iapply hjoin
      isplitl [Ha]
      · iexact Ha
      iexact Hrest
    isplitl [HY]
    · iexact HY
    unfold Pipeline.RDat.owesAt Pipeline.owesWithin
    icases HO with ⟨%W, -, HO⟩; iexists W; iexact HO

end Region

set_option backward.isDefEq.respectTransparency.types false in
/-- The second region (custom_call 1), from the state between segments to that state. -/
theorem region1_step (c : Dev nD) {α : Type}
    (k : PUnit → Prog (TpuEff nD τ sig (Elt F) (Pipeline.Sig Λ₀ (Fin 3) fun p => (pcfgs (F := F) p).Adm) .tc) α) (Q : α → sProp 𝕄) :
    iprop((iprop(boundary (c : Thread nD τ) ∗ T m c) -∗ wp frame (wpE 𝔻 𝕍 (c : Thread nD τ) none) Set.univ (k ⟨⟩) Q)
        ∗ boundary (c : Thread nD τ) ∗ T m c ∗ levAts L lv
        ∗ Pipeline.cellsGhost (Pipeline.pin (pcfgs (F := F)) adm) emb₁ 1 c ∗ Pipeline.toksInit (Pipeline.pin (pcfgs (F := F)) adm) emb₁ 1 c)
      ⊢ wp frame (wpE 𝔻 𝕍 (c : Thread nD τ) none) Set.univ (.op (.customCall (Pipeline.entry 1) ()) k) Q := by
  unfold T
  iintro ⟨Hk, Hbd, ⟨%V, %hV, Hh, HR⟩, Hla, Hg, Ht⟩
  have hwp := Pipeline.RDat.RegionSeg.wp (pcfgs (F := F)) adm (rdats V) () cellOf_inj emb₁ defs₀ 𝒱₀ L lv (reg1 V) c none
    (fun u h => nomatch h) k Q
  dsimp only [reg1] at hwp
  iapply hwp
  isplitl [Hk]
  · iintro ⟨Hbd, %V', %hV', Hh, HR⟩
    iapply Hk
    isplitl [Hbd]
    · iexact Hbd
    iexists V'
    isplitr
    · ipureintro; exact fun b hb => (hV' b hb).trans (hV b hb)
    isplitl [Hh]
    · iexact Hh
    iexact HR
  isplitl [Hbd]
  · iexact Hbd
  isplitl [Hh HR]
  · isplitl [Hh]
    · iexact Hh
    iexact HR
  isplitl [Hla]
  · iexact Hla
  isplitl [Hg]
  · iexact Hg
  iexact Ht

/-- The host operation after it (the transpose), likewise. -/
theorem host_step (c : Dev nD) {β : Type}
    (k : PUnit → Prog (TpuEff nD τ sig (Elt F) (Pipeline.Sig Λ₀ (Fin 3) fun p => (pcfgs (F := F) p).Adm) .tc) β) (K : β → sProp 𝕄) :
    iprop((iprop(boundary (c : Thread nD τ) ∗ T m c) -∗ wp frame (wpE 𝔻 𝕍 (c : Thread nD τ) none) Set.univ (k ⟨⟩) K)
        ∗ boundary (c : Thread nD τ) ∗ T m c ∗ levAts L lv)
      ⊢ wp frame (wpE 𝔻 𝕍 (c : Thread nD τ) none) Set.univ (StableHlo.seq hostOps2 >>= k) K := by
  unfold T
  iintro ⟨Hk, Hbd, ⟨%V, %hV, Hh, HR⟩, Hla⟩
  have hrun := (Pipeline.HostSeg.ofOps (Name := ℕ) (U := UR sig nD τ) (pcfgs (F := F)) defs₀ 𝒱₀ L lv (Pipeline.ucRefs τ sig) hostOps2
      (fun op h => Pipeline.sub_ucRefs op ((List.forall_iff_forall_mem.mp hostOps2_sub) op h))
      (fun op h => (List.forall_iff_forall_mem.mp transpose_fresh) op h) (fun _ => V) (R (F := F))).run c k K
  dsimp only [Pipeline.HostSeg.ofOps] at hrun
  iapply hrun
  isplitl [Hk]
  · iintro ⟨Hbd, Hh, HR⟩
    iapply Hk
    isplitl [Hbd]
    · iexact Hbd
    iexists (StableHlo.after hostOps2 V)
    isplitr
    · ipureintro; exact keeps_transpose m c V hV
    isplitl [Hh]
    · iexact Hh
    iexact HR
  isplitl [Hbd]
  · iexact Hbd
  isplitl [Hh HR]
  · isplitl [Hh]
    · iexact Hh
    iexact HR
  iexact Hla

end Cert.Kernel.WordFrame

end
-- ==== Proof.KB.Body2.lean ====
/-
  The distance kernel's body on a 512 × 2560 block, as a Hoare triple at any float instance.

  The body loads its four input staging buffers whole (512 scaled rows of `x`, their squared lengths as a column,
  2560 scaled rows of `p`, their squared lengths as a row), computes, and stores the output staging buffer whole;
  the load of the output buffer it also makes is dead. So from the inputs' buffers at contents `x0 … x3` and the
  output's at anything, the body runs to the end with the inputs' buffers unchanged and the output's buffer holding
  the body's arithmetic (the payload) of the inputs' contents.
-/
import proofs.«173794_j18451179503909_2_alg».proof.Proof.Gen.Kernel.Skeleton
import Idealize.ShloMosaic.Lib.Pipeline.FrameBody
import Idealize.ShloMosaic.Lib.Pipeline.Kit
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The distance kernel on a 512 × 2560 block -/

/-- The whole buffers the body's accesses name: the 512 scaled rows of `x`, their squared lengths, the 2560 scaled
    rows of `p`, their squared lengths as a row, and the 512 × 2560 result block. -/
abbrev r2x : Rect S512x512 := Rect.unit (s := S512x512) ![0, 0] S512x512.size inb_S512x512_S512x512_0_0
abbrev r2s : Rect S512x1 := Rect.unit (s := S512x1) ![0, 0] S512x1.size inb_S512x1_S512x1_0_0
abbrev r2p : Rect S2560x512 := Rect.unit (s := S2560x512) ![0, 0] S2560x512.size inb_S2560x512_S2560x512_0_0
abbrev r2q : Rect S1x2560 := Rect.unit (s := S1x2560) ![0, 0] S1x2560.size inb_S1x2560_S1x2560_0_0
abbrev r2o : Rect S512x2560 := Rect.unit (s := S512x2560) ![0, 0] S512x2560.size inb_S512x2560_S512x2560_0_0

/-- What the body leaves in the result buffer, from the four input blocks (in the windows' order). -/
def out2_4 (x0 : Vec F S512x512 .bf16) (x1 : Vec F S512x1 .f32) (x2 : Vec F S2560x512 .bf16) (x3 : Vec F S1x2560 .f32) :
    Vec F S512x2560 .f32 :=
  View.canon [⟨r2o, k2_pay1 (View.ld x0 r2x) (View.ld x2 r2p) (View.ld x1 r2s) (View.ld x3 r2q)⟩]

/-- One whole-buffer store covers the buffer. -/
theorem cover2_4 (p0 : Vec F S512x2560 .f32) (y : S512x2560.Idx) :
    ∃ pc ∈ ([⟨r2o, p0⟩] : List (View.Piece (Elt F) S512x2560 .f32)), y ∈ pc.1.set :=
  View.cover_of_tiled [⟨r2o, p0⟩] S512x2560.size (by rfl) y

set_option maxHeartbeats 1000000 in
/-- The body on whole staging memrefs: the four inputs' at contents `x0 … x3`, the output's at anything. -/
theorem sound_kernel2 (c : Dev nD) (E : Set ℕ) (i : grid2.Coords)
    (arg2 : Memref sig .tc .vmem S512x512 .bf16) (harg2 : arg2.IsWhole)
    (arg3 : Memref sig .tc .vmem S512x1 .f32) (harg3 : arg3.IsWhole)
    (arg4 : Memref sig .tc .vmem S2560x512 .bf16) (harg4 : arg4.IsWhole)
    (arg5 : Memref sig .tc .vmem S1x2560 .f32) (harg5 : arg5.IsWhole)
    (arg6 : Memref sig .tc .vmem S512x2560 .f32) (harg6 : arg6.IsWhole)
    (x0 : Vec F S512x512 .bf16) (x1 : Vec F S512x1 .f32) (x2 : Vec F S2560x512 .bf16) (x3 : Vec F S1x2560 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out2_4 x0 x1 x2 x3)) -∗ K ⟨⟩))
      ⊢ wp frame (wpE (defs₀ (F := F)) Variants.none c none) E
          (cc2__dist_kernel i arg2 harg2 arg3 harg3 arg4 harg4 arg5 harg5 arg6 harg6) K := by
  simp only [cc2__dist_kernel_eq_skeleton]; unfold cc2__dist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

end Cert.Kernel.Body

end
-- ==== Proof.KB.Step2.lean ====
/-
  The word-level program's frame: one step per later segment of @main, each from the state between segments to
  that state again, under any continuation. A region is entered at whatever valuation the state holds: its proof
  data are chosen then, with every window forgotten (the body is handed each staging buffer at contents nothing
  names and leaves it so), so its arrays end at contents nothing names either, the input arrays as they were.
-/
import proofs.«173794_j18451179503909_2_alg».proof.Proof.KB.State
import proofs.«173794_j18451179503909_2_alg».proof.Proof.KB.Body2
import proofs.«173794_j18451179503909_2_alg».proof.Proof.Gen.Kernel.Launch
import proofs.«173794_j18451179503909_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Kit
import Idealize.ShloMosaic.Lib.Tactic

set_option maxRecDepth 16384

noncomputable section

namespace Cert.Kernel.WordFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

local notation "𝔻" => Pipeline.defs (pcfgs (F := F)) (defs₀ (F := F))
local notation "𝕍" => Variants.lift 𝒱₀

/-! The third region's own proof data, body obligation and record, under a name of their own. -/
namespace Reg2

/-! ## The proof data of a region entered at a valuation, every window forgotten -/

/-- Proof data of a pipeline entered at the valuation V: its arrays as V has them, the invariant the untouched scoped
    buffers and the generator register, nothing owed, full shares; what the body leaves is not named. -/
def datAt (cfg : Cfg sig Λ₀) (c : Dev nD) (V : Valuation τ sig (Elt F)) : Dat τ (Elt F) Unit ℕ (UR sig nD τ) ℕ cfg c where
  A w := V (Pipeline.arrRef cfg.spec w)
  after w t := Pipeline.Dat.unnamed w t
  Φ _ := Pipeline.ΦA cfg.spec c
  q _ := fullShare
  owed _ := 0

/-- Every pipeline's such data at one valuation, -/
def pdats (V : Valuation τ sig (Elt F)) : (p : Fin 3) → (c : Dev nD) → Dat τ (Elt F) Unit ℕ (UR sig nD τ) ℕ (Pipeline.pin (pcfgs (F := F)) adm p) c
  | ⟨0, _⟩ => fun c => datAt cfg0 c V
  | ⟨1, _⟩ => fun c => datAt cfg1 c V
  | ⟨2, _⟩ => fun c => datAt cfg2 c V

/-- and read relationally with every window forgotten: nothing is asked of what the body leaves in any buffer. -/
def rdats (V : Valuation τ sig (Elt F)) (p : Fin 3) (c : Dev nD) : RDat τ (Elt F) Unit ℕ (UR sig nD τ) ℕ (Pipeline.pin (pcfgs (F := F)) adm p) c :=
  (pdats V p c).toRForget fun _ => true

/-! ## The body at a point, its buffers at contents nothing names -/

/-- The distance kernel's body from its five staging buffers at any contents to the same at any contents, with
    whatever else the core holds carried along. -/
theorem run_at2 (c : Dev nD) (t : Fin cfg2.N) (R₁ R₂ : sProp 𝕄) :
    iprop(R₁ ∗ R₂
        ∗ (∃ X, owns (c : Thread nD τ) (st2_0 t) fullShare X)
        ∗ (∃ X, owns (c : Thread nD τ) (st2_1 t) fullShare X)
        ∗ (∃ X, owns (c : Thread nD τ) (st2_2 t) fullShare X)
        ∗ (∃ X, owns (c : Thread nD τ) (st2_3 t) fullShare X)
        ∗ (∃ X, owns (c : Thread nD τ) (st2_4 t) fullShare X))
      ⊢ wp frame (wpE (defs₀ (F := F)) Variants.none c none) Set.univ (bodyAt2 t) (fun _ =>
          iprop(R₁ ∗ R₂
            ∗ (∃ X, owns (c : Thread nD τ) (st2_0 t) fullShare X)
            ∗ (∃ X, owns (c : Thread nD τ) (st2_1 t) fullShare X)
            ∗ (∃ X, owns (c : Thread nD τ) (st2_2 t) fullShare X)
            ∗ (∃ X, owns (c : Thread nD τ) (st2_3 t) fullShare X)
            ∗ (∃ X, owns (c : Thread nD τ) (st2_4 t) fullShare X))) := by
  unfold bodyAt2
  iintro ⟨HR₁, HR₂, ⟨%x0, H0⟩, ⟨%x1, H1⟩, ⟨%x2, H2⟩, ⟨%x3, H3⟩, H4⟩
  iapply (Body.sound_kernel2 c Set.univ (grid2.coords t) _ _ _ _ _ _ _ _ _ _ x0 x1 x2 x3 _)
  isplitl [H0]; · iexact H0
  isplitl [H1]; · iexact H1
  isplitl [H2]; · iexact H2
  isplitl [H3]; · iexact H3
  isplitl [H4]; · iexact H4
  iintro ⟨H0, H1, H2, H3, H4⟩
  isplitl [HR₁]; · iexact HR₁
  isplitl [HR₂]; · iexact HR₂
  isplitl [H0]; · iexists _; iexact H0
  isplitl [H1]; · iexists _; iexact H1
  isplitl [H2]; · iexists _; iexact H2
  isplitl [H3]; · iexists _; iexact H3
  iexists _; iexact H4

/-- The body obligation with every window forgotten: the invariant and what the core owes do not change from point to
    point and the body does not read them. -/
theorem body_obligation2 (V : Valuation τ sig (Elt F)) (c : Dev nD) :
    BodyObligation (datAt (F := F) cfg2 c V) (defs₀ (F := F)) Variants.none () Set.univ (fun _ => true) := fun t => by
  rw [bigSep_W2]
  exact run_at2 c t ((datAt (F := F) cfg2 c V).Φ t.castSucc) ((datAt (F := F) cfg2 c V).owesAt () t.castSucc)

/-! ## The kept references through the region -/

/-- The third region reads the first region's two results and writes neither, and the two arguments are no array of
    it: whatever its arrays hold after its write-backs, the valuation with them there keeps what the one it was entered
    at kept. -/
theorem keeps_exit2 (c : Dev nD) (V : Valuation τ sig (Elt F)) (hV : Keeps m c V)
    (Fs : (w : Fin cfg2.W) → Buf (Elt F) ((cfg2.win w).arr.view.loc (c : Thread nD τ)))
    (hFs : ∀ w, (rdats V 2 c).ArrAt w cfg2.N (Fs w)) : Keeps m c (Pipeline.withArrays spec2 c V Fs) := by
  intro b hb
  rw [← hV b hb]
  simp only [kept, List.mem_cons, List.not_mem_nil, or_false] at hb
  rcases hb with rfl | rfl | rfl | rfl
  · exact Pipeline.withArrays_of_ne spec2 c V Fs main_arg0 (by decide)
  · exact Pipeline.withArrays_of_ne spec2 c V Fs main_arg1 (by decide)
  · have h0 := hFs 0
    rw [(rdats V 2 c).ArrAt_in 0 rfl] at h0
    exact (Pipeline.withArrays_arr spec2 launch2.win.arr_inj c V Fs 0).trans h0
  · have h1 := hFs 1
    rw [(rdats V 2 c).ArrAt_in 1 rfl] at h1
    exact (Pipeline.withArrays_arr spec2 launch2.win.arr_inj c V Fs 1).trans h1

/-! ## The region as a segment, entered at a valuation -/

set_option backward.isDefEq.respectTransparency.types false in
/-- The third region entered from every unscoped buffer at a valuation V that keeps the kept references, left at the
    state between segments: its arrays are split out of the unscoped buffers and put back at whatever they hold after
    the write-backs; the generator register goes into the invariant and out; nothing is owed; the kernel has no
    semaphore of its own. -/
def reg2 (V : Valuation τ sig (Elt F)) : Pipeline.RDat.RegionSeg (pcfgs (F := F)) adm (rdats V) () defs₀ 𝒱₀ L lv 2 where
  win := launch2.win.to₀
  block_pos := launch2.block_pos
  stage_whole := launch2.stage_whole
  K := PEmpty
  osem k := k.elim
  ho := Pipeline.OwnSemFacts.none _
  hbody c := (body_obligation2 V c).toRForget
  hwaits := Pipeline.RDat.hwaits_of_owed_zero _ _ _ _ L lv 2 fun _ _ => rfl
  pre c := iprop(⌜Keeps m c V⌝ ∗ StableHlo.held (c : Thread nD τ) (Pipeline.ucRefs τ sig) V ∗ R c)
  post c := T m c
  X c := iprop(∃ r, prngReg c r)
  Y c := iprop(∃ r, prngReg c r)
  Z c := iprop(⌜Keeps m c V⌝ ∗ Pipeline.unscopedRest (Ix := Unit) (Name := ℕ) (U := UR sig nD τ) (Lvl := ℕ) spec2 c (fun b => V b))
  hentry c := by
    rw [Pipeline.ownSems0_none]
    have hsplit := Pipeline.RDat.arrays_of_unscopedBufs (p := 2) (pcfgs (F := F)) adm (rdats V) launch2.win launch2.arr_whole c
      ((rdats V 2 c).share_full fun _ => rfl) (fun b => V b) fun _ => rfl
    rw [Pipeline.unscopedBufs_held] at hsplit
    iintro ⟨⟨%hV, Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    isplitr; · ipureintro; exact hV
    iexact Hrest
  hin c := by
    rw [show (rdats V 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats V 2 c).Φ (Fin.last _) = Pipeline.ΦA spec2 c from rfl]; unfold Pipeline.ΦA
    iintro ⟨Hr, Hp⟩
    isplitl [Hp]; · iexact Hp
    isplitr; · iempintro
    iexact Hr
  hexit c := by
    classical
    unfold Pipeline.RDat.arraysAt
    iintro ⟨Ha, HO, HY, ⟨%hV, Hrest⟩⟩
    ihave Ha' := (BI.bigSep_exists_pi Finset.univ (fun (w : Fin cfg2.W) F => iprop(⌜(rdats V 2 c).ArrAt w cfg2.N F⌝
        ∗ (cfg2.win w).arr.view.loc (c : Thread nD τ) ↦[(cfg2.win w).arr.view.set]{(rdats V 2 c).share w} F))) $$ Ha
    icases Ha' with ⟨%Fs, Ha⟩
    ihave Ha2 := (BI.bigSep_pure_sep Finset.univ (fun (w : Fin cfg2.W) => (rdats V 2 c).ArrAt w cfg2.N (Fs w))
        (fun w => (cfg2.win w).arr.view.loc (c : Thread nD τ) ↦[(cfg2.win w).arr.view.set]{(rdats V 2 c).share w} Fs w)) $$ Ha
    icases Ha2 with ⟨%hFs, Ha⟩
    have hjoin := Pipeline.unscopedBufs_of_arrays (p := 2) (pcfgs (F := F)) adm (Ix := Unit) (Name := ℕ) (U := UR sig nD τ) (Lvl := ℕ)
      launch2.win launch2.arr_whole c (pdats V) ((pdats V 2 c).share_full fun _ => rfl)
      (fun b => V b) (fun b => Pipeline.withArrays spec2 c V Fs b) Fs
      (fun w => (Pipeline.withArrays_arr spec2 launch2.win.arr_inj c V Fs w).symm)
      (fun b hb => Pipeline.withArrays_of_ne spec2 c V Fs b fun w e => hb (Finset.mem_image.mpr ⟨w, Finset.mem_univ _, e⟩))
    rw [Pipeline.unscopedBufs_held] at hjoin
    unfold Pipeline.Dat.arrays at hjoin
    imodintro
    unfold T
    iexists (Pipeline.withArrays spec2 c V Fs)
    isplitr
    · ipureintro; exact keeps_exit2 m c V hV Fs fun w => hFs w (Finset.mem_univ w)
    isplitl [Ha Hrest]
    · iapply hjoin
      isplitl [Ha]
      · iexact Ha
      iexact Hrest
    isplitl [HY]; · iexact HY
    unfold Pipeline.RDat.owesAt Pipeline.owesWithin
    icases HO with ⟨%W, -, HO⟩; iexists W; iexact HO

end Reg2

open Reg2 in
set_option backward.isDefEq.respectTransparency.types false in
/-- The third region (custom_call 2), from the state between segments to that state. -/
theorem region2_step (c : Dev nD) {α : Type}
    (k : PUnit → Prog (TpuEff nD τ sig (Elt F) (Pipeline.Sig Λ₀ (Fin 3) fun p => (pcfgs (F := F) p).Adm) .tc) α) (Q : α → sProp 𝕄) :
    iprop((iprop(boundary (c : Thread nD τ) ∗ T m c) -∗ wp frame (wpE 𝔻 𝕍 (c : Thread nD τ) none) Set.univ (k ⟨⟩) Q)
        ∗ boundary (c : Thread nD τ) ∗ T m c ∗ levAts L lv
        ∗ Pipeline.cellsGhost (Pipeline.pin (pcfgs (F := F)) adm) emb₁ 2 c ∗ Pipeline.toksInit (Pipeline.pin (pcfgs (F := F)) adm) emb₁ 2 c)
      ⊢ wp frame (wpE 𝔻 𝕍 (c : Thread nD τ) none) Set.univ (.op (.customCall (Pipeline.entry 2) ()) k) Q := by
  iintro ⟨Hk, Hbd, HT, #Hla, Hg, Ht⟩
  ihave HT' := (show T m c ⊢ iprop(∃ V : Valuation τ sig (Elt F), ⌜Keeps m c V⌝ ∗ StableHlo.held (c : Thread nD τ) (Pipeline.ucRefs τ sig) V ∗ R c) from by unfold T; exact .rfl) $$ HT
  icases HT' with ⟨%V, %hV, Hh, HR⟩
  iapply (Pipeline.RDat.RegionSeg.wp (pcfgs (F := F)) adm (rdats V) () cellOf_inj emb₁ defs₀ 𝒱₀ L lv (reg2 m V) c none (fun u h => nomatch h) k Q)
  isplitl [Hk]; · iexact Hk
  isplitl [Hbd]; · iexact Hbd
  isplitl [Hh HR]
  · iapply (show iprop(⌜Keeps m c V⌝ ∗ StableHlo.held (c : Thread nD τ) (Pipeline.ucRefs τ sig) V ∗ R c) ⊢ (reg2 m V).pre c from .rfl)
    isplitr; · ipureintro; exact hV
    isplitl [Hh]; · iexact Hh
    iexact HR
  isplitr; · iexact Hla
  isplitl [Hg]; · iexact Hg
  iexact Ht

end Cert.Kernel.WordFrame

end
-- ==== Proof.KB.Frame.lean ====
/-
  The word-level program's frame: the launch. The first region runs from the launch memory with its exact proof
  data (its blocks tile the array); what follows it — the second region, the transpose, the third region — runs from
  the state between segments, each step from that state to itself, so that no contents the later regions leave
  need be named. At the end the first region's arrays are split back out of whatever valuation the state holds: the
  state keeps them at what the first region left, and the first argument is an input array, never written; the second
  argument is among the kept references and no array of the first region, so it is read off the rest.
-/
import proofs.«173794_j18451179503909_2_alg».proof.Proof.KB.State
import proofs.«173794_j18451179503909_2_alg».proof.Proof.KB.Step1
import proofs.«173794_j18451179503909_2_alg».proof.Proof.KB.Step2
import proofs.«173794_j18451179503909_2_alg».proof.Proof.KB.Dat0
import proofs.«173794_j18451179503909_2_alg».proof.Proof.Gen.Kernel.Launch
import proofs.«173794_j18451179503909_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Kit
import Idealize.ShloMosaic.Lib.Tactic

set_option maxRecDepth 16384

noncomputable section

namespace Cert.Kernel.WordFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

local notation "𝔻" => Pipeline.defs (pcfgs (F := F)) (defs₀ (F := F))
local notation "𝕍" => Variants.lift 𝒱₀

/-! ## What the first region leaves -/

theorem W1_arr (c : Dev nD) (w : Fin cfg0.W) :
    W1 m c (Proc.devRef .tc (Pipeline.arrRef spec0 w)) = (Reg0.dat (F := F) (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

/-! ## The proof data family -/

/-- Proof data of the second and third pipelines, for the family's type alone: the launch reads the first pipeline's. -/
def idle1 (c : Dev nD) : Dat τ (Elt F) Unit ℕ (UR sig nD τ) ℕ cfg1 c where
  A w := V0 m c (Pipeline.arrRef spec1 w)
  after w t := Dat.unnamed w t
  Φ _ := Pipeline.ΦA spec1 c
  q _ := fullShare
  owed _ := 0
def idle2 (c : Dev nD) : Dat τ (Elt F) Unit ℕ (UR sig nD τ) ℕ cfg2 c where
  A w := V0 m c (Pipeline.arrRef spec2 w)
  after w t := Dat.unnamed w t
  Φ _ := Pipeline.ΦA spec2 c
  q _ := fullShare
  owed _ := 0
/-- Every pipeline's proof data: the first region's exact data at the launch contents. -/
def pdats : (p : Fin 3) → (c : Dev nD) → Dat τ (Elt F) Unit ℕ (UR sig nD τ) ℕ (Pipeline.pin (pcfgs (F := F)) adm p) c
  | ⟨0, _⟩ => fun c => Reg0.dat (F := F) (V0 m) c
  | ⟨1, _⟩ => fun c => idle1 m c
  | ⟨2, _⟩ => fun c => idle2 m c

/-! ## @main after its first region -/

/-- The second region, the transpose, the third region, the return. -/
abbrev rest : PUnit.{1} → Prog (TpuEff nD τ sig (Elt F) (Pipeline.Sig Λ₀ (Fin 3) fun p => (pcfgs (F := F) p).Adm) .tc) PUnit :=
  fun _ => .op (.customCall (Pipeline.entry 1) ()) fun _ =>
    StableHlo.seq hostOps2 >>= fun _ => .op (.customCall (Pipeline.entry 2) ()) fun _ => .ret ⟨⟩
theorem main_eq (c : Dev nD) : main (F := F) c = .op (.customCall (Pipeline.entry 0) ()) rest :=
  (main_chain c).trans (by chain_rfl)

/-- What the end reads beside the first region's arrays: the generator register, and the first region's other
    unscoped buffers at some valuation that keeps the kept references. -/
abbrev Yr (c : Dev nD) : sProp 𝕄 := iprop(∃ r, prngReg c r)
def Zr (c : Dev nD) : sProp 𝕄 :=
  iprop(∃ V : Valuation τ sig (Elt F), ⌜Keeps m c V⌝ ∗ Pipeline.unscopedRest spec0 c (fun b => V (Proc.devRef .tc b)))

/-! ## The state between segments, made and opened -/

/-- The first region's arrays as it leaves them, beside its other unscoped buffers as launched, are every unscoped
    buffer at what the first region leaves. -/
theorem held_W1 (c : Dev nD) :
    iprop((bigSep Finset.univ fun w : Fin cfg0.W => (((c : Thread nD τ).loc (Pipeline.arrRef spec0 w)) ↦{fullShare} (Reg0.dat (F := F) (V0 m) c).arrAt w cfg0.N : sProp 𝕄))
        ∗ Pipeline.unscopedRest (Ix := Unit) (Name := ℕ) (U := UR sig nD τ) (Lvl := ℕ) spec0 c (V0 m c))
      ⊢ (StableHlo.held (c : Thread nD τ) (Pipeline.ucRefs τ sig) (W1 m c) : sProp 𝕄) := by
  rw [← Pipeline.unscopedBufs_held c (W1 m c), Pipeline.unscopedBufs_split cfgs 0 launch0.win.arr_unscoped launch0.win.arr_inj c]
  refine BIClass.sep_mono (Entails.of_eq (bigSep_congr fun w _ => by
    have e : W1 m c (Proc.devRef .tc (Pipeline.arrRef (cfgs 0).spec w)) = (Reg0.dat (F := F) (V0 m) c).arrAt w cfg0.N := W1_arr m c w
    rw [e]; rfl)) (Entails.of_eq ?_)
  unfold Pipeline.unscopedRest
  exact bigSep_congr fun b hb => by
    beta_reduce
    rw [W1_of_ne m c b fun w e => (Finset.mem_sdiff.mp hb).2 (Finset.mem_image.mpr ⟨w, Finset.mem_univ _, e⟩)]

/-- The second argument is an unscoped buffer of the core that is no array of the first region. -/
theorem arg1_rest : main_arg1 ∈ (Finset.univ.filter fun b : Ref sig .tc => ¬ b.isScoped) \ Finset.univ.image (Pipeline.arrRef spec0) := by
  decide

/-- Every array of the first region is a kept reference. -/
theorem arr_kept : ∀ w : Fin cfg0.W, Pipeline.arrRef spec0 w ∈ (kept : List (Ref sig .tc)) := by decide

/-- Every unscoped buffer at a valuation that keeps the kept references: the first region's arrays are there as the
    first region left them, beside its other unscoped buffers at that valuation. -/
theorem held_split (c : Dev nD) (V : Valuation τ sig (Elt F)) (hV : Keeps m c V) :
    (StableHlo.held (c : Thread nD τ) (Pipeline.ucRefs τ sig) V : sProp 𝕄)
      ⊢ iprop((bigSep Finset.univ fun w : Fin cfg0.W => (((c : Thread nD τ).loc (Pipeline.arrRef spec0 w)) ↦{fullShare} (Reg0.dat (F := F) (V0 m) c).arrAt w cfg0.N : sProp 𝕄))
        ∗ Pipeline.unscopedRest (Ix := Unit) (Name := ℕ) (U := UR sig nD τ) (Lvl := ℕ) spec0 c (fun b => V (Proc.devRef .tc b))) := by
  rw [← Pipeline.unscopedBufs_held c V, Pipeline.unscopedBufs_split cfgs 0 launch0.win.arr_unscoped launch0.win.arr_inj c]
  exact BIClass.sep_mono (Entails.of_eq (bigSep_congr fun w _ => by
    have e : V (Proc.devRef .tc (Pipeline.arrRef (cfgs 0).spec w)) = (Reg0.dat (F := F) (V0 m) c).arrAt w cfg0.N :=
      (hV _ (arr_kept w)).trans (W1_arr m c w)
    rw [e]; rfl)) .rfl

/-! ## @main after its first region, run -/

set_option backward.isDefEq.respectTransparency.types false in
/-- From what outlives the first region — its arrays as it leaves them, its other unscoped buffers as launched, the
    generator register, nothing owed, the other two pipelines' launch ghost state — the second region, the transpose
    and the third region run, each from the state between segments to that state, and the return hands back the first
    region's arrays as it left them. -/
theorem rest_run (c : Dev nD) (Q' : PUnit.{1} → sProp 𝕄) :
    iprop((iprop((bigSep Finset.univ fun w : Fin cfg0.W => (((c : Thread nD τ).loc (Pipeline.arrRef spec0 w)) ↦{fullShare} (Reg0.dat (F := F) (V0 m) c).arrAt w cfg0.N : sProp 𝕄))
              ∗ Yr c ∗ Zr m c ∗ (∃ W, owes (c : Thread nD τ) (0 : CellTallies nD τ sig Unit) W)) -∗ Q' ⟨⟩)
          ∗ boundary (c : Thread nD τ)
          ∗ (bigSep Finset.univ fun w : Fin cfg0.W => (((c : Thread nD τ).loc (Pipeline.arrRef spec0 w)) ↦{fullShare} (Reg0.dat (F := F) (V0 m) c).arrAt w cfg0.N : sProp 𝕄))
          ∗ Yr c ∗ Pipeline.unscopedRest (Ix := Unit) (Name := ℕ) (U := UR sig nD τ) (Lvl := ℕ) spec0 c (V0 m c)
          ∗ (Reg0.dat (F := F) (V0 m) c).owesAt () (Fin.last cfg0.N) ∗ levAts L lv
          ∗ Pipeline.restGhost (pcfgs (F := F)) adm 0 emb₁ c)
        ⊢ wp frame (wpE 𝔻 𝕍 (c : Thread nD τ) none) Set.univ (rest ⟨⟩) Q' := by
  have hg : (Pipeline.restGhost (pcfgs (F := F)) adm 0 emb₁ c : sProp 𝕄)
      = iprop((Pipeline.cellsGhost (Pipeline.pin (pcfgs (F := F)) adm) emb₁ 1 c ∗ Pipeline.toksInit (Pipeline.pin (pcfgs (F := F)) adm) emb₁ 1 c)
          ∗ (Pipeline.cellsGhost (Pipeline.pin (pcfgs (F := F)) adm) emb₁ 2 c ∗ Pipeline.toksInit (Pipeline.pin (pcfgs (F := F)) adm) emb₁ 2 c)) := by
    show bigSep (Finset.univ.erase (0 : Fin 3)) (fun p' => iprop(Pipeline.cellsGhost (Pipeline.pin (pcfgs (F := F)) adm) emb₁ p' c
      ∗ Pipeline.toksInit (Pipeline.pin (pcfgs (F := F)) adm) emb₁ p' c)) = _
    rw [show Finset.univ.erase (0 : Fin 3) = insert 1 {2} from by decide, bigSep_insert (by decide), bigSep_singleton]
    rfl
  rw [hg]
  iintro ⟨Hk, Hbd, Harr, HY, HZ, HO, #Hla, ⟨Hg1, Ht1⟩, ⟨Hg2, Ht2⟩⟩
  ihave Hheld := (held_W1 m c) $$ [Harr HZ]
  · isplitl [Harr] <;> iassumption
  iapply (region1_step m c _ _)
  isplitr [Hbd Hheld HY HO Hg1 Ht1]
  · iintro ⟨Hbd, HT⟩
    iapply (host_step m c _ _)
    isplitr [Hbd HT]
    · iintro ⟨Hbd, HT⟩
      iapply (region2_step m c _ _)
      isplitr [Hbd HT Hg2 Ht2]
      · iintro ⟨Hbd, HT⟩
        rw [wp_ret]
        imodintro
        iapply Hk
        unfold T
        icases HT with ⟨%V, %hV, Hh, HY, HO⟩
        ihave Hs := (held_split m c V hV) $$ Hh
        icases Hs with ⟨Harr, Hrest⟩
        isplitl [Harr]; · iexact Harr
        isplitl [HY]; · iexact HY
        isplitl [Hrest]
        · unfold Zr; iexists V
          isplitr; · ipureintro; exact hV
          iexact Hrest
        iexact HO
      · isplitl [Hbd]; · iexact Hbd
        isplitl [HT]; · iexact HT
        isplitr; · iexact Hla
        isplitl [Hg2] <;> iassumption
    · isplitl [Hbd]; · iexact Hbd
      isplitl [HT]; · iexact HT
      iexact Hla
  · isplitl [Hbd]; · iexact Hbd
    isplitl [Hheld HY HO]
    · unfold T; iexists (W1 m c)
      isplitr; · ipureintro; exact fun _ _ => rfl
      isplitl [Hheld]; · iexact Hheld
      isplitl [HY]; · iexact HY
      unfold Pipeline.Dat.owesAt Pipeline.owesWithin
      icases HO with ⟨%W, -, HO⟩; iexists W; iexact HO
    isplitr; · iexact Hla
    isplitl [Hg1] <;> iassumption

/-! ## The launch -/

set_option backward.isDefEq.respectTransparency.types false in
/-- The frame: from any memory with zero counters, every weakly fair execution of @main on the TensorCores
    terminates, nothing faulting, and every final state holds the two argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_pf_tail (pcfgs (F := F)) adm (pdats m) () cellOf_inj (0 : Fin 3)
    launch0.win.to₀ (Pipeline.OwnSemFacts.none _) (Pipeline.PreFacts.none _) emb₁ defs₀ 𝒱₀ m ρ main rest
    (main_eq)
    (fun c => (Reg0.body_obligation (V0 m) c).loose)
    launch0.block_pos launch0.arr_whole launch0.stage_whole
    (fun c => (pdats m 0 c).share_full fun _ => rfl) launch0.win.arr_inj
    (O₀ := 0) (howed₀ := fun _ => rfl) (L := L) (lv := lv) (hL := fun _ _ => rfl)
    (hwaits := Pipeline.hwaits_of_owed_zero _ _ _ _ L lv 0 fun _ _ => rfl)
    (G := fun _ => iprop(emp)) (G' := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (hglob := by
      iintro -; imodintro
      iapply (show (BI.emp : sProp 𝕄) ⊢ bigSep Finset.univ (fun _ : Dev nD => (BI.emp : sProp 𝕄)) from by rw [BI.bigSep_emp_const])
      iempintro)
    (hA := fun c w => Reg0.A_eq (V0 m) c w)
    (hpf := fun _ k => k.elim0)
    (X := Yr) (Y := Yr) (Z := fun c => Pipeline.unscopedRest (Ix := Unit) (Name := ℕ) (U := UR sig nD τ) (Lvl := ℕ) spec0 c (V0 m c))
    (Y' := Yr) (Z' := Zr m)
    (hX := fun c => by
      iintro ⟨HU, -, -, -, Hp, -⟩; imodintro
      isplitl [Hp]; · iexists _; iexact Hp
      iapply (Entails.of_eq (Pipeline.unscopedRestP_none (Ix := Unit) (Name := ℕ) (U := UR sig nD τ) (Lvl := ℕ) spec0 c (V0 m c)))
      iexact HU)
    (hin := fun c => by
      rw [show (pdats m 0 c).Φ 0 = Pipeline.ΦA spec0 c from rfl]; unfold Pipeline.ΦA
      iintro ⟨Hp, -, Hr⟩
      isplitl [Hr]; · iexact Hr
      iexact Hp)
    (hout := fun c => by
      rw [Pipeline.ownSems0_none, show (pdats m 0 c).Φ (Fin.last _) = Pipeline.ΦA spec0 c from rfl]; unfold Pipeline.ΦA
      iintro ⟨Hr, Hp⟩
      isplitl [Hp]; · iexact Hp
      isplitr; · iempintro
      iexact Hr)
    (htail := fun c Q' => rest_run m c Q')
    (QY := fun c s => s.mem ((c.tc : Thread nD τ).loc main_arg1) = m ((c.tc : Thread nD τ).loc main_arg1))
    (hY := fun c s' => by
      unfold Zr
      iintro ⟨-, ⟨%V, %hV, HU⟩, HSI⟩
      unfold Pipeline.unscopedRest
      ihave Hr := (pointsTo_read_all _ (fun b => (c.tc : Thread nD τ).loc b) (fun b => V (Proc.devRef .tc b)) s') $$ [HU HSI]
      · isplitl [HU] <;> iassumption
      icases Hr with ⟨%h, HSI⟩
      imodintro
      isplitr
      · ipureintro
        exact (h main_arg1 arg1_rest).trans ((hV main_arg1 (by decide)).trans (W1_of_ne m c main_arg1 (by decide)))
      · iexact HSI)
    (hQ := fun s h c => ⟨((h c).1 0).trans (((pdats m 0 c).arrAt_in 0 rfl _).trans (Reg0.A_eq (V0 m) c 0)), (h c).2.2⟩)

end Cert.Kernel.WordFrame

end
-- ==== Proof.lean ====
/-
  The certificate's proof.

  Both programs compute, at the ideal values, the squared distances of the rows of `x` and `p` after each row has
  been scaled to length 3: with `n_v[r,d] = v[r,d] · (3 · rsqrt (max (Σ_k v[r,k]²) ε))` the result at (b, c) is
  `(Σ_d n_x[b,d]² + Σ_d n_p[c,d]²) − 2 · Σ_d n_x[b,d] · n_p[c,d]` (Proof/Spec.lean, `Dist.G`). The kernel does it in
  three pipelined regions — two that scale the rows of `x` and of `p` block by block and keep their squared lengths,
  one that combines them block by block around a matrix product —, the reference in one line of whole-array
  operations that groups the scale as `3 · (v · rsqrt …)`; multiplication on the extended reals commutes and
  associates at every value, so the two groupings agree and no finiteness is used. The format changes (the bf16
  copies the matrix product reads) are the identity at the ideal values. Ten thousand rows are not a multiple of the
  2560-row blocks: the last block of `p` is cut at the array's end, the rows the fetch does not fill hold values
  nothing names, and since each row (column) of a result depends on that row (column) of the operands alone, nothing
  they influence is written back.
  The frames: the idealized kernel's is its run read at the arguments; the reference's its run with the result
  dropped; the word-level kernel's is proved apart (Proof/KB), without naming what the cut regions leave: at the word
  level a lane sum is a function of its whole source about which nothing else is known.
-/
import proofs.«173794_j18451179503909_2_alg».proof.Defs
import proofs.«173794_j18451179503909_2_alg».proof.Proof.Gen.Kernel
import proofs.«173794_j18451179503909_2_alg».proof.Proof.Gen.KernelIdeal
import proofs.«173794_j18451179503909_2_alg».proof.Proof.Gen.ReferenceIdeal
import proofs.«173794_j18451179503909_2_alg».proof.Proof.Gen.ReferenceIdeal.Run
import proofs.«173794_j18451179503909_2_alg».proof.Proof.Gen.ReferenceIdeal.Read
import proofs.«173794_j18451179503909_2_alg».proof.Proof.Gen.Pre_finite_inputs
import proofs.«173794_j18451179503909_2_alg».proof.Proof.RefSpec
import proofs.«173794_j18451179503909_2_alg».proof.Proof.KI.Final
import proofs.«173794_j18451179503909_2_alg».proof.Proof.KB.Frame

noncomputable section

namespace Cert.Proof

open Idealize.ShloMosaic Idealize.ShloMosaic.TcCoe Idealize.SL.Sem

/-- An unscoped TensorCore reference is among those the run's post speaks of. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- The word-level kernel runs and leaves its arguments unchanged. -/
theorem frame_k : Cert.frame_Kernel := fun m ρ _ => Cert.Kernel.WordFrame.frame (F := Bits) m ρ

/-- The idealized kernel's run, read at the two arguments. -/
theorem frame_ki : Cert.frame_KernelIdeal := fun m ρ _ =>
  (θ_run Cert.KernelIdeal.defs _ _).mono
    (fun r h c => ⟨(h c _ (mem_uc Cert.KernelIdeal.main_arg0 (by decide))).trans (Cert.KernelIdeal.Run.W4_main_arg0 m c),
      (h c _ (mem_uc Cert.KernelIdeal.main_arg1 (by decide))).trans (Cert.KernelIdeal.Run.W4_main_arg1 m c)⟩)
    (Cert.KernelIdeal.Run.run_all m ρ)

/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `Dist.G` of the two
    arguments: the kernel's three regions by the blocks' arithmetic and the covers, the reference's operations read
    one at a time. -/
theorem algebraic : Cert.algebraic_KernelIdeal_ReferenceIdeal := by
  intro m ρ m' ρ' _ hagree
  refine ⟨fun c => Cert.Dist.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c _ (mem_uc Cert.KernelIdeal.main_v3 (by decide))).trans (Cert.KernelIdeal.Run.final_v3 m c),
        (h c _ (mem_uc Cert.KernelIdeal.main_arg0 (by decide))).trans (Cert.KernelIdeal.Run.W4_main_arg0 m c),
        (h c _ (mem_uc Cert.KernelIdeal.main_arg1 (by decide))).trans (Cert.KernelIdeal.Run.W4_main_arg1 m c)⟩)
      (Cert.KernelIdeal.Run.run_all m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (Cert.ReferenceIdeal.Read.val_main_v32_eq _ _).trans (Cert.ReferenceIdeal.RefValue.ref_eq_G _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
